-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_100000" .f32 0x3727C5AC#32 ((1 / 100000 : ℝ) : EReal)
  ∧ IdealRules.named_const.Statement Cert.KernelIdeal.κ "inv_100000" .f32 0x3727C5AC#32 ((1 / 100000 : ℝ) : EReal)
  ∧ IdealRules.named_const.Statement Cert.KernelIdeal.κ "inv_100000" .f32 0x3727C5AC#32 ((1 / 100000 : ℝ) : EReal)
  ∧ IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v44_0)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v45)) (v4 : (c : Dev Cert.KernelIdeal.nD) → Buf (Elt Ideal) ((c.tc : Thread Cert.KernelIdeal.nD Cert.KernelIdeal.τ).loc Cert.KernelIdeal.main_v47_0)) (v5 : (c : Dev Cert.KernelIdeal.nD) → Buf (Elt Ideal) ((c.tc : Thread Cert.KernelIdeal.nD Cert.KernelIdeal.τ).loc Cert.KernelIdeal.main_v50_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_v47_0) = v4 c
          ∧ r.2.mem ((c.tc : Thread Cert.KernelIdeal.nD Cert.KernelIdeal.τ).loc Cert.KernelIdeal.main_v50_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v73) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : IVec S1000000 32) (main_arg3 : IVec S1000000 32) (main_arg4 : IVec S1000000 32) (main_arg5 : IVec S1000000 32) (main_arg6 : FVec F S64x64 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S20000x64 : Shape := ⟨2, ![20000, 64]⟩

abbrev nBuf : Space → Nat
  | .hbm => 78
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S_, .f32⟩
  | .hbm, ⟨33, _⟩ => ⟨S100000x64, .f32⟩
  | .hbm, ⟨34, _⟩ => ⟨S1000000x1, .i32⟩
  | .hbm, ⟨35, _⟩ => ⟨S100000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x64, .f32⟩
  | .hbm, ⟨58, _⟩ => ⟨S_, .f32⟩
  | .hbm, ⟨59, _⟩ => ⟨S100000x64, .f32⟩
  | .hbm, ⟨60, _⟩ => ⟨S1000000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S100000x64, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S100000x64, .f32⟩
  | .hbm, ⟨72, _⟩ => ⟨S1x64, .f32⟩
  | .hbm, ⟨73, _⟩ => ⟨S64, .f32⟩
  | .hbm, ⟨74, _⟩ => ⟨S1x64, .f32⟩
  | .hbm, ⟨75, _⟩ => ⟨S100000x64, .f32⟩
  | .hbm, ⟨76, _⟩ => ⟨S1x64, .f32⟩
  | .hbm, ⟨77, _⟩ => ⟨S64, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S1x64, .f32⟩
  | .local _ .vmem, ⟨7, _⟩ => ⟨S1x64, .f32⟩
  | .local _ .vmem, ⟨8, _⟩ => ⟨S20000x64, .f32⟩
  | .local _ .vmem, ⟨9, _⟩ => ⟨S20000x64, .f32⟩
  | .local _ .vmem, ⟨10, _⟩ => ⟨S64x64, .f32⟩
  | .local _ .vmem, ⟨11, _⟩ => ⟨S1x64, .f32⟩
  | .local _ .vmem, ⟨12, _⟩ => ⟨S20000x64, .f32⟩
  | .local _ .vmem, ⟨13, _⟩ => ⟨S20000x64, .f32⟩
  | .local _ .vmem, ⟨14, _⟩ => ⟨S1x64, .f32⟩
  | .local _ .vmem, ⟨15, _⟩ => ⟨S1x64, .f32⟩
  | .local _ .vmem, ⟨16, _⟩ => ⟨S20000x64, .f32⟩
  | .local _ .vmem, ⟨17, _⟩ => ⟨S20000x64, .f32⟩
  | .local _ .vmem, ⟨18, _⟩ => ⟨S64x64, .f32⟩
  | .local _ .vmem, ⟨19, _⟩ => ⟨S1x64, .f32⟩
  | .local _ .vmem, ⟨20, _⟩ => ⟨S20000x64, .f32⟩
  | .local _ .vmem, ⟨21, _⟩ => ⟨S20000x64, .f32⟩
  | .local _ .vmem, ⟨22, _⟩ => ⟨S1x64, .f32⟩
  | .local _ .vmem, ⟨23, _⟩ => ⟨S1x64, .f32⟩
  | .local _ .vmem, ⟨24, _⟩ => ⟨S20000x64, .f32⟩
  | .local _ .vmem, ⟨25, _⟩ => ⟨S20000x64, .f32⟩
  | .local _ .vmem, ⟨26, _⟩ => ⟨S64x64, .f32⟩
  | .local _ .vmem, ⟨27, _⟩ => ⟨S1x64, .f32⟩
  | .local _ .vmem, ⟨28, _⟩ => ⟨S20000x64, .f32⟩
  | .local _ .vmem, ⟨29, _⟩ => ⟨S20000x64, .f32⟩
  | .local _ .vmem, ⟨30, _⟩ => ⟨S1x64, .f32⟩
  | .local _ .vmem, ⟨31, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v42 : Ref sig .tc := ⟨.hbm, 65, rfl⟩
abbrev main_v43 : Ref sig .tc := ⟨.hbm, 66, rfl⟩
abbrev main_v44_0 : Ref sig .tc := ⟨.hbm, 67, rfl⟩
abbrev main_v44_1 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_v48 : Ref sig .tc := ⟨.hbm, 73, rfl⟩
abbrev main_v49 : Ref sig .tc := ⟨.hbm, 74, rfl⟩
abbrev main_v50_0 : Ref sig .tc := ⟨.hbm, 75, rfl⟩
abbrev main_v50_1 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v21 : BitVec 1 := Scalar.cmpi .eq arg0 c4_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v21 : BitVec 1 := Scalar.cmpi .eq arg0 c4_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v21 : BitVec 1 := Scalar.cmpi .eq arg0 c4_i32
  let v22 : BitVec 32 := Scalar.extui v21
  let c0_i32_13 : BitVec 32 := 0#32
  let v23 : BitVec 1 := Scalar.cmpi .ne v22 c0_i32_13
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![5], ![false]⟩

def k3_cond2 (i : grid3.Coords) : BitVec 1 :=
  let arg0 : BitVec 32 := BitVec.ofNat 32 (i 0).val
  let c4_i32 : BitVec 32 := 4#32
  let v21 : BitVec 1 := Scalar.cmpi .eq arg0 c4_i32
  let v22 : BitVec 32 := Scalar.extui v21
  let c0_i32_13 : BitVec 32 := 0#32
  let v23 : BitVec 1 := Scalar.cmpi .ne v22 c0_i32_13
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S20000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S20000x64 : S1x64.Broadcasts S20000x64
  reduces_S20000x64_S64 : S20000x64.Reduces [0] S64
  shapeCasts_S1x64_S64 : S1x64.ShapeCasts S64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S100000x64.size a
  hwx2_3 : ∀ i : grid2.Coords, EltTy.bits .f32 = 32 ∨ (Rect.block (s := S100000x64) S20000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20000x64.size a ≤ S100000x64.size a
  hwx3_3 : ∀ i : grid3.Coords, EltTy.bits .f32 = 32 ∨ (Rect.block (s := S100000x64) S20000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_v9) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41_0) S20000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v19) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_0) S20000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44_1) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v29) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S20000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v39) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50_0) S20000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v50_1) S1x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S_, .f32⟩
  | .hbm, ⟨37, _⟩ => ⟨S100000x64, .f32⟩
  | .hbm, ⟨38, _⟩ => ⟨S1000000x1, .i32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x64, .f32⟩
  | .hbm, ⟨79, _⟩ => ⟨S_, .f32⟩
  | .hbm, ⟨80, _⟩ => ⟨S100000x64, .f32⟩
  | .hbm, ⟨81, _⟩ => ⟨S1000000x1, .i32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1000000, .i32⟩
  | .hbm, ⟨89, _⟩ => ⟨S1000000, .i1⟩
  | .hbm, ⟨90, _⟩ => ⟨S_, .i32⟩
  | .hbm, ⟨91, _⟩ => ⟨S1000000, .i32⟩
  | .hbm, ⟨92, _⟩ => ⟨S1000000, .i32⟩
  | .hbm, ⟨93, _⟩ => ⟨S1000000, .i32⟩
  | .hbm, ⟨94, _⟩ => ⟨S1000000x1, .i32⟩
  | .hbm, ⟨95, _⟩ => ⟨S1000000x64, .f32⟩
  | .hbm, ⟨96, _⟩ => ⟨S_, .f32⟩
  | .hbm, ⟨97, _⟩ => ⟨S100000x64, .f32⟩
  | .hbm, ⟨98, _⟩ => ⟨S1000000x1, .i32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_c_12 : Ref sig .tc := ⟨.hbm, 70, rfl⟩
abbrev main_v46 : Ref sig .tc := ⟨.hbm, 71, rfl⟩
abbrev main_v47 : Ref sig .tc := ⟨.hbm, 72, rfl⟩
abbrev main_c_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KBody0.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchK
import proofs.«101884_j77610059038802_1_alg».proof.Proof.Gen.Kernel.Skeleton
import proofs.«101884_j77610059038802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Body0

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the accumulator is reset at the grid's first point), as the body computes it from the grid coordinate. -/
abbrev cond1 (i : grid0.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid0.Coords) (hc1 : ¬ cond1 i) (hc2 : ¬ k0_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare xi ∗ owns (c : Thread nD τ) arg6 fullShare (k0_pay3 x0 x1 x2 xs)) -∗ K ⟨⟩))
      ⊢ wp frame (wpE (defs₀ (F := F)) Variants.none c none) E (cc0__conv_pool_kernel i arg1 harg1 arg2 harg2 arg3 harg3 arg4 harg4 arg5 harg5 arg6 harg6) K := by
  simp only [cc0__conv_pool_kernel_eq_skeleton]; unfold cc0__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid0.Coords) (hc1 : cond1 i) (hc2 : ¬ k0_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare xi ∗ owns (c : Thread nD τ) arg6 fullShare (k0_pay3 x0 x1 x2 (k0_pay1 (F := F)))) -∗ K ⟨⟩))
      ⊢ wp frame (wpE (defs₀ (F := F)) Variants.none c none) E (cc0__conv_pool_kernel i arg1 harg1 arg2 harg2 arg3 harg3 arg4 harg4 arg5 harg5 arg6 harg6) K := by
  simp only [cc0__conv_pool_kernel_eq_skeleton]; unfold cc0__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid0.Coords) (hc1 : ¬ cond1 i) (hc2 : k0_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare (k0_pay4 (k0_pay3 x0 x1 x2 xs)) ∗ owns (c : Thread nD τ) arg6 fullShare (k0_pay3 x0 x1 x2 xs)) -∗ K ⟨⟩))
      ⊢ wp frame (wpE (defs₀ (F := F)) Variants.none c none) E (cc0__conv_pool_kernel i arg1 harg1 arg2 harg2 arg3 harg3 arg4 harg4 arg5 harg5 arg6 harg6) K := by
  simp only [cc0__conv_pool_kernel_eq_skeleton]; unfold cc0__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.Kernel.Body0
end
-- ==== Proof.KRegion0.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KBody0

set_option maxRecDepth 16384

noncomputable section

namespace Cert.Kernel.Region0

open Cert.Kernel Cert.Kernel.Gen Cert.Kernel.GenP Cert.Kernel.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg0.N) : Vec F S20000x64 .f32 := iblk V c 0 t
abbrev wb (c : Dev nD) (t : Fin cfg0.N) : Vec F S64x64 .f32 := iblk V c 1 t
abbrev bb (c : Dev nD) (t : Fin cfg0.N) : Vec F S1x64 .f32 := iblk V c 2 t

/-! ## The accumulator -/

/-- What the scratch buffer holds after the body at position `n`: the column sums of the output blocks so far, added up
    from the zero splat the first point starts from. -/
def acc (c : Dev nD) : (n : ℕ) → n < cfg0.N → Vec F S1x64 .f32
  | 0, h => k0_pay3 (xb V c ⟨0, h⟩) (wb V c ⟨0, h⟩) (bb V c ⟨0, h⟩) (k0_pay1 (F := F))
  | n + 1, h => k0_pay3 (xb V c ⟨n + 1, h⟩) (wb V c ⟨n + 1, h⟩) (bb V c ⟨n + 1, h⟩) (acc c n (Nat.lt_of_succ_lt h))

theorem acc_zero (c : Dev nD) (t : Fin cfg0.N) (h : t.val = 0) :
    acc V c t.val t.isLt = k0_pay3 (xb V c t) (wb V c t) (bb V c t) (k0_pay1 (F := F)) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = k0_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val = 4 :=
  (by decide +kernel : ∀ t : Fin grid0.N, k0_cond2 (grid0.coords t) = 1#1 ↔ t.val = 4)

/-- The four windows the body always stores or leaves in place are never idle; the second output is idle, and not
    written back, exactly where the last branch is not taken. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem idle_4 : ∀ t : Fin cfg0.N, ¬ k0_cond2 (grid0.coords t) = 1#1 → cfg0.idle 4 (grid0.coords t) = true := by decide +kernel
theorem noFlush_4 : ∀ t : Fin cfg0.N, ¬ k0_cond2 (grid0.coords t) = 1#1 → (cfg0.win 4).flush t = false := by decide +kernel
theorem live_4 : ∀ t : Fin cfg0.N, k0_cond2 (grid0.coords t) = 1#1 → cfg0.idle 4 (grid0.coords t) = false := by decide +kernel

/-! ## The staging memrefs at a point, and the scratch -/

abbrev ms0 (t : Fin cfg0.N) : Memref sig .tc .vmem S20000x64 .f32 := win0_0.stage (cfg0.slots t 0)
abbrev ms1 (t : Fin cfg0.N) : Memref sig .tc .vmem S64x64 .f32 := win0_1.stage (cfg0.slots t 1)
abbrev ms2 (t : Fin cfg0.N) : Memref sig .tc .vmem S1x64 .f32 := win0_2.stage (cfg0.slots t 2)
abbrev ms3 (t : Fin cfg0.N) : Memref sig .tc .vmem S20000x64 .f32 := win0_3.stage (cfg0.slots t 3)
abbrev ms4 (t : Fin cfg0.N) : Memref sig .tc .vmem S1x64 .f32 := win0_4.stage (cfg0.slots t 4)
/-- The scratch operand: a whole scoped buffer of the kernel's own. -/
abbrev scM : Memref sig .tc .vmem S1x64 .f32 := Memref.whole cc0_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The class invariant (the scoped rest and the generator register) with the scratch split out, owned at some contents. -/
theorem PhiA_eq (c : Dev nD) :
    (Pipeline.ΦA spec0 c : sProp 𝕄) = iprop((∃ d, owns (c : Thread nD τ) scM fullShare d) ∗ restK c) := by
  unfold Pipeline.ΦA restK
  rw [scopedRest0_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg0.N → sProp 𝕄
  | 0, _ => Pipeline.ΦA spec0 c
  | n + 1, hn => iprop(owns (c : Thread nD τ) scM fullShare (acc V c n hn) ∗ restK c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (acc V c n hn) ∗ restK c) := rfl

theorem PhiS_pos (c : Dev nD) (n : ℕ) (h : n ≤ cfg0.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay2 (xb V c t) (wb V c t) (bb V c t)
    | ⟨4, _⟩ => k0_pay4 (acc V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay2 (xb V c t) (wb V c t) (bb V c t) := by dsimp only [dat]
theorem after_4 (c : Dev nD) (t : Fin cfg0.N) : (dat V c).after 4 t = k0_pay4 (acc V c t.val t.isLt) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg0.N = 5 from N_0)
  by_cases h0 : t.val = 0
  · have hc1 : cond1 (grid0.coords t) := (hcond1 t).mpr h0
    have hc2 : ¬ k0_cond2 (grid0.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid0.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid0.coords t) := fun h => h0 ((hcond1 t).mp h)
    by_cases h4 : t.val = 4
    · have hc2 : k0_cond2 (grid0.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid0.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k0_cond2 (grid0.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid0.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 5 := N_0; omega), PhiA_eq]
  iintro ⟨HS, Hr⟩
  isplitl [HS]
  · iexists _; iexact HS
  iexact Hr

end Cert.Kernel.Region0

end
-- ==== Proof.KBody1.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchK
import proofs.«101884_j77610059038802_1_alg».proof.Proof.Gen.Kernel.Skeleton
import proofs.«101884_j77610059038802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Body1

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the accumulator is reset at the grid's first point), as the body computes it from the grid coordinate. -/
abbrev cond1 (i : grid1.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid1.Coords) (hc1 : ¬ cond1 i) (hc2 : ¬ k1_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi ∗ owns (c : Thread nD τ) arg6 fullShare (k1_pay3 x0 x1 x2 xs)) -∗ K ⟨⟩))
      ⊢ wp frame (wpE (defs₀ (F := F)) Variants.none c none) E (cc1__conv_pool_kernel i arg1 harg1 arg2 harg2 arg3 harg3 arg4 harg4 arg5 harg5 arg6 harg6) K := by
  simp only [cc1__conv_pool_kernel_eq_skeleton]; unfold cc1__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid1.Coords) (hc1 : cond1 i) (hc2 : ¬ k1_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi ∗ owns (c : Thread nD τ) arg6 fullShare (k1_pay3 x0 x1 x2 (k1_pay1 (F := F)))) -∗ K ⟨⟩))
      ⊢ wp frame (wpE (defs₀ (F := F)) Variants.none c none) E (cc1__conv_pool_kernel i arg1 harg1 arg2 harg2 arg3 harg3 arg4 harg4 arg5 harg5 arg6 harg6) K := by
  simp only [cc1__conv_pool_kernel_eq_skeleton]; unfold cc1__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid1.Coords) (hc1 : ¬ cond1 i) (hc2 : k1_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare (k1_pay4 (k1_pay3 x0 x1 x2 xs)) ∗ owns (c : Thread nD τ) arg6 fullShare (k1_pay3 x0 x1 x2 xs)) -∗ K ⟨⟩))
      ⊢ wp frame (wpE (defs₀ (F := F)) Variants.none c none) E (cc1__conv_pool_kernel i arg1 harg1 arg2 harg2 arg3 harg3 arg4 harg4 arg5 harg5 arg6 harg6) K := by
  simp only [cc1__conv_pool_kernel_eq_skeleton]; unfold cc1__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.Kernel.Body1
end
-- ==== Proof.KRegion1.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KBody1

set_option maxRecDepth 16384

noncomputable section

namespace Cert.Kernel.Region1

open Cert.Kernel Cert.Kernel.Gen Cert.Kernel.GenP Cert.Kernel.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg1.N) : Vec F S20000x64 .f32 := iblk V c 0 t
abbrev wb (c : Dev nD) (t : Fin cfg1.N) : Vec F S64x64 .f32 := iblk V c 1 t
abbrev bb (c : Dev nD) (t : Fin cfg1.N) : Vec F S1x64 .f32 := iblk V c 2 t

/-! ## The accumulator -/

/-- What the scratch buffer holds after the body at position `n`: the column sums of the output blocks so far, added up
    from the zero splat the first point starts from. -/
def acc (c : Dev nD) : (n : ℕ) → n < cfg1.N → Vec F S1x64 .f32
  | 0, h => k1_pay3 (xb V c ⟨0, h⟩) (wb V c ⟨0, h⟩) (bb V c ⟨0, h⟩) (k1_pay1 (F := F))
  | n + 1, h => k1_pay3 (xb V c ⟨n + 1, h⟩) (wb V c ⟨n + 1, h⟩) (bb V c ⟨n + 1, h⟩) (acc c n (Nat.lt_of_succ_lt h))

theorem acc_zero (c : Dev nD) (t : Fin cfg1.N) (h : t.val = 0) :
    acc V c t.val t.isLt = k1_pay3 (xb V c t) (wb V c t) (bb V c t) (k1_pay1 (F := F)) := by
  obtain ⟨n, hn⟩ := t
  cases n with
  | zero => rfl
  | succ n => exact absurd h (Nat.succ_ne_zero n)

theorem acc_pos (c : Dev nD) (t : Fin cfg1.N) (h : t.val ≠ 0) :
    acc V c t.val t.isLt = k1_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, k1_cond2 (grid1.coords t) = 1#1 ↔ t.val = 4 :=
  (by decide +kernel : ∀ t : Fin grid1.N, k1_cond2 (grid1.coords t) = 1#1 ↔ t.val = 4)

/-- The four windows the body always stores or leaves in place are never idle; the second output is idle, and not
    written back, exactly where the last branch is not taken. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem idle_4 : ∀ t : Fin cfg1.N, ¬ k1_cond2 (grid1.coords t) = 1#1 → cfg1.idle 4 (grid1.coords t) = true := by decide +kernel
theorem noFlush_4 : ∀ t : Fin cfg1.N, ¬ k1_cond2 (grid1.coords t) = 1#1 → (cfg1.win 4).flush t = false := by decide +kernel
theorem live_4 : ∀ t : Fin cfg1.N, k1_cond2 (grid1.coords t) = 1#1 → cfg1.idle 4 (grid1.coords t) = false := by decide +kernel

/-! ## The staging memrefs at a point, and the scratch -/

abbrev ms0 (t : Fin cfg1.N) : Memref sig .tc .vmem S20000x64 .f32 := win1_0.stage (cfg1.slots t 0)
abbrev ms1 (t : Fin cfg1.N) : Memref sig .tc .vmem S64x64 .f32 := win1_1.stage (cfg1.slots t 1)
abbrev ms2 (t : Fin cfg1.N) : Memref sig .tc .vmem S1x64 .f32 := win1_2.stage (cfg1.slots t 2)
abbrev ms3 (t : Fin cfg1.N) : Memref sig .tc .vmem S20000x64 .f32 := win1_3.stage (cfg1.slots t 3)
abbrev ms4 (t : Fin cfg1.N) : Memref sig .tc .vmem S1x64 .f32 := win1_4.stage (cfg1.slots t 4)
/-- The scratch operand: a whole scoped buffer of the kernel's own. -/
abbrev scM : Memref sig .tc .vmem S1x64 .f32 := Memref.whole cc1_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class invariant (the scoped rest and the generator register) with the scratch split out, owned at some contents. -/
theorem PhiA_eq (c : Dev nD) :
    (Pipeline.ΦA spec1 c : sProp 𝕄) = iprop((∃ d, owns (c : Thread nD τ) scM fullShare d) ∗ restK c) := by
  unfold Pipeline.ΦA restK
  rw [scopedRest1_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg1.N → sProp 𝕄
  | 0, _ => Pipeline.ΦA spec1 c
  | n + 1, hn => iprop(owns (c : Thread nD τ) scM fullShare (acc V c n hn) ∗ restK c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (acc V c n hn) ∗ restK c) := rfl

theorem PhiS_pos (c : Dev nD) (n : ℕ) (h : n ≤ cfg1.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay2 (xb V c t) (wb V c t) (bb V c t)
    | ⟨4, _⟩ => k1_pay4 (acc V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay2 (xb V c t) (wb V c t) (bb V c t) := by dsimp only [dat]
theorem after_4 (c : Dev nD) (t : Fin cfg1.N) : (dat V c).after 4 t = k1_pay4 (acc V c t.val t.isLt) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg1.N = 5 from N_1)
  by_cases h0 : t.val = 0
  · have hc1 : cond1 (grid1.coords t) := (hcond1 t).mpr h0
    have hc2 : ¬ k1_cond2 (grid1.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid1.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid1.coords t) := fun h => h0 ((hcond1 t).mp h)
    by_cases h4 : t.val = 4
    · have hc2 : k1_cond2 (grid1.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid1.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k1_cond2 (grid1.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid1.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 5 := N_1; omega), PhiA_eq]
  iintro ⟨HS, Hr⟩
  isplitl [HS]
  · iexists _; iexact HS
  iexact Hr

end Cert.Kernel.Region1

end
-- ==== Proof.KBody2.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchK
import proofs.«101884_j77610059038802_1_alg».proof.Proof.Gen.Kernel.Skeleton
import proofs.«101884_j77610059038802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Body2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the accumulator is reset at the grid's first point), as the body computes it from the grid coordinate. -/
abbrev cond1 (i : grid2.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid2.Coords) (hc1 : ¬ cond1 i) (hc2 : ¬ k2_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1 x2) ∗ owns (c : Thread nD τ) arg5 fullShare xi ∗ owns (c : Thread nD τ) arg6 fullShare (k2_pay3 x0 x1 x2 xs)) -∗ K ⟨⟩))
      ⊢ wp frame (wpE (defs₀ (F := F)) Variants.none c none) E (cc2__conv_pool_kernel i arg1 harg1 arg2 harg2 arg3 harg3 arg4 harg4 arg5 harg5 arg6 harg6) K := by
  simp only [cc2__conv_pool_kernel_eq_skeleton]; unfold cc2__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid2.Coords) (hc1 : cond1 i) (hc2 : ¬ k2_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1 x2) ∗ owns (c : Thread nD τ) arg5 fullShare xi ∗ owns (c : Thread nD τ) arg6 fullShare (k2_pay3 x0 x1 x2 (k2_pay1 (F := F)))) -∗ K ⟨⟩))
      ⊢ wp frame (wpE (defs₀ (F := F)) Variants.none c none) E (cc2__conv_pool_kernel i arg1 harg1 arg2 harg2 arg3 harg3 arg4 harg4 arg5 harg5 arg6 harg6) K := by
  simp only [cc2__conv_pool_kernel_eq_skeleton]; unfold cc2__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid2.Coords) (hc1 : ¬ cond1 i) (hc2 : k2_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1 x2) ∗ owns (c : Thread nD τ) arg5 fullShare (k2_pay4 (k2_pay3 x0 x1 x2 xs)) ∗ owns (c : Thread nD τ) arg6 fullShare (k2_pay3 x0 x1 x2 xs)) -∗ K ⟨⟩))
      ⊢ wp frame (wpE (defs₀ (F := F)) Variants.none c none) E (cc2__conv_pool_kernel i arg1 harg1 arg2 harg2 arg3 harg3 arg4 harg4 arg5 harg5 arg6 harg6) K := by
  simp only [cc2__conv_pool_kernel_eq_skeleton]; unfold cc2__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.Kernel.Body2
end
-- ==== Proof.KRegion2.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KBody2

set_option maxRecDepth 16384

noncomputable section

namespace Cert.Kernel.Region2

open Cert.Kernel Cert.Kernel.Gen Cert.Kernel.GenP Cert.Kernel.Body2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg2.N) : Vec F S20000x64 .f32 := iblk V c 0 t
abbrev wb (c : Dev nD) (t : Fin cfg2.N) : Vec F S64x64 .f32 := iblk V c 1 t
abbrev bb (c : Dev nD) (t : Fin cfg2.N) : Vec F S1x64 .f32 := iblk V c 2 t

/-! ## The accumulator -/

/-- What the scratch buffer holds after the body at position `n`: the column sums of the output blocks so far, added up
    from the zero splat the first point starts from. -/
def acc (c : Dev nD) : (n : ℕ) → n < cfg2.N → Vec F S1x64 .f32
  | 0, h => k2_pay3 (xb V c ⟨0, h⟩) (wb V c ⟨0, h⟩) (bb V c ⟨0, h⟩) (k2_pay1 (F := F))
  | n + 1, h => k2_pay3 (xb V c ⟨n + 1, h⟩) (wb V c ⟨n + 1, h⟩) (bb V c ⟨n + 1, h⟩) (acc c n (Nat.lt_of_succ_lt h))

theorem acc_zero (c : Dev nD) (t : Fin cfg2.N) (h : t.val = 0) :
    acc V c t.val t.isLt = k2_pay3 (xb V c t) (wb V c t) (bb V c t) (k2_pay1 (F := F)) := by
  obtain ⟨n, hn⟩ := t
  cases n with
  | zero => rfl
  | succ n => exact absurd h (Nat.succ_ne_zero n)

theorem acc_pos (c : Dev nD) (t : Fin cfg2.N) (h : t.val ≠ 0) :
    acc V c t.val t.isLt = k2_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, k2_cond2 (grid2.coords t) = 1#1 ↔ t.val = 4 :=
  (by decide +kernel : ∀ t : Fin grid2.N, k2_cond2 (grid2.coords t) = 1#1 ↔ t.val = 4)

/-- The four windows the body always stores or leaves in place are never idle; the second output is idle, and not
    written back, exactly where the last branch is not taken. -/
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem idle_4 : ∀ t : Fin cfg2.N, ¬ k2_cond2 (grid2.coords t) = 1#1 → cfg2.idle 4 (grid2.coords t) = true := by decide +kernel
theorem noFlush_4 : ∀ t : Fin cfg2.N, ¬ k2_cond2 (grid2.coords t) = 1#1 → (cfg2.win 4).flush t = false := by decide +kernel
theorem live_4 : ∀ t : Fin cfg2.N, k2_cond2 (grid2.coords t) = 1#1 → cfg2.idle 4 (grid2.coords t) = false := by decide +kernel

/-! ## The staging memrefs at a point, and the scratch -/

abbrev ms0 (t : Fin cfg2.N) : Memref sig .tc .vmem S20000x64 .f32 := win2_0.stage (cfg2.slots t 0)
abbrev ms1 (t : Fin cfg2.N) : Memref sig .tc .vmem S64x64 .f32 := win2_1.stage (cfg2.slots t 1)
abbrev ms2 (t : Fin cfg2.N) : Memref sig .tc .vmem S1x64 .f32 := win2_2.stage (cfg2.slots t 2)
abbrev ms3 (t : Fin cfg2.N) : Memref sig .tc .vmem S20000x64 .f32 := win2_3.stage (cfg2.slots t 3)
abbrev ms4 (t : Fin cfg2.N) : Memref sig .tc .vmem S1x64 .f32 := win2_4.stage (cfg2.slots t 4)
/-- The scratch operand: a whole scoped buffer of the kernel's own. -/
abbrev scM : Memref sig .tc .vmem S1x64 .f32 := Memref.whole cc2_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec2 c [cc2_scratch0] ∗ (∃ r, prngReg c r))

/-- The class invariant (the scoped rest and the generator register) with the scratch split out, owned at some contents. -/
theorem PhiA_eq (c : Dev nD) :
    (Pipeline.ΦA spec2 c : sProp 𝕄) = iprop((∃ d, owns (c : Thread nD τ) scM fullShare d) ∗ restK c) := by
  unfold Pipeline.ΦA restK
  rw [scopedRest2_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg2.N → sProp 𝕄
  | 0, _ => Pipeline.ΦA spec2 c
  | n + 1, hn => iprop(owns (c : Thread nD τ) scM fullShare (acc V c n hn) ∗ restK c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare (acc V c n hn) ∗ restK c) := rfl

theorem PhiS_pos (c : Dev nD) (n : ℕ) (h : n ≤ cfg2.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (xb V c t) (wb V c t) (bb V c t)
    | ⟨4, _⟩ => k2_pay4 (acc V c t.val t.isLt)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay2 (xb V c t) (wb V c t) (bb V c t) := by dsimp only [dat]
theorem after_4 (c : Dev nD) (t : Fin cfg2.N) : (dat V c).after 4 t = k2_pay4 (acc V c t.val t.isLt) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg2.N = 5 from N_2)
  by_cases h0 : t.val = 0
  · have hc1 : cond1 (grid2.coords t) := (hcond1 t).mpr h0
    have hc2 : ¬ k2_cond2 (grid2.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid2.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid2.coords t) := fun h => h0 ((hcond1 t).mp h)
    by_cases h4 : t.val = 4
    · have hc2 : k2_cond2 (grid2.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid2.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k2_cond2 (grid2.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid2.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 5 := N_2; omega), PhiA_eq]
  iintro ⟨HS, Hr⟩
  isplitl [HS]
  · iexists _; iexact HS
  iexact Hr

end Cert.Kernel.Region2

end
-- ==== Proof.KBody3.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchK
import proofs.«101884_j77610059038802_1_alg».proof.Proof.Gen.Kernel.Skeleton
import proofs.«101884_j77610059038802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Body3

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the accumulator is reset at the grid's first point), as the body computes it from the grid coordinate. -/
abbrev cond1 (i : grid3.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid3.Coords) (hc1 : ¬ cond1 i) (hc2 : ¬ k3_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi ∗ owns (c : Thread nD τ) arg6 fullShare (k3_pay3 x0 x1 x2 xs)) -∗ K ⟨⟩))
      ⊢ wp frame (wpE (defs₀ (F := F)) Variants.none c none) E (cc3__conv_pool_kernel i arg1 harg1 arg2 harg2 arg3 harg3 arg4 harg4 arg5 harg5 arg6 harg6) K := by
  simp only [cc3__conv_pool_kernel_eq_skeleton]; unfold cc3__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid3.Coords) (hc1 : cond1 i) (hc2 : ¬ k3_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi ∗ owns (c : Thread nD τ) arg6 fullShare (k3_pay3 x0 x1 x2 (k3_pay1 (F := F)))) -∗ K ⟨⟩))
      ⊢ wp frame (wpE (defs₀ (F := F)) Variants.none c none) E (cc3__conv_pool_kernel i arg1 harg1 arg2 harg2 arg3 harg3 arg4 harg4 arg5 harg5 arg6 harg6) K := by
  simp only [cc3__conv_pool_kernel_eq_skeleton]; unfold cc3__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid3.Coords) (hc1 : ¬ cond1 i) (hc2 : k3_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare (k3_pay4 (k3_pay3 x0 x1 x2 xs)) ∗ owns (c : Thread nD τ) arg6 fullShare (k3_pay3 x0 x1 x2 xs)) -∗ K ⟨⟩))
      ⊢ wp frame (wpE (defs₀ (F := F)) Variants.none c none) E (cc3__conv_pool_kernel i arg1 harg1 arg2 harg2 arg3 harg3 arg4 harg4 arg5 harg5 arg6 harg6) K := by
  simp only [cc3__conv_pool_kernel_eq_skeleton]; unfold cc3__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.Kernel.Body3
end
-- ==== Proof.KRegion3.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KBody3

set_option maxRecDepth 16384

noncomputable section

namespace Cert.Kernel.Region3

open Cert.Kernel Cert.Kernel.Gen Cert.Kernel.GenP Cert.Kernel.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg3.N) : Vec F S20000x64 .f32 := iblk V c 0 t
abbrev wb (c : Dev nD) (t : Fin cfg3.N) : Vec F S64x64 .f32 := iblk V c 1 t
abbrev bb (c : Dev nD) (t : Fin cfg3.N) : Vec F S1x64 .f32 := iblk V c 2 t

/-! ## The accumulator -/

/-- What the scratch buffer holds after the body at position `n`: the column sums of the output blocks so far, added up
    from the zero splat the first point starts from. -/
def acc (c : Dev nD) : (n : ℕ) → n < cfg3.N → Vec F S1x64 .f32
  | 0, h => k3_pay3 (xb V c ⟨0, h⟩) (wb V c ⟨0, h⟩) (bb V c ⟨0, h⟩) (k3_pay1 (F := F))
  | n + 1, h => k3_pay3 (xb V c ⟨n + 1, h⟩) (wb V c ⟨n + 1, h⟩) (bb V c ⟨n + 1, h⟩) (acc c n (Nat.lt_of_succ_lt h))

theorem acc_zero (c : Dev nD) (t : Fin cfg3.N) (h : t.val = 0) :
    acc V c t.val t.isLt = k3_pay3 (xb V c t) (wb V c t) (bb V c t) (k3_pay1 (F := F)) := by
  obtain ⟨n, hn⟩ := t
  cases n with
  | zero => rfl
  | succ n => exact absurd h (Nat.succ_ne_zero n)

theorem acc_pos (c : Dev nD) (t : Fin cfg3.N) (h : t.val ≠ 0) :
    acc V c t.val t.isLt = k3_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg3.N, cond1 (grid3.coords t) ↔ t.val = 0 :=
  (by decide +kernel : ∀ t : Fin grid3.N, cond1 (grid3.coords t) ↔ t.val = 0)
theorem hcond2 : ∀ t : Fin cfg3.N, k3_cond2 (grid3.coords t) = 1#1 ↔ t.val = 4 :=
  (by decide +kernel : ∀ t : Fin grid3.N, k3_cond2 (grid3.coords t) = 1#1 ↔ t.val = 4)

/-- The four windows the body always stores or leaves in place are never idle; the second output is idle, and not
    written back, exactly where the last branch is not taken. -/
theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel
theorem idle_4 : ∀ t : Fin cfg3.N, ¬ k3_cond2 (grid3.coords t) = 1#1 → cfg3.idle 4 (grid3.coords t) = true := by decide +kernel
theorem noFlush_4 : ∀ t : Fin cfg3.N, ¬ k3_cond2 (grid3.coords t) = 1#1 → (cfg3.win 4).flush t = false := by decide +kernel
theorem live_4 : ∀ t : Fin cfg3.N, k3_cond2 (grid3.coords t) = 1#1 → cfg3.idle 4 (grid3.coords t) = false := by decide +kernel

/-! ## The staging memrefs at a point, and the scratch -/

abbrev ms0 (t : Fin cfg3.N) : Memref sig .tc .vmem S20000x64 .f32 := win3_0.stage (cfg3.slots t 0)
abbrev ms1 (t : Fin cfg3.N) : Memref sig .tc .vmem S64x64 .f32 := win3_1.stage (cfg3.slots t 1)
abbrev ms2 (t : Fin cfg3.N) : Memref sig .tc .vmem S1x64 .f32 := win3_2.stage (cfg3.slots t 2)
abbrev ms3 (t : Fin cfg3.N) : Memref sig .tc .vmem S20000x64 .f32 := win3_3.stage (cfg3.slots t 3)
abbrev ms4 (t : Fin cfg3.N) : Memref sig .tc .vmem S1x64 .f32 := win3_4.stage (cfg3.slots t 4)
/-- The scratch operand: a whole scoped buffer of the kernel's own. -/
abbrev scM : Memref sig .tc .vmem S1x64 .f32 := Memref.whole cc3_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec3 c [cc3_scratch0] ∗ (∃ r, prngReg c r))

/-- The class invariant (the scoped rest and the generator register) with the scratch split out, owned at some contents. -/
theorem PhiA_eq (c : Dev nD) :
    (Pipeline.ΦA spec3 c : sProp 𝕄) = iprop((∃ d, owns (c : Thread nD τ) scM fullShare d) ∗ restK c) := by
  unfold Pipeline.ΦA restK
  rw [scopedRest3_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg3.N → sProp 𝕄
  | 0, _ => Pipeline.ΦA spec3 c
  | n + 1, hn => iprop(owns (c : Thread nD τ) scM fullShare (acc V c n hn) ∗ restK c)

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(owns (c : Thread nD τ) scM fullShare (acc V c n hn) ∗ restK c) := rfl

theorem PhiS_pos (c : Dev nD) (n : ℕ) (h : n ≤ cfg3.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => k3_pay2 (xb V c t) (wb V c t) (bb V c t)
    | ⟨4, _⟩ => k3_pay4 (acc V c t.val t.isLt)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = k3_pay2 (xb V c t) (wb V c t) (bb V c t) := by dsimp only [dat]
theorem after_4 (c : Dev nD) (t : Fin cfg3.N) : (dat V c).after 4 t = k3_pay4 (acc V c t.val t.isLt) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg3.N = 5 from N_3)
  by_cases h0 : t.val = 0
  · have hc1 : cond1 (grid3.coords t) := (hcond1 t).mpr h0
    have hc2 : ¬ k3_cond2 (grid3.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid3.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid3.coords t) := fun h => h0 ((hcond1 t).mp h)
    by_cases h4 : t.val = 4
    · have hc2 : k3_cond2 (grid3.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid3.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k3_cond2 (grid3.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid3.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 5 := N_3; omega), PhiA_eq]
  iintro ⟨HS, Hr⟩
  isplitl [HS]
  · iexists _; iexact HS
  iexact Hr

end Cert.Kernel.Region3

end
-- ==== Proof.KRun.lean ====
/-
  The whole program as a run of nine segments — a stretch of host operations, a pallas_call, … — from the launch to the
  return: what every unscoped buffer of the device holds at each boundary (a fold from the launch memory: a host stretch
  applies its operations; a pallas_call leaves its arrays at what its write-backs wrote and every other buffer as it
  was), each pallas_call a pipeline region entered from the contents before it, and the conclusion: every weakly fair
  execution terminates, nothing faulting, with every unscoped buffer at the last boundary's contents.
-/
import proofs.«101884_j77610059038802_1_alg».proof.Proof.KRegion0
import proofs.«101884_j77610059038802_1_alg».proof.Proof.KRegion1
import proofs.«101884_j77610059038802_1_alg».proof.Proof.KRegion2
import proofs.«101884_j77610059038802_1_alg».proof.Proof.KRegion3
import proofs.«101884_j77610059038802_1_alg».proof.Proof.RegionsK

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)

/-- The same read at the TensorCore's references: what region 0's proof data take. -/
abbrev V1 : (c : Dev nD) → (b : Ref sig .tc) → Buf (Elt F) ((c : Thread nD τ).loc b) := fun c b => W1 m ρ c b
/-- At region 0's exit: its arrays at what the pipeline leaves (the inputs as entered, each output's write-backs folded
    in point order), every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)

/-- The same read at the TensorCore's references: what region 1's proof data take. -/
abbrev V3 : (c : Dev nD) → (b : Ref sig .tc) → Buf (Elt F) ((c : Thread nD τ).loc b) := fun c b => W3 m ρ c b
/-- At region 1's exit: its arrays at what the pipeline leaves (the inputs as entered, each output's write-backs folded
    in point order), every other buffer as entered. -/
def W4 (c : Dev nD) : Valuation τ sig (Elt F) :=
  Pipeline.withArrays spec1 c (W3 m ρ c) fun w => (Region1.dat (V3 m ρ) c).arrAt w cfg1.N
theorem W4_arr (c : Dev nD) (w : Fin cfg1.W) :
    W4 m ρ c (Proc.devRef .tc (Pipeline.arrRef spec1 w)) = (Region1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (Region1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)

/-- The same read at the TensorCore's references: what region 2's proof data take. -/
abbrev V5 : (c : Dev nD) → (b : Ref sig .tc) → Buf (Elt F) ((c : Thread nD τ).loc b) := fun c b => W5 m ρ c b
/-- At region 2's exit: its arrays at what the pipeline leaves (the inputs as entered, each output's write-backs folded
    in point order), every other buffer as entered. -/
def W6 (c : Dev nD) : Valuation τ sig (Elt F) :=
  Pipeline.withArrays spec2 c (W5 m ρ c) fun w => (Region2.dat (V5 m ρ) c).arrAt w cfg2.N
theorem W6_arr (c : Dev nD) (w : Fin cfg2.W) :
    W6 m ρ c (Proc.devRef .tc (Pipeline.arrRef spec2 w)) = (Region2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (Region2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)

/-- The same read at the TensorCore's references: what region 3's proof data take. -/
abbrev V7 : (c : Dev nD) → (b : Ref sig .tc) → Buf (Elt F) ((c : Thread nD τ).loc b) := fun c b => W7 m ρ c b
/-- At region 3's exit: its arrays at what the pipeline leaves (the inputs as entered, each output's write-backs folded
    in point order), every other buffer as entered. -/
def W8 (c : Dev nD) : Valuation τ sig (Elt F) :=
  Pipeline.withArrays spec3 c (W7 m ρ c) fun w => (Region3.dat (V7 m ρ) c).arrAt w cfg3.N
theorem W8_arr (c : Dev nD) (w : Fin cfg3.W) :
    W8 m ρ c (Proc.devRef .tc (Pipeline.arrRef spec3 w)) = (Region3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (Region3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V3 m ρ) c
  | ⟨2, _⟩ => fun c => Region2.dat (V5 m ρ) c
  | ⟨3, _⟩ => fun c => Region3.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the class invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region0.hin (V1 m ρ) c)
    show (_ : sProp 𝕄) ⊢ _
    unfold Pipeline.ΦA
    iintro ⟨Hp, -, Hr⟩
    isplitl [Hr]; · iexact Hr
    iexact Hp
  hout c := by
    refine BI.Entails.trans (Region0.hout (V1 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at the exit contents; the generator register goes into the class invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region1.hin (V3 m ρ) c)
    show (_ : sProp 𝕄) ⊢ _
    unfold Pipeline.ΦA
    iintro ⟨Hp, -, Hr⟩
    isplitl [Hr]; · iexact Hr
    iexact Hp
  hout c := by
    refine BI.Entails.trans (Region1.hout (V3 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays are split
    out of the unscoped buffers and put back at the exit contents; the generator register goes into the class invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region2.hin (V5 m ρ) c)
    show (_ : sProp 𝕄) ⊢ _
    unfold Pipeline.ΦA
    iintro ⟨Hp, -, Hr⟩
    isplitl [Hr]; · iexact Hr
    iexact Hp
  hout c := by
    refine BI.Entails.trans (Region2.hout (V5 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W7`, left at `W8`. Its arrays are split
    out of the unscoped buffers and put back at the exit contents; the generator register goes into the class invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region3.hin (V7 m ρ) c)
    show (_ : sProp 𝕄) ⊢ _
    unfold Pipeline.ΦA
    iintro ⟨Hp, -, Hr⟩
    isplitl [Hr]; · iexact Hr
    iexact Hp
  hout c := by
    refine BI.Entails.trans (Region3.hout (V7 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub GenQ.hostOps0_fresh (W0 m ρ)),
    .region (reg0 m ρ),
    .host (hseg hostOps1 hostOps1_sub GenQ.hostOps1_fresh (W2 m ρ)),
    .region (reg1 m ρ),
    .host (hseg hostOps2 hostOps2_sub GenQ.hostOps2_fresh (W4 m ρ)),
    .region (reg2 m ρ),
    .host (hseg hostOps3 hostOps3_sub GenQ.hostOps3_fresh (W6 m ρ)),
    .region (reg3 m ρ),
    .host (hseg hostOps4 hostOps4_sub GenQ.hostOps4_fresh (W8 m ρ)) ]

/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of the program on the
    TensorCores terminates, nothing faulting, and every final state has every unscoped buffer at the last boundary's
    contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.Kernel.Run

end
-- ==== Proof.KFrame.lean ====
/-
  Which buffers each segment leaves alone, and the frame: no host operation writes an argument array and no pallas_call
  has one among its output arrays, so the fold of the nine segments at an argument's buffer walks back to the launch
  memory; the same bookkeeping says where each result is last written.
-/
import proofs.«101884_j77610059038802_1_alg».proof.Proof.KRun

set_option maxRecDepth 16384

noncomputable section

namespace Cert.Kernel.Run

open Cert.Kernel Cert.Kernel.Gen Cert.Kernel.GenP
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What each segment leaves unchanged -/

theorem keepH0 (c : Dev nD) (r : Ref sig .tc) (h : r ∉ GenQ.hostOps0_W) : W1 m ρ c (Proc.devRef .tc r) = W0 m ρ c (Proc.devRef .tc r) :=
  StableHlo.after_of_writes_sub hostOps0 _ GenQ.hostOps0_writes h
/-- A pallas_call leaves alone every buffer that is not one of its arrays, and its INPUT arrays too (an input array is never written back). -/
theorem keepR0 (c : Dev nD) (r : Ref sig .tc) (h : ∀ w, Pipeline.arrRef spec0 w = r → (cfg0.win w).isOut = false) :
    W2 m ρ c (Proc.devRef .tc r) = W1 m ρ c (Proc.devRef .tc r) := by
  by_cases hw : ∃ w, Pipeline.arrRef spec0 w = r
  · obtain ⟨w, rfl⟩ := hw
    exact (W2_arr m ρ c w).trans (((Region0.dat (V1 m ρ) c).arrAt_in w (h w rfl) _).trans (Region0.A_eq (V1 m ρ) c w))
  · exact W2_of_ne m ρ c r fun w e => hw ⟨w, e⟩
theorem keepH1 (c : Dev nD) (r : Ref sig .tc) (h : r ∉ GenQ.hostOps1_W) : W3 m ρ c (Proc.devRef .tc r) = W2 m ρ c (Proc.devRef .tc r) :=
  StableHlo.after_of_writes_sub hostOps1 _ GenQ.hostOps1_writes h
/-- A pallas_call leaves alone every buffer that is not one of its arrays, and its INPUT arrays too (an input array is never written back). -/
theorem keepR1 (c : Dev nD) (r : Ref sig .tc) (h : ∀ w, Pipeline.arrRef spec1 w = r → (cfg1.win w).isOut = false) :
    W4 m ρ c (Proc.devRef .tc r) = W3 m ρ c (Proc.devRef .tc r) := by
  by_cases hw : ∃ w, Pipeline.arrRef spec1 w = r
  · obtain ⟨w, rfl⟩ := hw
    exact (W4_arr m ρ c w).trans (((Region1.dat (V3 m ρ) c).arrAt_in w (h w rfl) _).trans (Region1.A_eq (V3 m ρ) c w))
  · exact W4_of_ne m ρ c r fun w e => hw ⟨w, e⟩
theorem keepH2 (c : Dev nD) (r : Ref sig .tc) (h : r ∉ GenQ.hostOps2_W) : W5 m ρ c (Proc.devRef .tc r) = W4 m ρ c (Proc.devRef .tc r) :=
  StableHlo.after_of_writes_sub hostOps2 _ GenQ.hostOps2_writes h
/-- A pallas_call leaves alone every buffer that is not one of its arrays, and its INPUT arrays too (an input array is never written back). -/
theorem keepR2 (c : Dev nD) (r : Ref sig .tc) (h : ∀ w, Pipeline.arrRef spec2 w = r → (cfg2.win w).isOut = false) :
    W6 m ρ c (Proc.devRef .tc r) = W5 m ρ c (Proc.devRef .tc r) := by
  by_cases hw : ∃ w, Pipeline.arrRef spec2 w = r
  · obtain ⟨w, rfl⟩ := hw
    exact (W6_arr m ρ c w).trans (((Region2.dat (V5 m ρ) c).arrAt_in w (h w rfl) _).trans (Region2.A_eq (V5 m ρ) c w))
  · exact W6_of_ne m ρ c r fun w e => hw ⟨w, e⟩
theorem keepH3 (c : Dev nD) (r : Ref sig .tc) (h : r ∉ GenQ.hostOps3_W) : W7 m ρ c (Proc.devRef .tc r) = W6 m ρ c (Proc.devRef .tc r) :=
  StableHlo.after_of_writes_sub hostOps3 _ GenQ.hostOps3_writes h
/-- A pallas_call leaves alone every buffer that is not one of its arrays, and its INPUT arrays too (an input array is never written back). -/
theorem keepR3 (c : Dev nD) (r : Ref sig .tc) (h : ∀ w, Pipeline.arrRef spec3 w = r → (cfg3.win w).isOut = false) :
    W8 m ρ c (Proc.devRef .tc r) = W7 m ρ c (Proc.devRef .tc r) := by
  by_cases hw : ∃ w, Pipeline.arrRef spec3 w = r
  · obtain ⟨w, rfl⟩ := hw
    exact (W8_arr m ρ c w).trans (((Region3.dat (V7 m ρ) c).arrAt_in w (h w rfl) _).trans (Region3.A_eq (V7 m ρ) c w))
  · exact W8_of_ne m ρ c r fun w e => hw ⟨w, e⟩
theorem keepH4 (c : Dev nD) (r : Ref sig .tc) (h : r ∉ GenQ.hostOps4_W) : W9 m ρ c (Proc.devRef .tc r) = W8 m ρ c (Proc.devRef .tc r) :=
  StableHlo.after_of_writes_sub hostOps4 _ GenQ.hostOps4_writes h

/-- A buffer no segment writes ends as launched. -/
theorem W9_untouched (c : Dev nD) (r : Ref sig .tc)
    (h0 : r ∉ GenQ.hostOps0_W) (h1 : r ∉ GenQ.hostOps1_W) (h2 : r ∉ GenQ.hostOps2_W) (h3 : r ∉ GenQ.hostOps3_W) (h4 : r ∉ GenQ.hostOps4_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) (g3 : ∀ w, Pipeline.arrRef spec3 w = r → (cfg3.win w).isOut = false) :
    W9 m ρ c (Proc.devRef .tc r) = W0 m ρ c (Proc.devRef .tc r) :=
  (keepH4 m ρ c r h4).trans <| (keepR3 m ρ c r g3).trans <| (keepH3 m ρ c r h3).trans <| (keepR2 m ρ c r g2).trans <|
    (keepH2 m ρ c r h2).trans <| (keepR1 m ρ c r g1).trans <| (keepH1 m ρ c r h1).trans <| (keepR0 m ρ c r g0).trans (keepH0 m ρ c r h0)

/-- An argument array ends as launched. -/
theorem W9_arg (c : Dev nD) (r : Ref sig .tc)
    (h0 : r ∉ GenQ.hostOps0_W) (h1 : r ∉ GenQ.hostOps1_W) (h2 : r ∉ GenQ.hostOps2_W) (h3 : r ∉ GenQ.hostOps3_W) (h4 : r ∉ GenQ.hostOps4_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) (g3 : ∀ w, Pipeline.arrRef spec3 w = r → (cfg3.win w).isOut = false) :
    W9 m ρ c (Proc.devRef .tc r) = m ((c : Thread nD τ).loc r) :=
  (W9_untouched m ρ c r h0 h1 h2 h3 h4 g0 g1 g2 g3).trans rfl

/-! ## The frame -/

/-- Every weakly fair execution terminates, nothing faulting, with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      (h c _ (mem_uc main_arg0 (by decide))).trans (W9_arg m ρ c main_arg0 (by decide) (by decide) (by decide) (by decide) (by decide) (by decide) (by decide) (by decide) (by decide)),
      (h c _ (mem_uc main_arg1 (by decide))).trans (W9_arg m ρ c main_arg1 (by decide) (by decide) (by decide) (by decide) (by decide) (by decide) (by decide) (by decide) (by decide)),
      (h c _ (mem_uc main_arg2 (by decide))).trans (W9_arg m ρ c main_arg2 (by decide) (by decide) (by decide) (by decide) (by decide) (by decide) (by decide) (by decide) (by decide)),
      (h c _ (mem_uc main_arg3 (by decide))).trans (W9_arg m ρ c main_arg3 (by decide) (by decide) (by decide) (by decide) (by decide) (by decide) (by decide) (by decide) (by decide)),
      (h c _ (mem_uc main_arg4 (by decide))).trans (W9_arg m ρ c main_arg4 (by decide) (by decide) (by decide) (by decide) (by decide) (by decide) (by decide) (by decide) (by decide)),
      (h c _ (mem_uc main_arg5 (by decide))).trans (W9_arg m ρ c main_arg5 (by decide) (by decide) (by decide) (by decide) (by decide) (by decide) (by decide) (by decide) (by decide)),
      (h c _ (mem_uc main_arg6 (by decide))).trans (W9_arg m ρ c main_arg6 (by decide) (by decide) (by decide) (by decide) (by decide) (by decide) (by decide) (by decide) (by decide)),
      (h c _ (mem_uc main_arg7 (by decide))).trans (W9_arg m ρ c main_arg7 (by decide) (by decide) (by decide) (by decide) (by decide) (by decide) (by decide) (by decide) (by decide)),
      (h c _ (mem_uc main_arg8 (by decide))).trans (W9_arg m ρ c main_arg8 (by decide) (by decide) (by decide) (by decide) (by decide) (by decide) (by decide) (by decide) (by decide)),
      (h c _ (mem_uc main_arg9 (by decide))).trans (W9_arg m ρ c main_arg9 (by decide) (by decide) (by decide) (by decide) (by decide) (by decide) (by decide) (by decide) (by decide))⟩)
    (run_all m ρ)

end Cert.Kernel.Run

end
-- ==== Proof.KIBody0.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchKI
import proofs.«101884_j77610059038802_1_alg».proof.Proof.Gen.KernelIdeal.Skeleton
import proofs.«101884_j77610059038802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Body0

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition (the accumulator is reset at the grid's first point), as the body computes it from the grid coordinate. -/
abbrev cond1 (i : grid0.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid0.Coords) (hc1 : ¬ cond1 i) (hc2 : ¬ k0_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare xi ∗ owns (c : Thread nD τ) arg6 fullShare (k0_pay3 x0 x1 x2 xs)) -∗ K ⟨⟩))
      ⊢ wp frame (wpE (defs₀ (F := F)) Variants.none c none) E (cc0__conv_pool_kernel i arg1 harg1 arg2 harg2 arg3 harg3 arg4 harg4 arg5 harg5 arg6 harg6) K := by
  simp only [cc0__conv_pool_kernel_eq_skeleton]; unfold cc0__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid0.Coords) (hc1 : cond1 i) (hc2 : ¬ k0_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare xi ∗ owns (c : Thread nD τ) arg6 fullShare (k0_pay3 x0 x1 x2 (k0_pay1 (F := F)))) -∗ K ⟨⟩))
      ⊢ wp frame (wpE (defs₀ (F := F)) Variants.none c none) E (cc0__conv_pool_kernel i arg1 harg1 arg2 harg2 arg3 harg3 arg4 harg4 arg5 harg5 arg6 harg6) K := by
  simp only [cc0__conv_pool_kernel_eq_skeleton]; unfold cc0__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid0.Coords) (hc1 : ¬ cond1 i) (hc2 : k0_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare (k0_pay4 (k0_pay3 x0 x1 x2 xs)) ∗ owns (c : Thread nD τ) arg6 fullShare (k0_pay3 x0 x1 x2 xs)) -∗ K ⟨⟩))
      ⊢ wp frame (wpE (defs₀ (F := F)) Variants.none c none) E (cc0__conv_pool_kernel i arg1 harg1 arg2 harg2 arg3 harg3 arg4 harg4 arg5 harg5 arg6 harg6) K := by
  simp only [cc0__conv_pool_kernel_eq_skeleton]; unfold cc0__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.KernelIdeal.Body0
end
-- ==== Proof.KIRegion0.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KIBody0

set_option maxRecDepth 16384

noncomputable section

namespace Cert.KernelIdeal.Region0

open Cert.KernelIdeal Cert.KernelIdeal.Gen Cert.KernelIdeal.GenP Cert.KernelIdeal.Body0
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg0.N) : Vec F S20000x64 .f32 := iblk V c 0 t
abbrev wb (c : Dev nD) (t : Fin cfg0.N) : Vec F S64x64 .f32 := iblk V c 1 t
abbrev bb (c : Dev nD) (t : Fin cfg0.N) : Vec F S1x64 .f32 := iblk V c 2 t

/-! ## The accumulator -/

/-- What the scratch buffer holds after the body at position `n`: the column sums of the output blocks so far, added up
    from the zero splat the first point starts from. -/
def acc (c : Dev nD) : (n : ℕ) → n < cfg0.N → Vec F S1x64 .f32
  | 0, h => k0_pay3 (xb V c ⟨0, h⟩) (wb V c ⟨0, h⟩) (bb V c ⟨0, h⟩) (k0_pay1 (F := F))
  | n + 1, h => k0_pay3 (xb V c ⟨n + 1, h⟩) (wb V c ⟨n + 1, h⟩) (bb V c ⟨n + 1, h⟩) (acc c n (Nat.lt_of_succ_lt h))

theorem acc_zero (c : Dev nD) (t : Fin cfg0.N) (h : t.val = 0) :
    acc V c t.val t.isLt = k0_pay3 (xb V c t) (wb V c t) (bb V c t) (k0_pay1 (F := F)) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = k0_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val = 4 :=
  (by decide +kernel : ∀ t : Fin grid0.N, k0_cond2 (grid0.coords t) = 1#1 ↔ t.val = 4)

/-- The four windows the body always stores or leaves in place are never idle; the second output is idle, and not
    written back, exactly where the last branch is not taken. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem idle_4 : ∀ t : Fin cfg0.N, ¬ k0_cond2 (grid0.coords t) = 1#1 → cfg0.idle 4 (grid0.coords t) = true := by decide +kernel
theorem noFlush_4 : ∀ t : Fin cfg0.N, ¬ k0_cond2 (grid0.coords t) = 1#1 → (cfg0.win 4).flush t = false := by decide +kernel
theorem live_4 : ∀ t : Fin cfg0.N, k0_cond2 (grid0.coords t) = 1#1 → cfg0.idle 4 (grid0.coords t) = false := by decide +kernel

/-! ## The staging memrefs at a point, and the scratch -/

abbrev ms0 (t : Fin cfg0.N) : Memref sig .tc .vmem S20000x64 .f32 := win0_0.stage (cfg0.slots t 0)
abbrev ms1 (t : Fin cfg0.N) : Memref sig .tc .vmem S64x64 .f32 := win0_1.stage (cfg0.slots t 1)
abbrev ms2 (t : Fin cfg0.N) : Memref sig .tc .vmem S1x64 .f32 := win0_2.stage (cfg0.slots t 2)
abbrev ms3 (t : Fin cfg0.N) : Memref sig .tc .vmem S20000x64 .f32 := win0_3.stage (cfg0.slots t 3)
abbrev ms4 (t : Fin cfg0.N) : Memref sig .tc .vmem S1x64 .f32 := win0_4.stage (cfg0.slots t 4)
/-- The scratch operand: a whole scoped buffer of the kernel's own. -/
abbrev scM : Memref sig .tc .vmem S1x64 .f32 := Memref.whole cc0_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The class invariant (the scoped rest and the generator register) with the scratch split out, owned at some contents. -/
theorem PhiA_eq (c : Dev nD) :
    (Pipeline.ΦA spec0 c : sProp 𝕄) = iprop((∃ d, owns (c : Thread nD τ) scM fullShare d) ∗ restK c) := by
  unfold Pipeline.ΦA restK
  rw [scopedRest0_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg0.N → sProp 𝕄
  | 0, _ => Pipeline.ΦA spec0 c
  | n + 1, hn => iprop(owns (c : Thread nD τ) scM fullShare (acc V c n hn) ∗ restK c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM fullShare (acc V c n hn) ∗ restK c) := rfl

theorem PhiS_pos (c : Dev nD) (n : ℕ) (h : n ≤ cfg0.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay2 (xb V c t) (wb V c t) (bb V c t)
    | ⟨4, _⟩ => k0_pay4 (acc V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay2 (xb V c t) (wb V c t) (bb V c t) := by dsimp only [dat]
theorem after_4 (c : Dev nD) (t : Fin cfg0.N) : (dat V c).after 4 t = k0_pay4 (acc V c t.val t.isLt) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg0.N = 5 from N_0)
  by_cases h0 : t.val = 0
  · have hc1 : cond1 (grid0.coords t) := (hcond1 t).mpr h0
    have hc2 : ¬ k0_cond2 (grid0.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid0.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid0.coords t) := fun h => h0 ((hcond1 t).mp h)
    by_cases h4 : t.val = 4
    · have hc2 : k0_cond2 (grid0.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid0.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k0_cond2 (grid0.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid0.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 5 := N_0; omega), PhiA_eq]
  iintro ⟨HS, Hr⟩
  isplitl [HS]
  · iexists _; iexact HS
  iexact Hr

end Cert.KernelIdeal.Region0

end
-- ==== Proof.KIBody1.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchKI
import proofs.«101884_j77610059038802_1_alg».proof.Proof.Gen.KernelIdeal.Skeleton
import proofs.«101884_j77610059038802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Body1

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition (the accumulator is reset at the grid's first point), as the body computes it from the grid coordinate. -/
abbrev cond1 (i : grid1.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid1.Coords) (hc1 : ¬ cond1 i) (hc2 : ¬ k1_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi ∗ owns (c : Thread nD τ) arg6 fullShare (k1_pay3 x0 x1 x2 xs)) -∗ K ⟨⟩))
      ⊢ wp frame (wpE (defs₀ (F := F)) Variants.none c none) E (cc1__conv_pool_kernel i arg1 harg1 arg2 harg2 arg3 harg3 arg4 harg4 arg5 harg5 arg6 harg6) K := by
  simp only [cc1__conv_pool_kernel_eq_skeleton]; unfold cc1__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid1.Coords) (hc1 : cond1 i) (hc2 : ¬ k1_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare xi ∗ owns (c : Thread nD τ) arg6 fullShare (k1_pay3 x0 x1 x2 (k1_pay1 (F := F)))) -∗ K ⟨⟩))
      ⊢ wp frame (wpE (defs₀ (F := F)) Variants.none c none) E (cc1__conv_pool_kernel i arg1 harg1 arg2 harg2 arg3 harg3 arg4 harg4 arg5 harg5 arg6 harg6) K := by
  simp only [cc1__conv_pool_kernel_eq_skeleton]; unfold cc1__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid1.Coords) (hc1 : ¬ cond1 i) (hc2 : k1_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 x0 x1 x2) ∗ owns (c : Thread nD τ) arg5 fullShare (k1_pay4 (k1_pay3 x0 x1 x2 xs)) ∗ owns (c : Thread nD τ) arg6 fullShare (k1_pay3 x0 x1 x2 xs)) -∗ K ⟨⟩))
      ⊢ wp frame (wpE (defs₀ (F := F)) Variants.none c none) E (cc1__conv_pool_kernel i arg1 harg1 arg2 harg2 arg3 harg3 arg4 harg4 arg5 harg5 arg6 harg6) K := by
  simp only [cc1__conv_pool_kernel_eq_skeleton]; unfold cc1__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.KernelIdeal.Body1
end
-- ==== Proof.KIRegion1.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KIBody1

set_option maxRecDepth 16384

noncomputable section

namespace Cert.KernelIdeal.Region1

open Cert.KernelIdeal Cert.KernelIdeal.Gen Cert.KernelIdeal.GenP Cert.KernelIdeal.Body1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg1.N) : Vec F S20000x64 .f32 := iblk V c 0 t
abbrev wb (c : Dev nD) (t : Fin cfg1.N) : Vec F S64x64 .f32 := iblk V c 1 t
abbrev bb (c : Dev nD) (t : Fin cfg1.N) : Vec F S1x64 .f32 := iblk V c 2 t

/-! ## The accumulator -/

/-- What the scratch buffer holds after the body at position `n`: the column sums of the output blocks so far, added up
    from the zero splat the first point starts from. -/
def acc (c : Dev nD) : (n : ℕ) → n < cfg1.N → Vec F S1x64 .f32
  | 0, h => k1_pay3 (xb V c ⟨0, h⟩) (wb V c ⟨0, h⟩) (bb V c ⟨0, h⟩) (k1_pay1 (F := F))
  | n + 1, h => k1_pay3 (xb V c ⟨n + 1, h⟩) (wb V c ⟨n + 1, h⟩) (bb V c ⟨n + 1, h⟩) (acc c n (Nat.lt_of_succ_lt h))

theorem acc_zero (c : Dev nD) (t : Fin cfg1.N) (h : t.val = 0) :
    acc V c t.val t.isLt = k1_pay3 (xb V c t) (wb V c t) (bb V c t) (k1_pay1 (F := F)) := by
  obtain ⟨n, hn⟩ := t
  cases n with
  | zero => rfl
  | succ n => exact absurd h (Nat.succ_ne_zero n)

theorem acc_pos (c : Dev nD) (t : Fin cfg1.N) (h : t.val ≠ 0) :
    acc V c t.val t.isLt = k1_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg1.N, cond1 (grid1.coords t) ↔ t.val = 0 :=
  (by decide +kernel : ∀ t : Fin grid1.N, cond1 (grid1.coords t) ↔ t.val = 0)
theorem hcond2 : ∀ t : Fin cfg1.N, k1_cond2 (grid1.coords t) = 1#1 ↔ t.val = 4 :=
  (by decide +kernel : ∀ t : Fin grid1.N, k1_cond2 (grid1.coords t) = 1#1 ↔ t.val = 4)

/-- The four windows the body always stores or leaves in place are never idle; the second output is idle, and not
    written back, exactly where the last branch is not taken. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem idle_4 : ∀ t : Fin cfg1.N, ¬ k1_cond2 (grid1.coords t) = 1#1 → cfg1.idle 4 (grid1.coords t) = true := by decide +kernel
theorem noFlush_4 : ∀ t : Fin cfg1.N, ¬ k1_cond2 (grid1.coords t) = 1#1 → (cfg1.win 4).flush t = false := by decide +kernel
theorem live_4 : ∀ t : Fin cfg1.N, k1_cond2 (grid1.coords t) = 1#1 → cfg1.idle 4 (grid1.coords t) = false := by decide +kernel

/-! ## The staging memrefs at a point, and the scratch -/

abbrev ms0 (t : Fin cfg1.N) : Memref sig .tc .vmem S20000x64 .f32 := win1_0.stage (cfg1.slots t 0)
abbrev ms1 (t : Fin cfg1.N) : Memref sig .tc .vmem S64x64 .f32 := win1_1.stage (cfg1.slots t 1)
abbrev ms2 (t : Fin cfg1.N) : Memref sig .tc .vmem S1x64 .f32 := win1_2.stage (cfg1.slots t 2)
abbrev ms3 (t : Fin cfg1.N) : Memref sig .tc .vmem S20000x64 .f32 := win1_3.stage (cfg1.slots t 3)
abbrev ms4 (t : Fin cfg1.N) : Memref sig .tc .vmem S1x64 .f32 := win1_4.stage (cfg1.slots t 4)
/-- The scratch operand: a whole scoped buffer of the kernel's own. -/
abbrev scM : Memref sig .tc .vmem S1x64 .f32 := Memref.whole cc1_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The class invariant (the scoped rest and the generator register) with the scratch split out, owned at some contents. -/
theorem PhiA_eq (c : Dev nD) :
    (Pipeline.ΦA spec1 c : sProp 𝕄) = iprop((∃ d, owns (c : Thread nD τ) scM fullShare d) ∗ restK c) := by
  unfold Pipeline.ΦA restK
  rw [scopedRest1_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg1.N → sProp 𝕄
  | 0, _ => Pipeline.ΦA spec1 c
  | n + 1, hn => iprop(owns (c : Thread nD τ) scM fullShare (acc V c n hn) ∗ restK c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (acc V c n hn) ∗ restK c) := rfl

theorem PhiS_pos (c : Dev nD) (n : ℕ) (h : n ≤ cfg1.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay2 (xb V c t) (wb V c t) (bb V c t)
    | ⟨4, _⟩ => k1_pay4 (acc V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay2 (xb V c t) (wb V c t) (bb V c t) := by dsimp only [dat]
theorem after_4 (c : Dev nD) (t : Fin cfg1.N) : (dat V c).after 4 t = k1_pay4 (acc V c t.val t.isLt) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg1.N = 5 from N_1)
  by_cases h0 : t.val = 0
  · have hc1 : cond1 (grid1.coords t) := (hcond1 t).mpr h0
    have hc2 : ¬ k1_cond2 (grid1.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid1.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid1.coords t) := fun h => h0 ((hcond1 t).mp h)
    by_cases h4 : t.val = 4
    · have hc2 : k1_cond2 (grid1.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid1.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k1_cond2 (grid1.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid1.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 5 := N_1; omega), PhiA_eq]
  iintro ⟨HS, Hr⟩
  isplitl [HS]
  · iexists _; iexact HS
  iexact Hr

end Cert.KernelIdeal.Region1

end
-- ==== Proof.KIBody2.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchKI
import proofs.«101884_j77610059038802_1_alg».proof.Proof.Gen.KernelIdeal.Skeleton
import proofs.«101884_j77610059038802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Body2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition (the accumulator is reset at the grid's first point), as the body computes it from the grid coordinate. -/
abbrev cond1 (i : grid2.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid2.Coords) (hc1 : ¬ cond1 i) (hc2 : ¬ k2_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1 x2) ∗ owns (c : Thread nD τ) arg5 fullShare xi ∗ owns (c : Thread nD τ) arg6 fullShare (k2_pay3 x0 x1 x2 xs)) -∗ K ⟨⟩))
      ⊢ wp frame (wpE (defs₀ (F := F)) Variants.none c none) E (cc2__conv_pool_kernel i arg1 harg1 arg2 harg2 arg3 harg3 arg4 harg4 arg5 harg5 arg6 harg6) K := by
  simp only [cc2__conv_pool_kernel_eq_skeleton]; unfold cc2__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid2.Coords) (hc1 : cond1 i) (hc2 : ¬ k2_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1 x2) ∗ owns (c : Thread nD τ) arg5 fullShare xi ∗ owns (c : Thread nD τ) arg6 fullShare (k2_pay3 x0 x1 x2 (k2_pay1 (F := F)))) -∗ K ⟨⟩))
      ⊢ wp frame (wpE (defs₀ (F := F)) Variants.none c none) E (cc2__conv_pool_kernel i arg1 harg1 arg2 harg2 arg3 harg3 arg4 harg4 arg5 harg5 arg6 harg6) K := by
  simp only [cc2__conv_pool_kernel_eq_skeleton]; unfold cc2__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid2.Coords) (hc1 : ¬ cond1 i) (hc2 : k2_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k2_pay2 x0 x1 x2) ∗ owns (c : Thread nD τ) arg5 fullShare (k2_pay4 (k2_pay3 x0 x1 x2 xs)) ∗ owns (c : Thread nD τ) arg6 fullShare (k2_pay3 x0 x1 x2 xs)) -∗ K ⟨⟩))
      ⊢ wp frame (wpE (defs₀ (F := F)) Variants.none c none) E (cc2__conv_pool_kernel i arg1 harg1 arg2 harg2 arg3 harg3 arg4 harg4 arg5 harg5 arg6 harg6) K := by
  simp only [cc2__conv_pool_kernel_eq_skeleton]; unfold cc2__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.KernelIdeal.Body2
end
-- ==== Proof.KIRegion2.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KIBody2

set_option maxRecDepth 16384

noncomputable section

namespace Cert.KernelIdeal.Region2

open Cert.KernelIdeal Cert.KernelIdeal.Gen Cert.KernelIdeal.GenP Cert.KernelIdeal.Body2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg2.N) : Vec F S20000x64 .f32 := iblk V c 0 t
abbrev wb (c : Dev nD) (t : Fin cfg2.N) : Vec F S64x64 .f32 := iblk V c 1 t
abbrev bb (c : Dev nD) (t : Fin cfg2.N) : Vec F S1x64 .f32 := iblk V c 2 t

/-! ## The accumulator -/

/-- What the scratch buffer holds after the body at position `n`: the column sums of the output blocks so far, added up
    from the zero splat the first point starts from. -/
def acc (c : Dev nD) : (n : ℕ) → n < cfg2.N → Vec F S1x64 .f32
  | 0, h => k2_pay3 (xb V c ⟨0, h⟩) (wb V c ⟨0, h⟩) (bb V c ⟨0, h⟩) (k2_pay1 (F := F))
  | n + 1, h => k2_pay3 (xb V c ⟨n + 1, h⟩) (wb V c ⟨n + 1, h⟩) (bb V c ⟨n + 1, h⟩) (acc c n (Nat.lt_of_succ_lt h))

theorem acc_zero (c : Dev nD) (t : Fin cfg2.N) (h : t.val = 0) :
    acc V c t.val t.isLt = k2_pay3 (xb V c t) (wb V c t) (bb V c t) (k2_pay1 (F := F)) := by
  obtain ⟨n, hn⟩ := t
  cases n with
  | zero => rfl
  | succ n => exact absurd h (Nat.succ_ne_zero n)

theorem acc_pos (c : Dev nD) (t : Fin cfg2.N) (h : t.val ≠ 0) :
    acc V c t.val t.isLt = k2_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, k2_cond2 (grid2.coords t) = 1#1 ↔ t.val = 4 :=
  (by decide +kernel : ∀ t : Fin grid2.N, k2_cond2 (grid2.coords t) = 1#1 ↔ t.val = 4)

/-- The four windows the body always stores or leaves in place are never idle; the second output is idle, and not
    written back, exactly where the last branch is not taken. -/
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem live_3 : ∀ t : Fin cfg2.N, cfg2.idle 3 (grid2.coords t) = false := by decide +kernel
theorem idle_4 : ∀ t : Fin cfg2.N, ¬ k2_cond2 (grid2.coords t) = 1#1 → cfg2.idle 4 (grid2.coords t) = true := by decide +kernel
theorem noFlush_4 : ∀ t : Fin cfg2.N, ¬ k2_cond2 (grid2.coords t) = 1#1 → (cfg2.win 4).flush t = false := by decide +kernel
theorem live_4 : ∀ t : Fin cfg2.N, k2_cond2 (grid2.coords t) = 1#1 → cfg2.idle 4 (grid2.coords t) = false := by decide +kernel

/-! ## The staging memrefs at a point, and the scratch -/

abbrev ms0 (t : Fin cfg2.N) : Memref sig .tc .vmem S20000x64 .f32 := win2_0.stage (cfg2.slots t 0)
abbrev ms1 (t : Fin cfg2.N) : Memref sig .tc .vmem S64x64 .f32 := win2_1.stage (cfg2.slots t 1)
abbrev ms2 (t : Fin cfg2.N) : Memref sig .tc .vmem S1x64 .f32 := win2_2.stage (cfg2.slots t 2)
abbrev ms3 (t : Fin cfg2.N) : Memref sig .tc .vmem S20000x64 .f32 := win2_3.stage (cfg2.slots t 3)
abbrev ms4 (t : Fin cfg2.N) : Memref sig .tc .vmem S1x64 .f32 := win2_4.stage (cfg2.slots t 4)
/-- The scratch operand: a whole scoped buffer of the kernel's own. -/
abbrev scM : Memref sig .tc .vmem S1x64 .f32 := Memref.whole cc2_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec2 c [cc2_scratch0] ∗ (∃ r, prngReg c r))

/-- The class invariant (the scoped rest and the generator register) with the scratch split out, owned at some contents. -/
theorem PhiA_eq (c : Dev nD) :
    (Pipeline.ΦA spec2 c : sProp 𝕄) = iprop((∃ d, owns (c : Thread nD τ) scM fullShare d) ∗ restK c) := by
  unfold Pipeline.ΦA restK
  rw [scopedRest2_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg2.N → sProp 𝕄
  | 0, _ => Pipeline.ΦA spec2 c
  | n + 1, hn => iprop(owns (c : Thread nD τ) scM fullShare (acc V c n hn) ∗ restK c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) scM fullShare (acc V c n hn) ∗ restK c) := rfl

theorem PhiS_pos (c : Dev nD) (n : ℕ) (h : n ≤ cfg2.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (xb V c t) (wb V c t) (bb V c t)
    | ⟨4, _⟩ => k2_pay4 (acc V c t.val t.isLt)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay2 (xb V c t) (wb V c t) (bb V c t) := by dsimp only [dat]
theorem after_4 (c : Dev nD) (t : Fin cfg2.N) : (dat V c).after 4 t = k2_pay4 (acc V c t.val t.isLt) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg2.N = 5 from N_2)
  by_cases h0 : t.val = 0
  · have hc1 : cond1 (grid2.coords t) := (hcond1 t).mpr h0
    have hc2 : ¬ k2_cond2 (grid2.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid2.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid2.coords t) := fun h => h0 ((hcond1 t).mp h)
    by_cases h4 : t.val = 4
    · have hc2 : k2_cond2 (grid2.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid2.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k2_cond2 (grid2.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid2.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 5 := N_2; omega), PhiA_eq]
  iintro ⟨HS, Hr⟩
  isplitl [HS]
  · iexists _; iexact HS
  iexact Hr

end Cert.KernelIdeal.Region2

end
-- ==== Proof.KIBody3.lean ====
/-
  The kernel body of one pallas_call (all four run the same kernel function) on whole staging buffers, at each of the three kinds of grid point.
  At every point the body stores the block  h = x · W + b  of its input block x into the output block, and adds the
  block's column sums to an accumulator it keeps in a scratch buffer between points: at the grid's first point the
  accumulator is first reset to zero; at the last point the pooled summary — the logistic function of the accumulated
  column sums times 1/100000 — is stored into the second output. The three statements below say, for each kind of
  point, what every buffer holds after the body, as the body's own pure terms of what the buffers held before.
-/
import proofs.«101884_j77610059038802_1_alg».proof.Proof.LaunchKI
import proofs.«101884_j77610059038802_1_alg».proof.Proof.Gen.KernelIdeal.Skeleton
import proofs.«101884_j77610059038802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Body3

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition (the accumulator is reset at the grid's first point), as the body computes it from the grid coordinate. -/
abbrev cond1 (i : grid3.Coords) : Prop := (Scalar.cmpi .ne (Scalar.extui (Scalar.cmpi .eq (BitVec.ofNat 32 (i 0).val) 0#32)) 0#32) = 1#1

/-- The zero offsets of a whole-buffer rectangle of rank two. -/
theorem hz2 : (![0, 0] : Fin 2 → Nat) = fun _ => 0 := by funext a; fin_cases a <;> rfl

set_option maxHeartbeats 1000000 in
/-- A point that is neither the first nor the last: the output block is written, the accumulator `xs` is added to, the
    second output is left as it was found. -/
theorem sound_mid (c : Dev nD) (E : Set ℕ) (i : grid3.Coords) (hc1 : ¬ cond1 i) (hc2 : ¬ k3_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi ∗ owns (c : Thread nD τ) arg6 fullShare (k3_pay3 x0 x1 x2 xs)) -∗ K ⟨⟩))
      ⊢ wp frame (wpE (defs₀ (F := F)) Variants.none c none) E (cc3__conv_pool_kernel i arg1 harg1 arg2 harg2 arg3 harg3 arg4 harg4 arg5 harg5 arg6 harg6) K := by
  simp only [cc3__conv_pool_kernel_eq_skeleton]; unfold cc3__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%f6, %hf6, H6⟩, Hk⟩
  subst hf0; subst hf1; subst hf2; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

set_option maxHeartbeats 1000000 in
/-- The first point: the accumulator starts from the zero splat. -/
theorem sound_first (c : Dev nD) (E : Set ℕ) (i : grid3.Coords) (hc1 : cond1 i) (hc2 : ¬ k3_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xi : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare xi ∗ owns (c : Thread nD τ) arg6 fullShare (k3_pay3 x0 x1 x2 (k3_pay1 (F := F)))) -∗ K ⟨⟩))
      ⊢ wp frame (wpE (defs₀ (F := F)) Variants.none c none) E (cc3__conv_pool_kernel i arg1 harg1 arg2 harg2 arg3 harg3 arg4 harg4 arg5 harg5 arg6 harg6) K := by
  simp only [cc3__conv_pool_kernel_eq_skeleton]; unfold cc3__conv_pool_kernel_skel
  unfold owns
  iintro ⟨⟨%f0, %hf0, H0⟩, ⟨%f1, %hf1, H1⟩, ⟨%f2, %hf2, H2⟩, ⟨%d4, %f4, -, H4⟩, ⟨%f5, %hf5, H5⟩, ⟨%d6, %f6, -, H6⟩, Hk⟩
  subst hf0; subst hf1; subst hf2; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists f5; isplitr; · ipureintro; rfl
    iexact H5
  iexists _; isplitr
  swap; · iexact H6
  ipureintro
  sl_unfold_words
  rw [View.read_writes_eq_canon _ _ _ (fun y => ⟨_, List.mem_cons_self, View.mem_set_unit_zero hz2 inb_S1x64_S1x64_0_0 y⟩), View.canon_cons_unit_zero hz2]
  simp only [View.readAt_eq_ld, View.ld_unit_zero (S := S20000x64) hz2, View.ld_unit_zero (S := S64x64) hz2, View.ld_unit_zero (S := S1x64) hz2, View.readCov_unit_zero (S := S1x64) _ hz2]

set_option maxHeartbeats 1000000 in
/-- The last point: besides, the second output takes the summary of the accumulator just updated. -/
theorem sound_last (c : Dev nD) (E : Set ℕ) (i : grid3.Coords) (hc1 : ¬ cond1 i) (hc2 : k3_cond2 i = 1#1)
    (arg1 : Memref sig .tc .vmem S20000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S20000x64 .f32) (harg4 : arg4.IsWhole)
    (arg5 : Memref sig .tc .vmem S1x64 .f32) (harg5 : arg5.IsWhole) (arg6 : Memref sig .tc .vmem S1x64 .f32) (harg6 : arg6.IsWhole)
    (x0 : Vec F S20000x64 .f32) (x1 : Vec F S64x64 .f32) (x2 : Vec F S1x64 .f32) (xs : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k3_pay2 x0 x1 x2) ∗ owns (c : Thread nD τ) arg5 fullShare (k3_pay4 (k3_pay3 x0 x1 x2 xs)) ∗ owns (c : Thread nD τ) arg6 fullShare (k3_pay3 x0 x1 x2 xs)) -∗ K ⟨⟩))
      ⊢ wp frame (wpE (defs₀ (F := F)) Variants.none c none) E (cc3__conv_pool_kernel i arg1 harg1 arg2 harg2 arg3 harg3 arg4 harg4 arg5 harg5 arg6 harg6) K := by
  simp only [cc3__conv_pool_kernel_eq_skeleton]; unfold cc3__conv_pool_kernel_skel
  unfold owns
  iintro ⟨⟨%f0, %hf0, H0⟩, ⟨%f1, %hf1, H1⟩, ⟨%f2, %hf2, H2⟩, ⟨%d4, %f4, -, H4⟩, ⟨%d5, %f5, -, H5⟩, ⟨%f6, %hf6, H6⟩, Hk⟩
  subst hf0; subst hf1; subst hf2; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    rw [View.read_writes_eq_canon _ _ _ (fun y => ⟨_, List.mem_singleton_self _, View.mem_set_unit_zero hz2 inb_S20000x64_S20000x64_0_0 y⟩), View.canon_unit_zero hz2]
    simp only [View.readAt_eq_ld, View.ld_unit_zero (S := S20000x64) hz2, View.ld_unit_zero (S := S64x64) hz2, View.ld_unit_zero (S := S1x64) hz2]
  isplitl [H5]
  · iexists _; isplitr
    swap; · iexact H5
    ipureintro
    sl_unfold_words
    rw [View.read_writes_eq_canon _ _ _ (fun y => ⟨_, List.mem_singleton_self _, View.mem_set_unit_zero hz2 inb_S1x64_S1x64_0_0 y⟩), View.canon_unit_zero hz2]
    simp only [View.readAt_eq_ld, View.ld_unit_zero (S := S20000x64) hz2, View.ld_unit_zero (S := S64x64) hz2, View.ld_unit_zero (S := S1x64) hz2, View.readCov_unit_zero (S := S1x64) _ hz2]
  iexists _; isplitr
  swap; · iexact H6
  ipureintro
  sl_unfold_words
  rw [View.read_writes_eq_canon _ _ _ (fun y => ⟨_, List.mem_singleton_self _, View.mem_set_unit_zero hz2 inb_S1x64_S1x64_0_0 y⟩), View.canon_unit_zero hz2]
  simp only [View.readAt_eq_ld, View.ld_unit_zero (S := S20000x64) hz2, View.ld_unit_zero (S := S64x64) hz2, View.ld_unit_zero (S := S1x64) hz2]

end Cert.KernelIdeal.Body3
end
-- ==== Proof.KIRegion3.lean ====
/-
  One pallas_call as a pipeline over its five grid points, from any contents `V` of the device's buffers at the
  region's entry: what every window's staging buffer holds after the body at each point, the accumulator the body
  carries in its scratch buffer from point to point, and the proof that the body, called as the pipeline calls it,
  leaves exactly that.
  Point t reads block t of the aggregated features (rows 20000·t … 20000·t + 19999), the whole weight matrix and the
  whole bias row; it writes block t of the output, and the scratch after point t holds the column sums of the output
  blocks 0 … t added up from zero. Only the last point stores the second output (the pooled summary); at the other
  points that window is idle: its buffer is handed back as found and not written back.
-/
import proofs.«101884_j77610059038802_1_alg».proof.Proof.KIBody3

set_option maxRecDepth 16384

noncomputable section

namespace Cert.KernelIdeal.Region3

open Cert.KernelIdeal Cert.KernelIdeal.Gen Cert.KernelIdeal.GenP Cert.KernelIdeal.Body3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an unfetched
    window's block index has not moved), for any proof data whose array is the entry contents and whose body leaves
    the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The three input blocks at point `t`, at their literal types: the feature block, the weights, the bias row. -/
abbrev xb (c : Dev nD) (t : Fin cfg3.N) : Vec F S20000x64 .f32 := iblk V c 0 t
abbrev wb (c : Dev nD) (t : Fin cfg3.N) : Vec F S64x64 .f32 := iblk V c 1 t
abbrev bb (c : Dev nD) (t : Fin cfg3.N) : Vec F S1x64 .f32 := iblk V c 2 t

/-! ## The accumulator -/

/-- What the scratch buffer holds after the body at position `n`: the column sums of the output blocks so far, added up
    from the zero splat the first point starts from. -/
def acc (c : Dev nD) : (n : ℕ) → n < cfg3.N → Vec F S1x64 .f32
  | 0, h => k3_pay3 (xb V c ⟨0, h⟩) (wb V c ⟨0, h⟩) (bb V c ⟨0, h⟩) (k3_pay1 (F := F))
  | n + 1, h => k3_pay3 (xb V c ⟨n + 1, h⟩) (wb V c ⟨n + 1, h⟩) (bb V c ⟨n + 1, h⟩) (acc c n (Nat.lt_of_succ_lt h))

theorem acc_zero (c : Dev nD) (t : Fin cfg3.N) (h : t.val = 0) :
    acc V c t.val t.isLt = k3_pay3 (xb V c t) (wb V c t) (bb V c t) (k3_pay1 (F := F)) := by
  obtain ⟨n, hn⟩ := t
  cases n with
  | zero => rfl
  | succ n => exact absurd h (Nat.succ_ne_zero n)

theorem acc_pos (c : Dev nD) (t : Fin cfg3.N) (h : t.val ≠ 0) :
    acc V c t.val t.isLt = k3_pay3 (xb V c t) (wb V c t) (bb V c t) (acc V c (t.val - 1) (Nat.lt_of_le_of_lt (Nat.sub_le _ _) t.isLt)) := by
  obtain ⟨n, hn⟩ := t
  cases n with
  | zero => exact absurd rfl h
  | succ n => rfl

/-! ## The body's branch conditions, decided over the grid -/

theorem hcond1 : ∀ t : Fin cfg3.N, cond1 (grid3.coords t) ↔ t.val = 0 :=
  (by decide +kernel : ∀ t : Fin grid3.N, cond1 (grid3.coords t) ↔ t.val = 0)
theorem hcond2 : ∀ t : Fin cfg3.N, k3_cond2 (grid3.coords t) = 1#1 ↔ t.val = 4 :=
  (by decide +kernel : ∀ t : Fin grid3.N, k3_cond2 (grid3.coords t) = 1#1 ↔ t.val = 4)

/-- The four windows the body always stores or leaves in place are never idle; the second output is idle, and not
    written back, exactly where the last branch is not taken. -/
theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
theorem live_3 : ∀ t : Fin cfg3.N, cfg3.idle 3 (grid3.coords t) = false := by decide +kernel
theorem idle_4 : ∀ t : Fin cfg3.N, ¬ k3_cond2 (grid3.coords t) = 1#1 → cfg3.idle 4 (grid3.coords t) = true := by decide +kernel
theorem noFlush_4 : ∀ t : Fin cfg3.N, ¬ k3_cond2 (grid3.coords t) = 1#1 → (cfg3.win 4).flush t = false := by decide +kernel
theorem live_4 : ∀ t : Fin cfg3.N, k3_cond2 (grid3.coords t) = 1#1 → cfg3.idle 4 (grid3.coords t) = false := by decide +kernel

/-! ## The staging memrefs at a point, and the scratch -/

abbrev ms0 (t : Fin cfg3.N) : Memref sig .tc .vmem S20000x64 .f32 := win3_0.stage (cfg3.slots t 0)
abbrev ms1 (t : Fin cfg3.N) : Memref sig .tc .vmem S64x64 .f32 := win3_1.stage (cfg3.slots t 1)
abbrev ms2 (t : Fin cfg3.N) : Memref sig .tc .vmem S1x64 .f32 := win3_2.stage (cfg3.slots t 2)
abbrev ms3 (t : Fin cfg3.N) : Memref sig .tc .vmem S20000x64 .f32 := win3_3.stage (cfg3.slots t 3)
abbrev ms4 (t : Fin cfg3.N) : Memref sig .tc .vmem S1x64 .f32 := win3_4.stage (cfg3.slots t 4)
/-- The scratch operand: a whole scoped buffer of the kernel's own. -/
abbrev scM : Memref sig .tc .vmem S1x64 .f32 := Memref.whole cc3_scratch0

/-- What rides through the region beside the scratch: every other scoped buffer no window stages, at some contents,
    and the generator register at some state. -/
abbrev restK (c : Dev nD) : sProp 𝕄 :=
  iprop(Pipeline.scopedRestBut (Ix := Unit) (Name := ℕ) (U := UR sig nD τ) (Lvl := ℕ) (Val := Elt F) spec3 c [cc3_scratch0] ∗ (∃ r, prngReg c r))

/-- The class invariant (the scoped rest and the generator register) with the scratch split out, owned at some contents. -/
theorem PhiA_eq (c : Dev nD) :
    (Pipeline.ΦA spec3 c : sProp 𝕄) = iprop((∃ d, owns (c : Thread nD τ) scM fullShare d) ∗ restK c) := by
  unfold Pipeline.ΦA restK
  rw [scopedRest3_split]
  simp only [scM, owns_whole]
  exact Idealize.SL.BI.sep_assoc.antisymm Idealize.SL.BI.sep_assoc'

/-- The region invariant before position `n`: before the first point the class's; afterwards the scratch at what the
    point before left in it (the accumulator), beside the rest. -/
def PhiS (c : Dev nD) : (n : ℕ) → n ≤ cfg3.N → sProp 𝕄
  | 0, _ => Pipeline.ΦA spec3 c
  | n + 1, hn => iprop(owns (c : Thread nD τ) scM fullShare (acc V c n hn) ∗ restK c)

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(owns (c : Thread nD τ) scM fullShare (acc V c n hn) ∗ restK c) := rfl

theorem PhiS_pos (c : Dev nD) (n : ℕ) (h : n ≤ cfg3.N) (hz : n ≠ 0) :
    PhiS V c n h = iprop(owns (c : Thread nD τ) scM fullShare (acc V c (n - 1) (by omega)) ∗ restK c) := by
  cases n with
  | zero => exact absurd rfl hz
  | succ n => rfl

/-! ## The pipeline's proof data -/

/-- The arrays as the region finds them; after the body at point `t` each input's buffer at its block, the first output's
    at the block  x · W + b  of the input blocks, the second output's at the summary of the accumulator (consulted
    at the last point only: elsewhere the window is idle); the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => k3_pay2 (xb V c t) (wb V c t) (bb V c t)
    | ⟨4, _⟩ => k3_pay4 (acc V c t.val t.isLt)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = k3_pay2 (xb V c t) (wb V c t) (bb V c t) := by dsimp only [dat]
theorem after_4 (c : Dev nD) (t : Fin cfg3.N) : (dat V c).after 4 t = k3_pay4 (acc V c t.val t.isLt) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at any point. The inputs' buffers hold their blocks; which of the three kinds of point it is the closed
    forms of the conditions say; the invariant hands the body the scratch at what the point before left (at anything
    at the first point) and takes it back at this point's accumulator; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  rw [show (dat V c).leavesExact 3 t = owns (c : Thread nD τ) (ms3 t) fullShare ((dat V c).after 3 t) from by
    unfold Dat.leavesExact; rw [live_3 t], after_3]
  have hN : t.val < 5 := lt_of_lt_of_eq t.isLt (show cfg3.N = 5 from N_3)
  by_cases h0 : t.val = 0
  · have hc1 : cond1 (grid3.coords t) := (hcond1 t).mpr h0
    have hc2 : ¬ k3_cond2 (grid3.coords t) = 1#1 := fun h => by have := (hcond2 t).mp h; omega
    rw [Dat.leavesExact_idle (dat V c) 4 t (idle_4 t hc2) (noFlush_4 t hc2)]
    rw [PhiS_castSucc V c t, PhiS_zero V c _ _ h0, PhiA_eq, acc_zero V c t h0]
    iintro ⟨⟨HS, Hr⟩, Ho, ⟨%d0, H0⟩, ⟨%d1, H1⟩, ⟨%d2, H2⟩, ⟨%d3, H3⟩, ⟨%d4, H4⟩⟩
    iapply (sound_first c Set.univ (grid3.coords t) hc1 hc2 _ _ _ _ _ _ _ _ _ _ _ _ (xb V c t) (wb V c t) (bb V c t) ((dat V c).before 4 t d4) _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    iexists _; iexact H4
  · have hc1 : ¬ cond1 (grid3.coords t) := fun h => h0 ((hcond1 t).mp h)
    by_cases h4 : t.val = 4
    · have hc2 : k3_cond2 (grid3.coords t) = 1#1 := (hcond2 t).mpr h4
      rw [show (dat V c).leavesExact 4 t = owns (c : Thread nD τ) (ms4 t) fullShare ((dat V c).after 4 t) from by
        unfold Dat.leavesExact; rw [live_4 t hc2], after_4]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_last c Set.univ (grid3.coords t) hc1 hc2 _ _ _ _ _ _ _ _ _ _ _ _ (xb V c t) (wb V c t) (bb V c t) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexact H4
    · have hc2 : ¬ k3_cond2 (grid3.coords t) = 1#1 := fun h => h4 ((hcond2 t).mp h)
      rw [Dat.leavesExact_idle (dat V c) 4 t (idle_4 t hc2) (noFlush_4 t hc2)]
      rw [PhiS_castSucc V c t, PhiS_pos V c _ _ h0, acc_pos V c t h0]
      iintro ⟨⟨HS, Hr⟩, Ho, ⟨%d0, H0⟩, ⟨%d1, H1⟩, ⟨%d2, H2⟩, ⟨%d3, H3⟩, ⟨%d4, H4⟩⟩
      iapply (sound_mid c Set.univ (grid3.coords t) hc1 hc2 _ _ _ _ _ _ _ _ _ _ _ _ (xb V c t) (wb V c t) (bb V c t) ((dat V c).before 4 t d4) (acc V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, H3, H4, HS⟩
      isplitl [HS Hr]
      · isplitl [HS]; · iexact HS
        iexact Hr
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's named contents are forgotten. -/
theorem hout (c : Dev nD) : (dat V c).Φ (Fin.last cfg3.N) ⊢ Pipeline.ΦA spec3 c := by
  rw [show (dat V c).Φ (Fin.last cfg3.N) = PhiS V c (Fin.last cfg3.N).val (Nat.le_of_lt_succ (Fin.last cfg3.N).isLt) from rfl,
    PhiS_pos V c _ _ (by rw [Fin.val_last]; have : cfg3.N = 5 := N_3; omega), PhiA_eq]
  iintro ⟨HS, Hr⟩
  isplitl [HS]
  · iexists _; iexact HS
  iexact Hr

end Cert.KernelIdeal.Region3

end
-- ==== Proof.KIRun.lean ====
/-
  The whole program as a run of nine segments — a stretch of host operations, a pallas_call, … — from the launch to the
  return: what every unscoped buffer of the device holds at each boundary (a fold from the launch memory: a host stretch
  applies its operations; a pallas_call leaves its arrays at what its write-backs wrote and every other buffer as it
  was), each pallas_call a pipeline region entered from the contents before it, and the conclusion: every weakly fair
  execution terminates, nothing faulting, with every unscoped buffer at the last boundary's contents.
-/
import proofs.«101884_j77610059038802_1_alg».proof.Proof.KIRegion0
import proofs.«101884_j77610059038802_1_alg».proof.Proof.KIRegion1
import proofs.«101884_j77610059038802_1_alg».proof.Proof.KIRegion2
import proofs.«101884_j77610059038802_1_alg».proof.Proof.KIRegion3
import proofs.«101884_j77610059038802_1_alg».proof.Proof.RegionsKI

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)

/-- The same read at the TensorCore's references: what region 0's proof data take. -/
abbrev V1 : (c : Dev nD) → (b : Ref sig .tc) → Buf (Elt F) ((c : Thread nD τ).loc b) := fun c b => W1 m ρ c b
/-- At region 0's exit: its arrays at what the pipeline leaves (the inputs as entered, each output's write-backs folded
    in point order), every other buffer as entered. -/
def W2 (c : Dev nD) : Valuation τ sig (Elt F) :=
  Pipeline.withArrays spec0 c (W1 m ρ c) fun w => (Region0.dat (V1 m ρ) c).arrAt w cfg0.N
theorem W2_arr (c : Dev nD) (w : Fin cfg0.W) :
    W2 m ρ c (Proc.devRef .tc (Pipeline.arrRef spec0 w)) = (Region0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (Region0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)

/-- The same read at the TensorCore's references: what region 1's proof data take. -/
abbrev V3 : (c : Dev nD) → (b : Ref sig .tc) → Buf (Elt F) ((c : Thread nD τ).loc b) := fun c b => W3 m ρ c b
/-- At region 1's exit: its arrays at what the pipeline leaves (the inputs as entered, each output's write-backs folded
    in point order), every other buffer as entered. -/
def W4 (c : Dev nD) : Valuation τ sig (Elt F) :=
  Pipeline.withArrays spec1 c (W3 m ρ c) fun w => (Region1.dat (V3 m ρ) c).arrAt w cfg1.N
theorem W4_arr (c : Dev nD) (w : Fin cfg1.W) :
    W4 m ρ c (Proc.devRef .tc (Pipeline.arrRef spec1 w)) = (Region1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (Region1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)

/-- The same read at the TensorCore's references: what region 2's proof data take. -/
abbrev V5 : (c : Dev nD) → (b : Ref sig .tc) → Buf (Elt F) ((c : Thread nD τ).loc b) := fun c b => W5 m ρ c b
/-- At region 2's exit: its arrays at what the pipeline leaves (the inputs as entered, each output's write-backs folded
    in point order), every other buffer as entered. -/
def W6 (c : Dev nD) : Valuation τ sig (Elt F) :=
  Pipeline.withArrays spec2 c (W5 m ρ c) fun w => (Region2.dat (V5 m ρ) c).arrAt w cfg2.N
theorem W6_arr (c : Dev nD) (w : Fin cfg2.W) :
    W6 m ρ c (Proc.devRef .tc (Pipeline.arrRef spec2 w)) = (Region2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (Region2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)

/-- The same read at the TensorCore's references: what region 3's proof data take. -/
abbrev V7 : (c : Dev nD) → (b : Ref sig .tc) → Buf (Elt F) ((c : Thread nD τ).loc b) := fun c b => W7 m ρ c b
/-- At region 3's exit: its arrays at what the pipeline leaves (the inputs as entered, each output's write-backs folded
    in point order), every other buffer as entered. -/
def W8 (c : Dev nD) : Valuation τ sig (Elt F) :=
  Pipeline.withArrays spec3 c (W7 m ρ c) fun w => (Region3.dat (V7 m ρ) c).arrAt w cfg3.N
theorem W8_arr (c : Dev nD) (w : Fin cfg3.W) :
    W8 m ρ c (Proc.devRef .tc (Pipeline.arrRef spec3 w)) = (Region3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
theorem hF3 (c : Dev nD) (w : Fin cfg3.W) : (Region3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)

/-! ## The proof data family and the thread state -/

/-- No pallas_call has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Region0.dat (V1 m ρ) c
  | ⟨1, _⟩ => fun c => Region1.dat (V3 m ρ) c
  | ⟨2, _⟩ => fun c => Region2.dat (V5 m ρ) c
  | ⟨3, _⟩ => fun c => Region3.dat (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the class invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region0.hin (V1 m ρ) c)
    show (_ : sProp 𝕄) ⊢ _
    unfold Pipeline.ΦA
    iintro ⟨Hp, -, Hr⟩
    isplitl [Hr]; · iexact Hr
    iexact Hp
  hout c := by
    refine BI.Entails.trans (Region0.hout (V1 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at the exit contents; the generator register goes into the class invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region1.hin (V3 m ρ) c)
    show (_ : sProp 𝕄) ⊢ _
    unfold Pipeline.ΦA
    iintro ⟨Hp, -, Hr⟩
    isplitl [Hr]; · iexact Hr
    iexact Hp
  hout c := by
    refine BI.Entails.trans (Region1.hout (V3 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays are split
    out of the unscoped buffers and put back at the exit contents; the generator register goes into the class invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region2.hin (V5 m ρ) c)
    show (_ : sProp 𝕄) ⊢ _
    unfold Pipeline.ΦA
    iintro ⟨Hp, -, Hr⟩
    isplitl [Hr]; · iexact Hr
    iexact Hp
  hout c := by
    refine BI.Entails.trans (Region2.hout (V5 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W7`, left at `W8`. Its arrays are split
    out of the unscoped buffers and put back at the exit contents; the generator register goes into the class invariant and
    comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Region3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Region3.hin (V7 m ρ) c)
    show (_ : sProp 𝕄) ⊢ _
    unfold Pipeline.ΦA
    iintro ⟨Hp, -, Hr⟩
    isplitl [Hr]; · iexact Hr
    iexact Hp
  hout c := by
    refine BI.Entails.trans (Region3.hout (V7 m ρ) c) ?_
    rw [Pipeline.ownSems0_none]; unfold Pipeline.ΦA
    show (_ : sProp 𝕄) ⊢ _
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub GenQ.hostOps0_fresh (W0 m ρ)),
    .region (reg0 m ρ),
    .host (hseg hostOps1 hostOps1_sub GenQ.hostOps1_fresh (W2 m ρ)),
    .region (reg1 m ρ),
    .host (hseg hostOps2 hostOps2_sub GenQ.hostOps2_fresh (W4 m ρ)),
    .region (reg2 m ρ),
    .host (hseg hostOps3 hostOps3_sub GenQ.hostOps3_fresh (W6 m ρ)),
    .region (reg3 m ρ),
    .host (hseg hostOps4 hostOps4_sub GenQ.hostOps4_fresh (W8 m ρ)) ]

/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of the program on the
    TensorCores terminates, nothing faulting, and every final state has every unscoped buffer at the last boundary's
    contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Run

end
-- ==== Proof.KIFrame.lean ====
/-
  Which buffers each segment leaves alone, and the frame: no host operation writes an argument array and no pallas_call
  has one among its output arrays, so the fold of the nine segments at an argument's buffer walks back to the launch
  memory; the same bookkeeping says where each result is last written.
-/
import proofs.«101884_j77610059038802_1_alg».proof.Proof.KIRun

set_option maxRecDepth 16384

noncomputable section

namespace Cert.KernelIdeal.Run

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## What each segment leaves unchanged -/

theorem keepH0 (c : Dev nD) (r : Ref sig .tc) (h : r ∉ GenQ.hostOps0_W) : W1 m ρ c (Proc.devRef .tc r) = W0 m ρ c (Proc.devRef .tc r) :=
  StableHlo.after_of_writes_sub hostOps0 _ GenQ.hostOps0_writes h
/-- A pallas_call leaves alone every buffer that is not one of its arrays, and its INPUT arrays too (an input array is never written back). -/
theorem keepR0 (c : Dev nD) (r : Ref sig .tc) (h : ∀ w, Pipeline.arrRef spec0 w = r → (cfg0.win w).isOut = false) :
    W2 m ρ c (Proc.devRef .tc r) = W1 m ρ c (Proc.devRef .tc r) := by
  by_cases hw : ∃ w, Pipeline.arrRef spec0 w = r
  · obtain ⟨w, rfl⟩ := hw
    exact (W2_arr m ρ c w).trans (((Region0.dat (V1 m ρ) c).arrAt_in w (h w rfl) _).trans (Region0.A_eq (V1 m ρ) c w))
  · exact W2_of_ne m ρ c r fun w e => hw ⟨w, e⟩
theorem keepH1 (c : Dev nD) (r : Ref sig .tc) (h : r ∉ GenQ.hostOps1_W) : W3 m ρ c (Proc.devRef .tc r) = W2 m ρ c (Proc.devRef .tc r) :=
  StableHlo.after_of_writes_sub hostOps1 _ GenQ.hostOps1_writes h
/-- A pallas_call leaves alone every buffer that is not one of its arrays, and its INPUT arrays too (an input array is never written back). -/
theorem keepR1 (c : Dev nD) (r : Ref sig .tc) (h : ∀ w, Pipeline.arrRef spec1 w = r → (cfg1.win w).isOut = false) :
    W4 m ρ c (Proc.devRef .tc r) = W3 m ρ c (Proc.devRef .tc r) := by
  by_cases hw : ∃ w, Pipeline.arrRef spec1 w = r
  · obtain ⟨w, rfl⟩ := hw
    exact (W4_arr m ρ c w).trans (((Region1.dat (V3 m ρ) c).arrAt_in w (h w rfl) _).trans (Region1.A_eq (V3 m ρ) c w))
  · exact W4_of_ne m ρ c r fun w e => hw ⟨w, e⟩
theorem keepH2 (c : Dev nD) (r : Ref sig .tc) (h : r ∉ GenQ.hostOps2_W) : W5 m ρ c (Proc.devRef .tc r) = W4 m ρ c (Proc.devRef .tc r) :=
  StableHlo.after_of_writes_sub hostOps2 _ GenQ.hostOps2_writes h
/-- A pallas_call leaves alone every buffer that is not one of its arrays, and its INPUT arrays too (an input array is never written back). -/
theorem keepR2 (c : Dev nD) (r : Ref sig .tc) (h : ∀ w, Pipeline.arrRef spec2 w = r → (cfg2.win w).isOut = false) :
    W6 m ρ c (Proc.devRef .tc r) = W5 m ρ c (Proc.devRef .tc r) := by
  by_cases hw : ∃ w, Pipeline.arrRef spec2 w = r
  · obtain ⟨w, rfl⟩ := hw
    exact (W6_arr m ρ c w).trans (((Region2.dat (V5 m ρ) c).arrAt_in w (h w rfl) _).trans (Region2.A_eq (V5 m ρ) c w))
  · exact W6_of_ne m ρ c r fun w e => hw ⟨w, e⟩
theorem keepH3 (c : Dev nD) (r : Ref sig .tc) (h : r ∉ GenQ.hostOps3_W) : W7 m ρ c (Proc.devRef .tc r) = W6 m ρ c (Proc.devRef .tc r) :=
  StableHlo.after_of_writes_sub hostOps3 _ GenQ.hostOps3_writes h
/-- A pallas_call leaves alone every buffer that is not one of its arrays, and its INPUT arrays too (an input array is never written back). -/
theorem keepR3 (c : Dev nD) (r : Ref sig .tc) (h : ∀ w, Pipeline.arrRef spec3 w = r → (cfg3.win w).isOut = false) :
    W8 m ρ c (Proc.devRef .tc r) = W7 m ρ c (Proc.devRef .tc r) := by
  by_cases hw : ∃ w, Pipeline.arrRef spec3 w = r
  · obtain ⟨w, rfl⟩ := hw
    exact (W8_arr m ρ c w).trans (((Region3.dat (V7 m ρ) c).arrAt_in w (h w rfl) _).trans (Region3.A_eq (V7 m ρ) c w))
  · exact W8_of_ne m ρ c r fun w e => hw ⟨w, e⟩
theorem keepH4 (c : Dev nD) (r : Ref sig .tc) (h : r ∉ GenQ.hostOps4_W) : W9 m ρ c (Proc.devRef .tc r) = W8 m ρ c (Proc.devRef .tc r) :=
  StableHlo.after_of_writes_sub hostOps4 _ GenQ.hostOps4_writes h

/-- A buffer no segment writes ends as launched. -/
theorem W9_untouched (c : Dev nD) (r : Ref sig .tc)
    (h0 : r ∉ GenQ.hostOps0_W) (h1 : r ∉ GenQ.hostOps1_W) (h2 : r ∉ GenQ.hostOps2_W) (h3 : r ∉ GenQ.hostOps3_W) (h4 : r ∉ GenQ.hostOps4_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) (g3 : ∀ w, Pipeline.arrRef spec3 w = r → (cfg3.win w).isOut = false) :
    W9 m ρ c (Proc.devRef .tc r) = W0 m ρ c (Proc.devRef .tc r) :=
  (keepH4 m ρ c r h4).trans <| (keepR3 m ρ c r g3).trans <| (keepH3 m ρ c r h3).trans <| (keepR2 m ρ c r g2).trans <|
    (keepH2 m ρ c r h2).trans <| (keepR1 m ρ c r g1).trans <| (keepH1 m ρ c r h1).trans <| (keepR0 m ρ c r g0).trans (keepH0 m ρ c r h0)

/-- An argument array ends as launched. -/
theorem W9_arg (c : Dev nD) (r : Ref sig .tc)
    (h0 : r ∉ GenQ.hostOps0_W) (h1 : r ∉ GenQ.hostOps1_W) (h2 : r ∉ GenQ.hostOps2_W) (h3 : r ∉ GenQ.hostOps3_W) (h4 : r ∉ GenQ.hostOps4_W)
    (g0 : ∀ w, Pipeline.arrRef spec0 w = r → (cfg0.win w).isOut = false) (g1 : ∀ w, Pipeline.arrRef spec1 w = r → (cfg1.win w).isOut = false)
    (g2 : ∀ w, Pipeline.arrRef spec2 w = r → (cfg2.win w).isOut = false) (g3 : ∀ w, Pipeline.arrRef spec3 w = r → (cfg3.win w).isOut = false) :
    W9 m ρ c (Proc.devRef .tc r) = m ((c : Thread nD τ).loc r) :=
  (W9_untouched m ρ c r h0 h1 h2 h3 h4 g0 g1 g2 g3).trans rfl

/-! ## The frame -/

/-- Every weakly fair execution terminates, nothing faulting, with the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      (h c _ (mem_uc main_arg0 (by decide))).trans (W9_arg m ρ c main_arg0 (by decide) (by decide) (by decide) (by decide) (by decide) (by decide) (by decide) (by decide) (by decide)),
      (h c _ (mem_uc main_arg1 (by decide))).trans (W9_arg m ρ c main_arg1 (by decide) (by decide) (by decide) (by decide) (by decide) (by decide) (by decide) (by decide) (by decide)),
      (h c _ (mem_uc main_arg2 (by decide))).trans (W9_arg m ρ c main_arg2 (by decide) (by decide) (by decide) (by decide) (by decide) (by decide) (by decide) (by decide) (by decide)),
      (h c _ (mem_uc main_arg3 (by decide))).trans (W9_arg m ρ c main_arg3 (by decide) (by decide) (by decide) (by decide) (by decide) (by decide) (by decide) (by decide) (by decide)),
      (h c _ (mem_uc main_arg4 (by decide))).trans (W9_arg m ρ c main_arg4 (by decide) (by decide) (by decide) (by decide) (by decide) (by decide) (by decide) (by decide) (by decide)),
      (h c _ (mem_uc main_arg5 (by decide))).trans (W9_arg m ρ c main_arg5 (by decide) (by decide) (by decide) (by decide) (by decide) (by decide) (by decide) (by decide) (by decide)),
      (h c _ (mem_uc main_arg6 (by decide))).trans (W9_arg m ρ c main_arg6 (by decide) (by decide) (by decide) (by decide) (by decide) (by decide) (by decide) (by decide) (by decide)),
      (h c _ (mem_uc main_arg7 (by decide))).trans (W9_arg m ρ c main_arg7 (by decide) (by decide) (by decide) (by decide) (by decide) (by decide) (by decide) (by decide) (by decide)),
      (h c _ (mem_uc main_arg8 (by decide))).trans (W9_arg m ρ c main_arg8 (by decide) (by decide) (by decide) (by decide) (by decide) (by decide) (by decide) (by decide) (by decide)),
      (h c _ (mem_uc main_arg9 (by decide))).trans (W9_arg m ρ c main_arg9 (by decide) (by decide) (by decide) (by decide) (by decide) (by decide) (by decide) (by decide) (by decide))⟩)
    (run_all m ρ)

end Cert.KernelIdeal.Run

end
-- ==== Proof.PayKI0.lean ====
/-
  The four payloads of the first launch's kernel body, each read at one index over the extended reals.
  At a column `j` of the one-row block: the reset payload is `0`; the row block's payload at `(r, j)` is the
  row `r` of the operand times the column `j` of the weights, plus the bias at `j` (the narrowing format changes
  are the identity on extended reals and the product accumulates into a zero splat); the running sum's payload is
  the carried sum at `j` plus the sum over the block's rows of that; and the closing payload is the logistic of
  the carried sum at `j` times the named reciprocal `1 / 100000`.
-/
import proofs.«101884_j77610059038802_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay0

open Cert.KernelIdeal Cert.KernelIdeal.Gen Idealize.ShloMosaic Idealize.ShloMosaic.ValueIdx

/-! ## The reset payload: a zero splat -/

/-- The zero splat, cast to its own shape, reads `0` at every column. -/
theorem pay1_apply (j : Fin 64) : k0_pay1 (F := Ideal) (ix2 (0 : Fin 1) j) = 0 := by
  unfold k0_pay1
  refine (congrFun (shapeCast_self _ shapeCasts_S1x64_S1x64) (ix2 (0 : Fin 1) j)).trans ?_
  exact Ideal.ofBits_zero_f32

/-! ## The product's operand indices, axis by axis

The product contracts the left operand's axis 1 with the right operand's axis 0; there is no batch axis. So at the
result index `i` and contraction position `q` the left operand is read at `(i 0, q)` and the right one at `(q, i 1)`. -/

theorem lhs_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl

theorem lhs_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q

theorem rhs_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q

theorem rhs_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- The product into a zero accumulator, read at `(r, j)`: the sum over `k` of the left operand at `(r, k)` times
    the right operand at `(k, j)`. The contraction index has one axis of extent 64; the sum is re-indexed through
    its one coordinate. -/
theorem matmul_zero_apply (a : FVec Ideal S20000x64 .bf16) (b : FVec Ideal S64x64 .bf16) (r : Fin 20000) (j : Fin 64) :
    matmul dot_S20000x64_S64x64_S20000x64_1_0_0_1_n_n none a b (constant (F := Ideal) S20000x64 .f32 0x00000000#32) (ix2 r j)
      = ∑ k : Fin 64, a (ix2 r k) * b (ix2 k j) := by
  refine (Ideal.matmul_constant_zero_apply dot_S20000x64_S64x64_S20000x64_1_0_0_1_n_n none a b (ix2 r j)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 r j) ((contrEquiv1 dot_S20000x64_S64x64_S20000x64_1_0_0_1_n_n 64 rfl rfl).symm k) = ix2 r k := funext fun c => Fin.ext (by
    match c with
    | ⟨0, _⟩ => exact lhs_0 _ _
    | ⟨1, _⟩ => exact (lhs_1 _ _).trans hk)
  have er : dot_S20000x64_S64x64_S20000x64_1_0_0_1_n_n.rhsIdx (ix2 r j) ((contrEquiv1 dot_S20000x64_S64x64_S20000x64_1_0_0_1_n_n 64 rfl rfl).symm k) = ix2 k j := funext fun c => Fin.ext (by
    match c with
    | ⟨0, _⟩ => exact (rhs_0 _ _).trans hk
    | ⟨1, _⟩ => exact rhs_1 _ _)
  rw [el, er]

/-! ## The row block's payload: product plus bias -/

/-- At `(r, j)`: the sum over `k` of `x (r, k) * w (k, j)`, plus the bias row at `j`. -/
theorem pay2_apply (x : Vec Ideal S20000x64 .f32) (w : Vec Ideal S64x64 .f32) (b2 : Vec Ideal S1x64 .f32)
    (r : Fin 20000) (j : Fin 64) :
    k0_pay2 (F := Ideal) x w b2 (ix2 r j)
      = (∑ k : Fin 64, x (ix2 r k) * w (ix2 k j)) + b2 (ix2 (0 : Fin 1) j) := by
  unfold k0_pay2
  refine (addf_apply _ _ (ix2 r j)).trans ?_
  refine congrArg₂ (fun p q : EReal => p + q) ?_ ?_
  · refine (matmul_zero_apply _ _ r j).trans ?_
    refine Finset.sum_congr rfl fun k _ => ?_
    exact congrArg (· * w (ix2 k j)) (congrFun (shapeCast_self x shapeCasts_S20000x64_S20000x64) (ix2 r k))
  · refine (broadcastTo_1b_ab_apply _ broadcasts_S1x64_S20000x64 r j).trans ?_
    exact congrFun (shapeCast_self b2 shapeCasts_S1x64_S1x64) (ix2 (0 : Fin 1) j)

/-! ## The running sum's payload: the carried sum plus the block's column sums -/

/-- The sum over the rows of a `[20000, 64]` block, from the neutral accumulator, read at column `j`: the sum over
    `r` of the block at `(r, j)`. (The accumulator's hypothesis is typed as the two equal words it compares.) -/
theorem lane_sum (y : FVec Ideal S20000x64 .f32) (hφ : FKind.Formats .f32)
    (hacc : (0x00000000#32 : BitVec 32) = 0x00000000#32) (j : Fin 64) :
    multiReduction (F := Ideal) .add [0] S64 y 0x00000000#32 reduces_S20000x64_S64 hφ hacc (ix1 j)
      = ∑ r : Fin 20000, y (ix2 r j) := by
  refine (Ideal.multiReduction_add_single y 0x00000000#32 reduces_S20000x64_S64 hφ hacc (ix1 j)).trans ?_
  refine Finset.sum_congr rfl fun k _ => ?_
  exact congrArg y (funext fun c => Fin.ext (by match c with | ⟨0, _⟩ => rfl | ⟨1, _⟩ => rfl))

/-- At column `j`: the carried sum at `j` plus the sum over the block's rows `r` of the row block's payload at
    `(r, j)`. -/
theorem pay3_apply (x : Vec Ideal S20000x64 .f32) (w : Vec Ideal S64x64 .f32) (b2 : Vec Ideal S1x64 .f32)
    (s : Vec Ideal S1x64 .f32) (j : Fin 64) :
    k0_pay3 (F := Ideal) x w b2 s (ix2 (0 : Fin 1) j)
      = s (ix2 (0 : Fin 1) j) + ∑ r : Fin 20000, k0_pay2 (F := Ideal) x w b2 (ix2 r j) := by
  unfold k0_pay3
  generalize k0_pay2 (F := Ideal) x w b2 = y
  refine (congrFun (shapeCast_self _ shapeCasts_S1x64_S1x64) (ix2 (0 : Fin 1) j)).trans ?_
  refine (addf_apply _ _ (ix2 (0 : Fin 1) j)).trans ?_
  refine congrArg (_ + ·) ?_
  refine (shapeCast_a_1a_apply _ shapeCasts_S64_S1x64 (0 : Fin 1) j).trans ?_
  exact lane_sum y (.inl rfl) rfl j

/-! ## The closing payload: the logistic of the mean -/

/-- The named reciprocal denotes the rational `1 / 100000` at the extended reals, by the certificate's table. -/
theorem inv_100000 :
    Named.named (F := Ideal) κ "inv_100000" (φ := .f32) 0x3727C5AC#32 = ((1 / 100000 : ℝ) : EReal) :=
  IdealRules.named_const.ideal_named_scalar _ _ _ _ rfl

/-- At column `j`: the logistic of the carried sum at `j` times `1 / 100000`. -/
theorem pay4_apply (s : Vec Ideal S1x64 .f32) (j : Fin 64) :
    k0_pay4 (F := Ideal) s (ix2 (0 : Fin 1) j)
      = Ideal.logistic (s (ix2 (0 : Fin 1) j) * ((1 / 100000 : ℝ) : EReal)) := by
  unfold k0_pay4
  exact congrArg (fun c : EReal => Ideal.logistic (s (ix2 (0 : Fin 1) j) * c)) inv_100000

end Cert.KernelIdeal.Pay0

end
-- ==== Proof.Spec.lean ====
/-
  The function both programs compute, stated once over plain index types.

  Every graph convolution of the model is  h = agg · W + b  (row r, column j:  h r j = Σ_k agg r k · W k j + b j),
  where `agg` is the scatter-added neighbour sum both programs build with the same host operations, and the pooled
  summary of a convolution is  c j = logistic((Σ_r h r j) / 100000).  Over the extended reals the sum over the
  100000 rows may be grouped in any way (addition is commutative and associative there), division by the real
  100000 is multiplication by its reciprocal, and the logistic function is 1 / (1 + e^(-x)).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev S100000x64 : Shape := ⟨2, ![100000, 64]⟩
abbrev S20000x64 : Shape := ⟨2, ![20000, 64]⟩
abbrev S64x64 : Shape := ⟨2, ![64, 64]⟩
abbrev S1x64 : Shape := ⟨2, ![1, 64]⟩
abbrev S64 : Shape := ⟨1, ![64]⟩

/-- One entry of a graph convolution's output: row `r` of the aggregated features against column `j` of the weights, plus the bias. -/
def hval (agg : FVec Ideal S100000x64 .f32) (w : FVec Ideal S64x64 .f32) (b : FVec Ideal S64 .f32)
    (r : Fin 100000) (j : Fin 64) : EReal :=
  (∑ k : Fin 64, agg (ix2 r k) * w (ix2 k j)) + b (ix1 j)

/-- The convolution's output array. -/
def Hs (agg : FVec Ideal S100000x64 .f32) (w : FVec Ideal S64x64 .f32) (b : FVec Ideal S64 .f32) :
    FVec Ideal S100000x64 .f32 :=
  fun i => hval agg w b (i 0) (i 1)

/-- The column sums of the output over all rows. -/
def colsum (agg : FVec Ideal S100000x64 .f32) (w : FVec Ideal S64x64 .f32) (b : FVec Ideal S64 .f32) (j : Fin 64) : EReal :=
  ∑ r : Fin 100000, hval agg w b r j

/-- The pooled summary: the logistic function of the column means. -/
def Cs (agg : FVec Ideal S100000x64 .f32) (w : FVec Ideal S64x64 .f32) (b : FVec Ideal S64 .f32) :
    FVec Ideal S64 .f32 :=
  fun j => Ideal.logistic (colsum agg w b (j 0) * ((1 / 100000 : ℝ) : EReal))

/-- The rows of the array, grouped in five blocks of 20000: the row of block `t` at offset `q`. -/
def rowOf (t : Fin 5) (q : Fin 20000) : Fin 100000 := ⟨20000 * t.val + q.val, by have := t.isLt; have := q.isLt; omega⟩

/-- Block and offset against row: the rows are the five blocks laid end to end. -/
def rowEquiv : Fin 5 × Fin 20000 ≃ Fin 100000 where
  toFun p := rowOf p.1 p.2
  invFun r := (⟨r.val / 20000, by have := r.isLt; omega⟩, ⟨r.val % 20000, Nat.mod_lt _ (by norm_num)⟩)
  left_inv p := by
    obtain ⟨t, q⟩ := p
    have hq := q.isLt
    apply Prod.ext <;> apply Fin.ext
    · show (20000 * t.val + q.val) / 20000 = t.val
      omega
    · show (20000 * t.val + q.val) % 20000 = q.val
      omega
  right_inv r := by
    apply Fin.ext
    show 20000 * (r.val / 20000) + r.val % 20000 = r.val
    omega

/-- A sum over the 100000 rows is the sum over the five blocks of the sums over each block's 20000 rows
    (in any commutative monoid: the extended reals in particular). -/
theorem sum_rows_blocks {M : Type*} [AddCommMonoid M] (f : Fin 100000 → M) :
    ∑ r : Fin 100000, f r = ∑ t : Fin 5, ∑ q : Fin 20000, f (rowOf t q) :=
  calc ∑ r : Fin 100000, f r = ∑ p : Fin 5 × Fin 20000, f (rowEquiv p) := (Equiv.sum_comp rowEquiv f).symm
    _ = ∑ t : Fin 5, ∑ q : Fin 20000, f (rowOf t q) := Fintype.sum_prod_type fun p => f (rowEquiv p)

end Cert.Spec

end
-- ==== Proof.KIValue0.lean ====
/-
  What this pallas_call leaves in its two output arrays, as functions of the arrays it reads at the region's entry
  (extended reals). Point t writes rows 20000·t … 20000·t + 19999 of the first output: entry (r, j) is
  Σ_k agg r k · W k j + b j, so after the five points the array is the whole product plus the bias. The scratch
  accumulator after point t holds, in column j, the sum over the blocks 0 … t of the blocks' column sums; after the last
  point that is the sum over all 100000 rows, and the last point writes the logistic function of it times 1/100000 into
  the second output, whose one block is the whole array.
-/
import proofs.«101884_j77610059038802_1_alg».proof.Proof.KIRegion0
import proofs.«101884_j77610059038802_1_alg».proof.Proof.PayKI0
import proofs.«101884_j77610059038802_1_alg».proof.Proof.Spec
import Idealize.ShloMosaic.Lib.Pipeline.Value
import Idealize.ShloMosaic.Lib.ValueIdx

set_option maxRecDepth 16384

noncomputable section

namespace Cert.KernelIdeal.Value0

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, at their literal types: the aggregated features, the weights, the bias row. -/
abbrev aggA (c : Dev nD) : FVec Ideal S100000x64 .f32 := V c (Pipeline.arrRef spec0 0)
abbrev wA (c : Dev nD) : FVec Ideal S64x64 .f32 := V c (Pipeline.arrRef spec0 1)
abbrev bA (c : Dev nD) : FVec Ideal S1x64 .f32 := V c (Pipeline.arrRef spec0 2)
/-- The bias row as a vector. -/
def bias (c : Dev nD) : FVec Ideal S64 .f32 := fun j => bA V c (ix2 (0 : Fin 1) (j 0))

/-! ## The printed index maps, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## The input blocks as entries of the arrays -/

/-- The feature block at point `t` is rows 20000·t … of the aggregated features. -/
theorem xb_apply (c : Dev nD) (t : Fin cfg0.N) (r : Fin 20000) (k : Fin 64) (R : Fin 100000) (hR : R.val = 20000 * t.val + r.val) :
    (Region0.xb V c t : Vec Ideal S20000x64 .f32) (ix2 r k) = aggA V c (ix2 R k) := by
  show Region0.iblk V c 0 t (ix2 r k) = _
  unfold Region0.iblk
  rw [View.read_apply]
  show V c (Pipeline.arrRef spec0 0) _ = V c (Pipeline.arrRef spec0 0) _
  congr 1
  funext a
  apply Fin.ext
  match a with
  | ⟨0, _⟩ => show win0_0.index t (0 : Fin 2) * 20000 + 1 * r.val = R.val; rw [(idx0 t).1, hR]; omega
  | ⟨1, _⟩ => show win0_0.index t (1 : Fin 2) * 64 + 1 * k.val = k.val; rw [(idx0 t).2]; omega

/-- The weight block at every point is the whole weight matrix. -/
theorem wb_apply (c : Dev nD) (t : Fin cfg0.N) (k j : Fin 64) :
    (Region0.wb V c t : Vec Ideal S64x64 .f32) (ix2 k j) = wA V c (ix2 k j) := by
  show Region0.iblk V c 1 t (ix2 k j) = _
  unfold Region0.iblk
  rw [View.read_apply]
  show V c (Pipeline.arrRef spec0 1) _ = V c (Pipeline.arrRef spec0 1) _
  congr 1
  funext a
  apply Fin.ext
  match a with
  | ⟨0, _⟩ => show win0_1.index t (0 : Fin 2) * 64 + 1 * k.val = k.val; rw [(idx1 t).1]; omega
  | ⟨1, _⟩ => show win0_1.index t (1 : Fin 2) * 64 + 1 * j.val = j.val; rw [(idx1 t).2]; omega

/-- The bias block at every point is the whole bias row. -/
theorem bb_apply (c : Dev nD) (t : Fin cfg0.N) (j : Fin 64) :
    (Region0.bb V c t : Vec Ideal S1x64 .f32) (ix2 (0 : Fin 1) j) = bA V c (ix2 (0 : Fin 1) j) := by
  show Region0.iblk V c 2 t (ix2 (0 : Fin 1) j) = _
  unfold Region0.iblk
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; have h := (idx2 t).1; omega
  | ⟨1, _⟩ => show win0_2.index t (1 : Fin 2) * 64 + 1 * j.val = j.val; rw [(idx2 t).2]; omega

/-! ## The output block and the accumulator -/

/-- Entry (r, j) of the block point `t` stores is the convolution's entry at row 20000·t + r. -/
theorem hblk_apply (c : Dev nD) (t : Fin cfg0.N) (r : Fin 20000) (j : Fin 64) (R : Fin 100000) (hR : R.val = 20000 * t.val + r.val) :
    k0_pay2 (F := Ideal) (Region0.xb V c t) (Region0.wb V c t) (Region0.bb V c t) (ix2 r j)
      = Spec.hval (aggA V c) (wA V c) (bias V c) R j := by
  have e1 : (∑ k : Fin 64, (Region0.xb V c t : Vec Ideal S20000x64 .f32) (ix2 r k) * (Region0.wb V c t : Vec Ideal S64x64 .f32) (ix2 k j))
      = ∑ k : Fin 64, aggA V c (ix2 R k) * wA V c (ix2 k j) :=
    Finset.sum_congr rfl fun k _ => by rw [xb_apply V c t r k R hR, wb_apply V c t k j]
  rw [Pay0.pay2_apply, e1, bb_apply V c t j]
  rfl

/-- The row of block `t` at offset `q`, as a natural-number block index allows it. -/
theorem rowOf_val (t : Fin 5) (q : Fin 20000) : (Spec.rowOf t q).val = 20000 * t.val + q.val := rfl

/-- Column `j` of the accumulator after position `n`: the sum, over the blocks 0 … n, of the blocks' column sums. -/
theorem acc_apply (c : Dev nD) (j : Fin 64) : ∀ (n : ℕ) (hn : n < cfg0.N),
    (Region0.acc V c n hn : Vec Ideal S1x64 .f32) (ix2 (0 : Fin 1) j)
      = ∑ t ∈ Finset.range (n + 1), (if h : t < 5 then ∑ q : Fin 20000, Spec.hval (aggA V c) (wA V c) (bias V c) (Spec.rowOf ⟨t, h⟩ q) j else 0)
  | 0, hn => by
      rw [Finset.sum_range_succ, Finset.sum_range_zero, zero_add, dif_pos (by decide)]
      show k0_pay3 (F := Ideal) (Region0.xb V c ⟨0, hn⟩) (Region0.wb V c ⟨0, hn⟩) (Region0.bb V c ⟨0, hn⟩) (k0_pay1 (F := Ideal)) (ix2 (0 : Fin 1) j) = _
      rw [Pay0.pay3_apply, Pay0.pay1_apply, zero_add]
      exact Finset.sum_congr rfl fun q _ => hblk_apply V c ⟨0, hn⟩ q j _ (by rw [rowOf_val])
  | n + 1, hn => by
      have hN : cfg0.N = 5 := N_0
      rw [Finset.sum_range_succ, ← acc_apply c j n (Nat.lt_of_succ_lt hn), dif_pos (by omega)]
      show k0_pay3 (F := Ideal) (Region0.xb V c ⟨n + 1, hn⟩) (Region0.wb V c ⟨n + 1, hn⟩) (Region0.bb V c ⟨n + 1, hn⟩) (Region0.acc V c n (Nat.lt_of_succ_lt hn)) (ix2 (0 : Fin 1) j) = _
      rw [Pay0.pay3_apply]
      refine congrArg (_ + ·) ?_
      exact Finset.sum_congr rfl fun q _ => hblk_apply V c ⟨n + 1, hn⟩ q j _ (by rw [rowOf_val])

/-- After the last point the accumulator holds the column sums over all rows. -/
theorem acc_last (c : Dev nD) (j : Fin 64) (h4 : 4 < cfg0.N) :
    (Region0.acc V c 4 h4 : Vec Ideal S1x64 .f32) (ix2 (0 : Fin 1) j) = Spec.colsum (aggA V c) (wA V c) (bias V c) j := by
  rw [acc_apply V c j 4 h4]
  unfold Spec.colsum
  rw [Spec.sum_rows_blocks]
  show ∑ t ∈ Finset.range 5, _ = _
  rw [← Fin.sum_univ_eq_sum_range (fun t => if h : t < 5 then ∑ q : Fin 20000, Spec.hval (aggA V c) (wA V c) (bias V c) (Spec.rowOf ⟨t, h⟩ q) j else 0) 5]
  exact Finset.sum_congr rfl fun t _ => by
    show (if h : (t : ℕ) < 5 then ∑ q : Fin 20000, Spec.hval (aggA V c) (wA V c) (bias V c) (Spec.rowOf ⟨t, h⟩ q) j else 0) = _
    rw [dif_pos t.isLt]

/-! ## The first output: the convolution -/

/-- What point `t` writes back is block `t` of the convolution's output. -/
theorem flushed3_eq (c : Dev nD) (t : Fin cfg0.N) :
    (Region0.dat V c).flushed 3 t = ((cfg0.win 3).blk t).view.read (Elt Ideal) (Spec.Hs (aggA V c) (wA V c) (bias V c)) := by
  have hN : cfg0.N = 5 := N_0
  show (cfg0.win 3).cut (grid0.coords t) ((Region0.dat V c).after 3 t) = _
  rw [Region0.after_3]
  funext y
  obtain ⟨r, j, rfl⟩ : ∃ (r : Fin 20000) (j : Fin 64), y = ix2 r j := ⟨y 0, y 1, eq_ix2 y⟩
  rw [View.read_apply]
  show k0_pay2 (F := Ideal) (Region0.xb V c t) (Region0.wb V c t) (Region0.bb V c t) (ix2 r j)
    = Spec.Hs (aggA V c) (wA V c) (bias V c) (((cfg0.win 3).blk t).view.emb (ix2 r j))
  rw [hblk_apply V c t r j ⟨20000 * t.val + r.val, by have := t.isLt; have := r.isLt; omega⟩ rfl]
  unfold Spec.Hs
  congr 1 <;> apply Fin.ext
  · show 20000 * t.val + r.val = win0_3.index t (0 : Fin 2) * 20000 + 1 * r.val; rw [(idx3 t).1]; omega
  · show j.val = win0_3.index t (1 : Fin 2) * 64 + 1 * j.val; rw [(idx3 t).2]; omega

/-- An index of the output array is in point `t`'s block iff each coordinate is in the block's range on its axis. -/
theorem mem_blk3 (t : Fin cfg0.N) (i : S100000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v41_0).slice (win0_3.rect t)).set ↔ _
  rw [View.set_slice_whole, Rect.mem_set_unit]
  exact Iff.rfl

/-- The five blocks cover the array, so it ends holding the convolution's output. -/
theorem final3 (c : Dev nD) : (Region0.dat V c).arrAt 3 cfg0.N = Spec.Hs (aggA V c) (wA V c) (bias V c) :=
  (Region0.dat V c).arrAt_eq_of_cover 3 _ (fun t _ => flushed3_eq V c t) fun i => by
    have hN : cfg0.N = 5 := N_0
    have hi0 : (i 0).val < 100000 := (i 0).isLt
    have hi1 : (i 1).val < 64 := (i 1).isLt
    refine ⟨⟨(i 0).val / 20000, by omega⟩, flush0_3 _, ?_⟩
    rw [mem_blk3]
    intro a
    match a with
    | ⟨0, _⟩ =>
      show win0_3.index ⟨(i 0).val / 20000, _⟩ (0 : Fin 2) * 20000 ≤ (i 0).val ∧ (i 0).val < win0_3.index ⟨(i 0).val / 20000, _⟩ (0 : Fin 2) * 20000 + 20000
      rw [(idx3 _).1]; show (i 0).val / 20000 * 20000 ≤ (i 0).val ∧ (i 0).val < (i 0).val / 20000 * 20000 + 20000; omega
    | ⟨1, _⟩ =>
      show win0_3.index ⟨(i 0).val / 20000, _⟩ (1 : Fin 2) * 64 ≤ (i 1).val ∧ (i 1).val < win0_3.index ⟨(i 0).val / 20000, _⟩ (1 : Fin 2) * 64 + 64
      rw [(idx3 _).2]; omega

/-! ## The second output: the pooled summary -/

/-- The summary as the one-row array the region writes. -/
def csum (c : Dev nD) : FVec Ideal S1x64 .f32 := fun i => Spec.Cs (aggA V c) (wA V c) (bias V c) (ix1 (i 1))

set_option maxRecDepth 200000 in
/-- The one write-back, at the last point, writes the summary. -/
theorem flushed4_eq (c : Dev nD) (t : Fin cfg0.N) (hf : (cfg0.win 4).flush t = true) :
    (Region0.dat V c).flushed 4 t = ((cfg0.win 4).blk t).view.read (Elt Ideal) (csum V c) := by
  have hN : cfg0.N = 5 := N_0
  have h4 : t.val = 4 := by have := (flush0_4 t).mp hf; have := t.isLt; omega
  show (cfg0.win 4).cut (grid0.coords t) ((Region0.dat V c).after 4 t) = _
  rw [Region0.after_4]
  funext y
  obtain ⟨z, j, rfl⟩ : ∃ (z : Fin 1) (j : Fin 64), y = ix2 z j := ⟨y 0, y 1, eq_ix2 y⟩
  obtain rfl : z = 0 := Subsingleton.elim _ _
  rw [View.read_apply]
  show k0_pay4 (F := Ideal) (Region0.acc V c t.val t.isLt) (ix2 (0 : Fin 1) j) = csum V c (((cfg0.win 4).blk t).view.emb (ix2 (0 : Fin 1) j))
  have hacc : (Region0.acc V c t.val t.isLt : Vec Ideal S1x64 .f32) (ix2 (0 : Fin 1) j) = Spec.colsum (aggA V c) (wA V c) (bias V c) j := by
    obtain ⟨n, hn⟩ := t
    obtain rfl : n = 4 := h4
    exact acc_last V c j hn
  rw [Pay0.pay4_apply, hacc]
  have e : (((cfg0.win 4).blk t).view.emb (ix2 (0 : Fin 1) j)) 1 = j := by
    apply Fin.ext
    show win0_4.index t (1 : Fin 2) * 64 + 1 * j.val = j.val
    rw [(idx4 t).2]; omega
  show _ = Ideal.logistic (Spec.colsum (aggA V c) (wA V c) (bias V c) ((((cfg0.win 4).blk t).view.emb (ix2 (0 : Fin 1) j)) 1)
    * ((1 / 100000 : ℝ) : EReal))
  rw [e]

theorem mem_blk4 (t : Fin cfg0.N) (i : S1x64.Idx) :
    i ∈ ((cfg0.win 4).blk t).view.set ↔ ∀ a : Fin 2, win0_4.index t a * S1x64.size a ≤ (i a).val ∧ (i a).val < win0_4.index t a * S1x64.size a + S1x64.size a := by
  show i ∈ ((View.whole main_v41_1).slice (win0_4.rect t)).set ↔ _
  rw [View.set_slice_whole, Rect.mem_set_unit]
  exact Iff.rfl

/-- The last point's block is the whole array, so it ends holding the summary. -/
theorem final4 (c : Dev nD) : (Region0.dat V c).arrAt 4 cfg0.N = csum V c :=
  (Region0.dat V c).arrAt_eq_of_cover 4 _ (flushed4_eq V c) fun i => by
    have hi0 : (i 0).val < 1 := (i 0).isLt
    have hi1 : (i 1).val < 64 := (i 1).isLt
    refine ⟨t0_4, (flush0_4 t0_4).mpr rfl, ?_⟩
    rw [mem_blk4]
    intro a
    match a with
    | ⟨0, _⟩ =>
      show win0_4.index t0_4 (0 : Fin 2) * 1 ≤ (i 0).val ∧ (i 0).val < win0_4.index t0_4 (0 : Fin 2) * 1 + 1
      rw [(idx4 t0_4).1]; omega
    | ⟨1, _⟩ =>
      show win0_4.index t0_4 (1 : Fin 2) * 64 ≤ (i 1).val ∧ (i 1).val < win0_4.index t0_4 (1 : Fin 2) * 64 + 64
      rw [(idx4 t0_4).2]; omega

end Cert.KernelIdeal.Value0

end
-- ==== Proof.PayKI1.lean ====
/-
  The four payloads of the first launch's kernel body, each read at one index over the extended reals.
  At a column `j` of the one-row block: the reset payload is `0`; the row block's payload at `(r, j)` is the
  row `r` of the operand times the column `j` of the weights, plus the bias at `j` (the narrowing format changes
  are the identity on extended reals and the product accumulates into a zero splat); the running sum's payload is
  the carried sum at `j` plus the sum over the block's rows of that; and the closing payload is the logistic of
  the carried sum at `j` times the named reciprocal `1 / 100000`.
-/
import proofs.«101884_j77610059038802_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay1

open Cert.KernelIdeal Cert.KernelIdeal.Gen Idealize.ShloMosaic Idealize.ShloMosaic.ValueIdx

/-! ## The reset payload: a zero splat -/

/-- The zero splat, cast to its own shape, reads `0` at every column. -/
theorem pay1_apply (j : Fin 64) : k1_pay1 (F := Ideal) (ix2 (0 : Fin 1) j) = 0 := by
  unfold k1_pay1
  refine (congrFun (shapeCast_self _ shapeCasts_S1x64_S1x64) (ix2 (0 : Fin 1) j)).trans ?_
  exact Ideal.ofBits_zero_f32

/-! ## The product's operand indices, axis by axis

The product contracts the left operand's axis 1 with the right operand's axis 0; there is no batch axis. So at the
result index `i` and contraction position `q` the left operand is read at `(i 0, q)` and the right one at `(q, i 1)`. -/

theorem lhs_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl

theorem lhs_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q

theorem rhs_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q

theorem rhs_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- The product into a zero accumulator, read at `(r, j)`: the sum over `k` of the left operand at `(r, k)` times
    the right operand at `(k, j)`. The contraction index has one axis of extent 64; the sum is re-indexed through
    its one coordinate. -/
theorem matmul_zero_apply (a : FVec Ideal S20000x64 .bf16) (b : FVec Ideal S64x64 .bf16) (r : Fin 20000) (j : Fin 64) :
    matmul dot_S20000x64_S64x64_S20000x64_1_0_0_1_n_n none a b (constant (F := Ideal) S20000x64 .f32 0x00000000#32) (ix2 r j)
      = ∑ k : Fin 64, a (ix2 r k) * b (ix2 k j) := by
  refine (Ideal.matmul_constant_zero_apply dot_S20000x64_S64x64_S20000x64_1_0_0_1_n_n none a b (ix2 r j)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 r j) ((contrEquiv1 dot_S20000x64_S64x64_S20000x64_1_0_0_1_n_n 64 rfl rfl).symm k) = ix2 r k := funext fun c => Fin.ext (by
    match c with
    | ⟨0, _⟩ => exact lhs_0 _ _
    | ⟨1, _⟩ => exact (lhs_1 _ _).trans hk)
  have er : dot_S20000x64_S64x64_S20000x64_1_0_0_1_n_n.rhsIdx (ix2 r j) ((contrEquiv1 dot_S20000x64_S64x64_S20000x64_1_0_0_1_n_n 64 rfl rfl).symm k) = ix2 k j := funext fun c => Fin.ext (by
    match c with
    | ⟨0, _⟩ => exact (rhs_0 _ _).trans hk
    | ⟨1, _⟩ => exact rhs_1 _ _)
  rw [el, er]

/-! ## The row block's payload: product plus bias -/

/-- At `(r, j)`: the sum over `k` of `x (r, k) * w (k, j)`, plus the bias row at `j`. -/
theorem pay2_apply (x : Vec Ideal S20000x64 .f32) (w : Vec Ideal S64x64 .f32) (b2 : Vec Ideal S1x64 .f32)
    (r : Fin 20000) (j : Fin 64) :
    k1_pay2 (F := Ideal) x w b2 (ix2 r j)
      = (∑ k : Fin 64, x (ix2 r k) * w (ix2 k j)) + b2 (ix2 (0 : Fin 1) j) := by
  unfold k1_pay2
  refine (addf_apply _ _ (ix2 r j)).trans ?_
  refine congrArg₂ (fun p q : EReal => p + q) ?_ ?_
  · refine (matmul_zero_apply _ _ r j).trans ?_
    refine Finset.sum_congr rfl fun k _ => ?_
    exact congrArg (· * w (ix2 k j)) (congrFun (shapeCast_self x shapeCasts_S20000x64_S20000x64) (ix2 r k))
  · refine (broadcastTo_1b_ab_apply _ broadcasts_S1x64_S20000x64 r j).trans ?_
    exact congrFun (shapeCast_self b2 shapeCasts_S1x64_S1x64) (ix2 (0 : Fin 1) j)

/-! ## The running sum's payload: the carried sum plus the block's column sums -/

/-- The sum over the rows of a `[20000, 64]` block, from the neutral accumulator, read at column `j`: the sum over
    `r` of the block at `(r, j)`. (The accumulator's hypothesis is typed as the two equal words it compares.) -/
theorem lane_sum (y : FVec Ideal S20000x64 .f32) (hφ : FKind.Formats .f32)
    (hacc : (0x00000000#32 : BitVec 32) = 0x00000000#32) (j : Fin 64) :
    multiReduction (F := Ideal) .add [0] S64 y 0x00000000#32 reduces_S20000x64_S64 hφ hacc (ix1 j)
      = ∑ r : Fin 20000, y (ix2 r j) := by
  refine (Ideal.multiReduction_add_single y 0x00000000#32 reduces_S20000x64_S64 hφ hacc (ix1 j)).trans ?_
  refine Finset.sum_congr rfl fun k _ => ?_
  exact congrArg y (funext fun c => Fin.ext (by match c with | ⟨0, _⟩ => rfl | ⟨1, _⟩ => rfl))

/-- At column `j`: the carried sum at `j` plus the sum over the block's rows `r` of the row block's payload at
    `(r, j)`. -/
theorem pay3_apply (x : Vec Ideal S20000x64 .f32) (w : Vec Ideal S64x64 .f32) (b2 : Vec Ideal S1x64 .f32)
    (s : Vec Ideal S1x64 .f32) (j : Fin 64) :
    k1_pay3 (F := Ideal) x w b2 s (ix2 (0 : Fin 1) j)
      = s (ix2 (0 : Fin 1) j) + ∑ r : Fin 20000, k1_pay2 (F := Ideal) x w b2 (ix2 r j) := by
  unfold k1_pay3
  generalize k1_pay2 (F := Ideal) x w b2 = y
  refine (congrFun (shapeCast_self _ shapeCasts_S1x64_S1x64) (ix2 (0 : Fin 1) j)).trans ?_
  refine (addf_apply _ _ (ix2 (0 : Fin 1) j)).trans ?_
  refine congrArg (_ + ·) ?_
  refine (shapeCast_a_1a_apply _ shapeCasts_S64_S1x64 (0 : Fin 1) j).trans ?_
  exact lane_sum y (.inl rfl) rfl j

/-! ## The closing payload: the logistic of the mean -/

/-- The named reciprocal denotes the rational `1 / 100000` at the extended reals, by the certificate's table. -/
theorem inv_100000 :
    Named.named (F := Ideal) κ "inv_100000" (φ := .f32) 0x3727C5AC#32 = ((1 / 100000 : ℝ) : EReal) :=
  IdealRules.named_const.ideal_named_scalar _ _ _ _ rfl

/-- At column `j`: the logistic of the carried sum at `j` times `1 / 100000`. -/
theorem pay4_apply (s : Vec Ideal S1x64 .f32) (j : Fin 64) :
    k1_pay4 (F := Ideal) s (ix2 (0 : Fin 1) j)
      = Ideal.logistic (s (ix2 (0 : Fin 1) j) * ((1 / 100000 : ℝ) : EReal)) := by
  unfold k1_pay4
  exact congrArg (fun c : EReal => Ideal.logistic (s (ix2 (0 : Fin 1) j) * c)) inv_100000

end Cert.KernelIdeal.Pay1

end
-- ==== Proof.KIValue1.lean ====
/-
  What this pallas_call leaves in its two output arrays, as functions of the arrays it reads at the region's entry
  (extended reals). Point t writes rows 20000·t … 20000·t + 19999 of the first output: entry (r, j) is
  Σ_k agg r k · W k j + b j, so after the five points the array is the whole product plus the bias. The scratch
  accumulator after point t holds, in column j, the sum over the blocks 0 … t of the blocks' column sums; after the last
  point that is the sum over all 100000 rows, and the last point writes the logistic function of it times 1/100000 into
  the second output, whose one block is the whole array.
-/
import proofs.«101884_j77610059038802_1_alg».proof.Proof.KIRegion1
import proofs.«101884_j77610059038802_1_alg».proof.Proof.PayKI1
import proofs.«101884_j77610059038802_1_alg».proof.Proof.Spec
import Idealize.ShloMosaic.Lib.Pipeline.Value
import Idealize.ShloMosaic.Lib.ValueIdx

set_option maxRecDepth 16384

noncomputable section

namespace Cert.KernelIdeal.Value1

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, at their literal types: the aggregated features, the weights, the bias row. -/
abbrev aggA (c : Dev nD) : FVec Ideal S100000x64 .f32 := V c (Pipeline.arrRef spec1 0)
abbrev wA (c : Dev nD) : FVec Ideal S64x64 .f32 := V c (Pipeline.arrRef spec1 1)
abbrev bA (c : Dev nD) : FVec Ideal S1x64 .f32 := V c (Pipeline.arrRef spec1 2)
/-- The bias row as a vector. -/
def bias (c : Dev nD) : FVec Ideal S64 .f32 := fun j => bA V c (ix2 (0 : Fin 1) (j 0))

/-! ## The printed index maps, decided over the grid -/

theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-! ## The input blocks as entries of the arrays -/

/-- The feature block at point `t` is rows 20000·t … of the aggregated features. -/
theorem xb_apply (c : Dev nD) (t : Fin cfg1.N) (r : Fin 20000) (k : Fin 64) (R : Fin 100000) (hR : R.val = 20000 * t.val + r.val) :
    (Region1.xb V c t : Vec Ideal S20000x64 .f32) (ix2 r k) = aggA V c (ix2 R k) := by
  show Region1.iblk V c 0 t (ix2 r k) = _
  unfold Region1.iblk
  rw [View.read_apply]
  show V c (Pipeline.arrRef spec1 0) _ = V c (Pipeline.arrRef spec1 0) _
  congr 1
  funext a
  apply Fin.ext
  match a with
  | ⟨0, _⟩ => show win1_0.index t (0 : Fin 2) * 20000 + 1 * r.val = R.val; rw [(idx0 t).1, hR]; omega
  | ⟨1, _⟩ => show win1_0.index t (1 : Fin 2) * 64 + 1 * k.val = k.val; rw [(idx0 t).2]; omega

/-- The weight block at every point is the whole weight matrix. -/
theorem wb_apply (c : Dev nD) (t : Fin cfg1.N) (k j : Fin 64) :
    (Region1.wb V c t : Vec Ideal S64x64 .f32) (ix2 k j) = wA V c (ix2 k j) := by
  show Region1.iblk V c 1 t (ix2 k j) = _
  unfold Region1.iblk
  rw [View.read_apply]
  show V c (Pipeline.arrRef spec1 1) _ = V c (Pipeline.arrRef spec1 1) _
  congr 1
  funext a
  apply Fin.ext
  match a with
  | ⟨0, _⟩ => show win1_1.index t (0 : Fin 2) * 64 + 1 * k.val = k.val; rw [(idx1 t).1]; omega
  | ⟨1, _⟩ => show win1_1.index t (1 : Fin 2) * 64 + 1 * j.val = j.val; rw [(idx1 t).2]; omega

/-- The bias block at every point is the whole bias row. -/
theorem bb_apply (c : Dev nD) (t : Fin cfg1.N) (j : Fin 64) :
    (Region1.bb V c t : Vec Ideal S1x64 .f32) (ix2 (0 : Fin 1) j) = bA V c (ix2 (0 : Fin 1) j) := by
  show Region1.iblk V c 2 t (ix2 (0 : Fin 1) j) = _
  unfold Region1.iblk
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; have h := (idx2 t).1; omega
  | ⟨1, _⟩ => show win1_2.index t (1 : Fin 2) * 64 + 1 * j.val = j.val; rw [(idx2 t).2]; omega

/-! ## The output block and the accumulator -/

/-- Entry (r, j) of the block point `t` stores is the convolution's entry at row 20000·t + r. -/
theorem hblk_apply (c : Dev nD) (t : Fin cfg1.N) (r : Fin 20000) (j : Fin 64) (R : Fin 100000) (hR : R.val = 20000 * t.val + r.val) :
    k1_pay2 (F := Ideal) (Region1.xb V c t) (Region1.wb V c t) (Region1.bb V c t) (ix2 r j)
      = Spec.hval (aggA V c) (wA V c) (bias V c) R j := by
  have e1 : (∑ k : Fin 64, (Region1.xb V c t : Vec Ideal S20000x64 .f32) (ix2 r k) * (Region1.wb V c t : Vec Ideal S64x64 .f32) (ix2 k j))
      = ∑ k : Fin 64, aggA V c (ix2 R k) * wA V c (ix2 k j) :=
    Finset.sum_congr rfl fun k _ => by rw [xb_apply V c t r k R hR, wb_apply V c t k j]
  rw [Pay1.pay2_apply, e1, bb_apply V c t j]
  rfl

/-- The row of block `t` at offset `q`, as a natural-number block index allows it. -/
theorem rowOf_val (t : Fin 5) (q : Fin 20000) : (Spec.rowOf t q).val = 20000 * t.val + q.val := rfl

/-- Column `j` of the accumulator after position `n`: the sum, over the blocks 0 … n, of the blocks' column sums. -/
theorem acc_apply (c : Dev nD) (j : Fin 64) : ∀ (n : ℕ) (hn : n < cfg1.N),
    (Region1.acc V c n hn : Vec Ideal S1x64 .f32) (ix2 (0 : Fin 1) j)
      = ∑ t ∈ Finset.range (n + 1), (if h : t < 5 then ∑ q : Fin 20000, Spec.hval (aggA V c) (wA V c) (bias V c) (Spec.rowOf ⟨t, h⟩ q) j else 0)
  | 0, hn => by
      rw [Finset.sum_range_succ, Finset.sum_range_zero, zero_add, dif_pos (by decide)]
      show k1_pay3 (F := Ideal) (Region1.xb V c ⟨0, hn⟩) (Region1.wb V c ⟨0, hn⟩) (Region1.bb V c ⟨0, hn⟩) (k1_pay1 (F := Ideal)) (ix2 (0 : Fin 1) j) = _
      rw [Pay1.pay3_apply, Pay1.pay1_apply, zero_add]
      exact Finset.sum_congr rfl fun q _ => hblk_apply V c ⟨0, hn⟩ q j _ (by rw [rowOf_val])
  | n + 1, hn => by
      have hN : cfg1.N = 5 := N_1
      rw [Finset.sum_range_succ, ← acc_apply c j n (Nat.lt_of_succ_lt hn), dif_pos (by omega)]
      show k1_pay3 (F := Ideal) (Region1.xb V c ⟨n + 1, hn⟩) (Region1.wb V c ⟨n + 1, hn⟩) (Region1.bb V c ⟨n + 1, hn⟩) (Region1.acc V c n (Nat.lt_of_succ_lt hn)) (ix2 (0 : Fin 1) j) = _
      rw [Pay1.pay3_apply]
      refine congrArg (_ + ·) ?_
      exact Finset.sum_congr rfl fun q _ => hblk_apply V c ⟨n + 1, hn⟩ q j _ (by rw [rowOf_val])

/-- After the last point the accumulator holds the column sums over all rows. -/
theorem acc_last (c : Dev nD) (j : Fin 64) (h4 : 4 < cfg1.N) :
    (Region1.acc V c 4 h4 : Vec Ideal S1x64 .f32) (ix2 (0 : Fin 1) j) = Spec.colsum (aggA V c) (wA V c) (bias V c) j := by
  rw [acc_apply V c j 4 h4]
  unfold Spec.colsum
  rw [Spec.sum_rows_blocks]
  show ∑ t ∈ Finset.range 5, _ = _
  rw [← Fin.sum_univ_eq_sum_range (fun t => if h : t < 5 then ∑ q : Fin 20000, Spec.hval (aggA V c) (wA V c) (bias V c) (Spec.rowOf ⟨t, h⟩ q) j else 0) 5]
  exact Finset.sum_congr rfl fun t _ => by
    show (if h : (t : ℕ) < 5 then ∑ q : Fin 20000, Spec.hval (aggA V c) (wA V c) (bias V c) (Spec.rowOf ⟨t, h⟩ q) j else 0) = _
    rw [dif_pos t.isLt]

/-! ## The first output: the convolution -/

/-- What point `t` writes back is block `t` of the convolution's output. -/
theorem flushed3_eq (c : Dev nD) (t : Fin cfg1.N) :
    (Region1.dat V c).flushed 3 t = ((cfg1.win 3).blk t).view.read (Elt Ideal) (Spec.Hs (aggA V c) (wA V c) (bias V c)) := by
  have hN : cfg1.N = 5 := N_1
  show (cfg1.win 3).cut (grid1.coords t) ((Region1.dat V c).after 3 t) = _
  rw [Region1.after_3]
  funext y
  obtain ⟨r, j, rfl⟩ : ∃ (r : Fin 20000) (j : Fin 64), y = ix2 r j := ⟨y 0, y 1, eq_ix2 y⟩
  rw [View.read_apply]
  show k1_pay2 (F := Ideal) (Region1.xb V c t) (Region1.wb V c t) (Region1.bb V c t) (ix2 r j)
    = Spec.Hs (aggA V c) (wA V c) (bias V c) (((cfg1.win 3).blk t).view.emb (ix2 r j))
  rw [hblk_apply V c t r j ⟨20000 * t.val + r.val, by have := t.isLt; have := r.isLt; omega⟩ rfl]
  unfold Spec.Hs
  congr 1 <;> apply Fin.ext
  · show 20000 * t.val + r.val = win1_3.index t (0 : Fin 2) * 20000 + 1 * r.val; rw [(idx3 t).1]; omega
  · show j.val = win1_3.index t (1 : Fin 2) * 64 + 1 * j.val; rw [(idx3 t).2]; omega

/-- An index of the output array is in point `t`'s block iff each coordinate is in the block's range on its axis. -/
theorem mem_blk3 (t : Fin cfg1.N) (i : S100000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v44_0).slice (win1_3.rect t)).set ↔ _
  rw [View.set_slice_whole, Rect.mem_set_unit]
  exact Iff.rfl

/-- The five blocks cover the array, so it ends holding the convolution's output. -/
theorem final3 (c : Dev nD) : (Region1.dat V c).arrAt 3 cfg1.N = Spec.Hs (aggA V c) (wA V c) (bias V c) :=
  (Region1.dat V c).arrAt_eq_of_cover 3 _ (fun t _ => flushed3_eq V c t) fun i => by
    have hN : cfg1.N = 5 := N_1
    have hi0 : (i 0).val < 100000 := (i 0).isLt
    have hi1 : (i 1).val < 64 := (i 1).isLt
    refine ⟨⟨(i 0).val / 20000, by omega⟩, flush1_3 _, ?_⟩
    rw [mem_blk3]
    intro a
    match a with
    | ⟨0, _⟩ =>
      show win1_3.index ⟨(i 0).val / 20000, _⟩ (0 : Fin 2) * 20000 ≤ (i 0).val ∧ (i 0).val < win1_3.index ⟨(i 0).val / 20000, _⟩ (0 : Fin 2) * 20000 + 20000
      rw [(idx3 _).1]; show (i 0).val / 20000 * 20000 ≤ (i 0).val ∧ (i 0).val < (i 0).val / 20000 * 20000 + 20000; omega
    | ⟨1, _⟩ =>
      show win1_3.index ⟨(i 0).val / 20000, _⟩ (1 : Fin 2) * 64 ≤ (i 1).val ∧ (i 1).val < win1_3.index ⟨(i 0).val / 20000, _⟩ (1 : Fin 2) * 64 + 64
      rw [(idx3 _).2]; omega

/-! ## The second output: the pooled summary -/

/-- The summary as the one-row array the region writes. -/
def csum (c : Dev nD) : FVec Ideal S1x64 .f32 := fun i => Spec.Cs (aggA V c) (wA V c) (bias V c) (ix1 (i 1))

set_option maxRecDepth 200000 in
/-- The one write-back, at the last point, writes the summary. -/
theorem flushed4_eq (c : Dev nD) (t : Fin cfg1.N) (hf : (cfg1.win 4).flush t = true) :
    (Region1.dat V c).flushed 4 t = ((cfg1.win 4).blk t).view.read (Elt Ideal) (csum V c) := by
  have hN : cfg1.N = 5 := N_1
  have h4 : t.val = 4 := by have := (flush1_4 t).mp hf; have := t.isLt; omega
  show (cfg1.win 4).cut (grid1.coords t) ((Region1.dat V c).after 4 t) = _
  rw [Region1.after_4]
  funext y
  obtain ⟨z, j, rfl⟩ : ∃ (z : Fin 1) (j : Fin 64), y = ix2 z j := ⟨y 0, y 1, eq_ix2 y⟩
  obtain rfl : z = 0 := Subsingleton.elim _ _
  rw [View.read_apply]
  show k1_pay4 (F := Ideal) (Region1.acc V c t.val t.isLt) (ix2 (0 : Fin 1) j) = csum V c (((cfg1.win 4).blk t).view.emb (ix2 (0 : Fin 1) j))
  have hacc : (Region1.acc V c t.val t.isLt : Vec Ideal S1x64 .f32) (ix2 (0 : Fin 1) j) = Spec.colsum (aggA V c) (wA V c) (bias V c) j := by
    obtain ⟨n, hn⟩ := t
    obtain rfl : n = 4 := h4
    exact acc_last V c j hn
  rw [Pay1.pay4_apply, hacc]
  have e : (((cfg1.win 4).blk t).view.emb (ix2 (0 : Fin 1) j)) 1 = j := by
    apply Fin.ext
    show win1_4.index t (1 : Fin 2) * 64 + 1 * j.val = j.val
    rw [(idx4 t).2]; omega
  show _ = Ideal.logistic (Spec.colsum (aggA V c) (wA V c) (bias V c) ((((cfg1.win 4).blk t).view.emb (ix2 (0 : Fin 1) j)) 1)
    * ((1 / 100000 : ℝ) : EReal))
  rw [e]

theorem mem_blk4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v44_1).slice (win1_4.rect t)).set ↔ _
  rw [View.set_slice_whole, Rect.mem_set_unit]
  exact Iff.rfl

/-- The last point's block is the whole array, so it ends holding the summary. -/
theorem final4 (c : Dev nD) : (Region1.dat V c).arrAt 4 cfg1.N = csum V c :=
  (Region1.dat V c).arrAt_eq_of_cover 4 _ (flushed4_eq V c) fun i => by
    have hi0 : (i 0).val < 1 := (i 0).isLt
    have hi1 : (i 1).val < 64 := (i 1).isLt
    refine ⟨t1_4, (flush1_4 t1_4).mpr rfl, ?_⟩
    rw [mem_blk4]
    intro a
    match a with
    | ⟨0, _⟩ =>
      show win1_4.index t1_4 (0 : Fin 2) * 1 ≤ (i 0).val ∧ (i 0).val < win1_4.index t1_4 (0 : Fin 2) * 1 + 1
      rw [(idx4 t1_4).1]; omega
    | ⟨1, _⟩ =>
      show win1_4.index t1_4 (1 : Fin 2) * 64 ≤ (i 1).val ∧ (i 1).val < win1_4.index t1_4 (1 : Fin 2) * 64 + 64
      rw [(idx4 t1_4).2]; omega

end Cert.KernelIdeal.Value1

end
-- ==== Proof.PayKI2.lean ====
/-
  The four payloads of the first launch's kernel body, each read at one index over the extended reals.
  At a column `j` of the one-row block: the reset payload is `0`; the row block's payload at `(r, j)` is the
  row `r` of the operand times the column `j` of the weights, plus the bias at `j` (the narrowing format changes
  are the identity on extended reals and the product accumulates into a zero splat); the running sum's payload is
  the carried sum at `j` plus the sum over the block's rows of that; and the closing payload is the logistic of
  the carried sum at `j` times the named reciprocal `1 / 100000`.
-/
import proofs.«101884_j77610059038802_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay2

open Cert.KernelIdeal Cert.KernelIdeal.Gen Idealize.ShloMosaic Idealize.ShloMosaic.ValueIdx

/-! ## The reset payload: a zero splat -/

/-- The zero splat, cast to its own shape, reads `0` at every column. -/
theorem pay1_apply (j : Fin 64) : k2_pay1 (F := Ideal) (ix2 (0 : Fin 1) j) = 0 := by
  unfold k2_pay1
  refine (congrFun (shapeCast_self _ shapeCasts_S1x64_S1x64) (ix2 (0 : Fin 1) j)).trans ?_
  exact Ideal.ofBits_zero_f32

/-! ## The product's operand indices, axis by axis

The product contracts the left operand's axis 1 with the right operand's axis 0; there is no batch axis. So at the
result index `i` and contraction position `q` the left operand is read at `(i 0, q)` and the right one at `(q, i 1)`. -/

theorem lhs_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl

theorem lhs_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q

theorem rhs_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q

theorem rhs_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- The product into a zero accumulator, read at `(r, j)`: the sum over `k` of the left operand at `(r, k)` times
    the right operand at `(k, j)`. The contraction index has one axis of extent 64; the sum is re-indexed through
    its one coordinate. -/
theorem matmul_zero_apply (a : FVec Ideal S20000x64 .bf16) (b : FVec Ideal S64x64 .bf16) (r : Fin 20000) (j : Fin 64) :
    matmul dot_S20000x64_S64x64_S20000x64_1_0_0_1_n_n none a b (constant (F := Ideal) S20000x64 .f32 0x00000000#32) (ix2 r j)
      = ∑ k : Fin 64, a (ix2 r k) * b (ix2 k j) := by
  refine (Ideal.matmul_constant_zero_apply dot_S20000x64_S64x64_S20000x64_1_0_0_1_n_n none a b (ix2 r j)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 r j) ((contrEquiv1 dot_S20000x64_S64x64_S20000x64_1_0_0_1_n_n 64 rfl rfl).symm k) = ix2 r k := funext fun c => Fin.ext (by
    match c with
    | ⟨0, _⟩ => exact lhs_0 _ _
    | ⟨1, _⟩ => exact (lhs_1 _ _).trans hk)
  have er : dot_S20000x64_S64x64_S20000x64_1_0_0_1_n_n.rhsIdx (ix2 r j) ((contrEquiv1 dot_S20000x64_S64x64_S20000x64_1_0_0_1_n_n 64 rfl rfl).symm k) = ix2 k j := funext fun c => Fin.ext (by
    match c with
    | ⟨0, _⟩ => exact (rhs_0 _ _).trans hk
    | ⟨1, _⟩ => exact rhs_1 _ _)
  rw [el, er]

/-! ## The row block's payload: product plus bias -/

/-- At `(r, j)`: the sum over `k` of `x (r, k) * w (k, j)`, plus the bias row at `j`. -/
theorem pay2_apply (x : Vec Ideal S20000x64 .f32) (w : Vec Ideal S64x64 .f32) (b2 : Vec Ideal S1x64 .f32)
    (r : Fin 20000) (j : Fin 64) :
    k2_pay2 (F := Ideal) x w b2 (ix2 r j)
      = (∑ k : Fin 64, x (ix2 r k) * w (ix2 k j)) + b2 (ix2 (0 : Fin 1) j) := by
  unfold k2_pay2
  refine (addf_apply _ _ (ix2 r j)).trans ?_
  refine congrArg₂ (fun p q : EReal => p + q) ?_ ?_
  · refine (matmul_zero_apply _ _ r j).trans ?_
    refine Finset.sum_congr rfl fun k _ => ?_
    exact congrArg (· * w (ix2 k j)) (congrFun (shapeCast_self x shapeCasts_S20000x64_S20000x64) (ix2 r k))
  · refine (broadcastTo_1b_ab_apply _ broadcasts_S1x64_S20000x64 r j).trans ?_
    exact congrFun (shapeCast_self b2 shapeCasts_S1x64_S1x64) (ix2 (0 : Fin 1) j)

/-! ## The running sum's payload: the carried sum plus the block's column sums -/

/-- The sum over the rows of a `[20000, 64]` block, from the neutral accumulator, read at column `j`: the sum over
    `r` of the block at `(r, j)`. (The accumulator's hypothesis is typed as the two equal words it compares.) -/
theorem lane_sum (y : FVec Ideal S20000x64 .f32) (hφ : FKind.Formats .f32)
    (hacc : (0x00000000#32 : BitVec 32) = 0x00000000#32) (j : Fin 64) :
    multiReduction (F := Ideal) .add [0] S64 y 0x00000000#32 reduces_S20000x64_S64 hφ hacc (ix1 j)
      = ∑ r : Fin 20000, y (ix2 r j) := by
  refine (Ideal.multiReduction_add_single y 0x00000000#32 reduces_S20000x64_S64 hφ hacc (ix1 j)).trans ?_
  refine Finset.sum_congr rfl fun k _ => ?_
  exact congrArg y (funext fun c => Fin.ext (by match c with | ⟨0, _⟩ => rfl | ⟨1, _⟩ => rfl))

/-- At column `j`: the carried sum at `j` plus the sum over the block's rows `r` of the row block's payload at
    `(r, j)`. -/
theorem pay3_apply (x : Vec Ideal S20000x64 .f32) (w : Vec Ideal S64x64 .f32) (b2 : Vec Ideal S1x64 .f32)
    (s : Vec Ideal S1x64 .f32) (j : Fin 64) :
    k2_pay3 (F := Ideal) x w b2 s (ix2 (0 : Fin 1) j)
      = s (ix2 (0 : Fin 1) j) + ∑ r : Fin 20000, k2_pay2 (F := Ideal) x w b2 (ix2 r j) := by
  unfold k2_pay3
  generalize k2_pay2 (F := Ideal) x w b2 = y
  refine (congrFun (shapeCast_self _ shapeCasts_S1x64_S1x64) (ix2 (0 : Fin 1) j)).trans ?_
  refine (addf_apply _ _ (ix2 (0 : Fin 1) j)).trans ?_
  refine congrArg (_ + ·) ?_
  refine (shapeCast_a_1a_apply _ shapeCasts_S64_S1x64 (0 : Fin 1) j).trans ?_
  exact lane_sum y (.inl rfl) rfl j

/-! ## The closing payload: the logistic of the mean -/

/-- The named reciprocal denotes the rational `1 / 100000` at the extended reals, by the certificate's table. -/
theorem inv_100000 :
    Named.named (F := Ideal) κ "inv_100000" (φ := .f32) 0x3727C5AC#32 = ((1 / 100000 : ℝ) : EReal) :=
  IdealRules.named_const.ideal_named_scalar _ _ _ _ rfl

/-- At column `j`: the logistic of the carried sum at `j` times `1 / 100000`. -/
theorem pay4_apply (s : Vec Ideal S1x64 .f32) (j : Fin 64) :
    k2_pay4 (F := Ideal) s (ix2 (0 : Fin 1) j)
      = Ideal.logistic (s (ix2 (0 : Fin 1) j) * ((1 / 100000 : ℝ) : EReal)) := by
  unfold k2_pay4
  exact congrArg (fun c : EReal => Ideal.logistic (s (ix2 (0 : Fin 1) j) * c)) inv_100000

end Cert.KernelIdeal.Pay2

end
-- ==== Proof.KIValue2.lean ====
/-
  What this pallas_call leaves in its two output arrays, as functions of the arrays it reads at the region's entry
  (extended reals). Point t writes rows 20000·t … 20000·t + 19999 of the first output: entry (r, j) is
  Σ_k agg r k · W k j + b j, so after the five points the array is the whole product plus the bias. The scratch
  accumulator after point t holds, in column j, the sum over the blocks 0 … t of the blocks' column sums; after the last
  point that is the sum over all 100000 rows, and the last point writes the logistic function of it times 1/100000 into
  the second output, whose one block is the whole array.
-/
import proofs.«101884_j77610059038802_1_alg».proof.Proof.KIRegion2
import proofs.«101884_j77610059038802_1_alg».proof.Proof.PayKI2
import proofs.«101884_j77610059038802_1_alg».proof.Proof.Spec
import Idealize.ShloMosaic.Lib.Pipeline.Value
import Idealize.ShloMosaic.Lib.ValueIdx

set_option maxRecDepth 16384

noncomputable section

namespace Cert.KernelIdeal.Value2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, at their literal types: the aggregated features, the weights, the bias row. -/
abbrev aggA (c : Dev nD) : FVec Ideal S100000x64 .f32 := V c (Pipeline.arrRef spec2 0)
abbrev wA (c : Dev nD) : FVec Ideal S64x64 .f32 := V c (Pipeline.arrRef spec2 1)
abbrev bA (c : Dev nD) : FVec Ideal S1x64 .f32 := V c (Pipeline.arrRef spec2 2)
/-- The bias row as a vector. -/
def bias (c : Dev nD) : FVec Ideal S64 .f32 := fun j => bA V c (ix2 (0 : Fin 1) (j 0))

/-! ## The printed index maps, decided over the grid -/

theorem idx0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)

/-! ## The input blocks as entries of the arrays -/

/-- The feature block at point `t` is rows 20000·t … of the aggregated features. -/
theorem xb_apply (c : Dev nD) (t : Fin cfg2.N) (r : Fin 20000) (k : Fin 64) (R : Fin 100000) (hR : R.val = 20000 * t.val + r.val) :
    (Region2.xb V c t : Vec Ideal S20000x64 .f32) (ix2 r k) = aggA V c (ix2 R k) := by
  show Region2.iblk V c 0 t (ix2 r k) = _
  unfold Region2.iblk
  rw [View.read_apply]
  show V c (Pipeline.arrRef spec2 0) _ = V c (Pipeline.arrRef spec2 0) _
  congr 1
  funext a
  apply Fin.ext
  match a with
  | ⟨0, _⟩ => show win2_0.index t (0 : Fin 2) * 20000 + 1 * r.val = R.val; rw [(idx0 t).1, hR]; omega
  | ⟨1, _⟩ => show win2_0.index t (1 : Fin 2) * 64 + 1 * k.val = k.val; rw [(idx0 t).2]; omega

/-- The weight block at every point is the whole weight matrix. -/
theorem wb_apply (c : Dev nD) (t : Fin cfg2.N) (k j : Fin 64) :
    (Region2.wb V c t : Vec Ideal S64x64 .f32) (ix2 k j) = wA V c (ix2 k j) := by
  show Region2.iblk V c 1 t (ix2 k j) = _
  unfold Region2.iblk
  rw [View.read_apply]
  show V c (Pipeline.arrRef spec2 1) _ = V c (Pipeline.arrRef spec2 1) _
  congr 1
  funext a
  apply Fin.ext
  match a with
  | ⟨0, _⟩ => show win2_1.index t (0 : Fin 2) * 64 + 1 * k.val = k.val; rw [(idx1 t).1]; omega
  | ⟨1, _⟩ => show win2_1.index t (1 : Fin 2) * 64 + 1 * j.val = j.val; rw [(idx1 t).2]; omega

/-- The bias block at every point is the whole bias row. -/
theorem bb_apply (c : Dev nD) (t : Fin cfg2.N) (j : Fin 64) :
    (Region2.bb V c t : Vec Ideal S1x64 .f32) (ix2 (0 : Fin 1) j) = bA V c (ix2 (0 : Fin 1) j) := by
  show Region2.iblk V c 2 t (ix2 (0 : Fin 1) j) = _
  unfold Region2.iblk
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; have h := (idx2 t).1; omega
  | ⟨1, _⟩ => show win2_2.index t (1 : Fin 2) * 64 + 1 * j.val = j.val; rw [(idx2 t).2]; omega

/-! ## The output block and the accumulator -/

/-- Entry (r, j) of the block point `t` stores is the convolution's entry at row 20000·t + r. -/
theorem hblk_apply (c : Dev nD) (t : Fin cfg2.N) (r : Fin 20000) (j : Fin 64) (R : Fin 100000) (hR : R.val = 20000 * t.val + r.val) :
    k2_pay2 (F := Ideal) (Region2.xb V c t) (Region2.wb V c t) (Region2.bb V c t) (ix2 r j)
      = Spec.hval (aggA V c) (wA V c) (bias V c) R j := by
  have e1 : (∑ k : Fin 64, (Region2.xb V c t : Vec Ideal S20000x64 .f32) (ix2 r k) * (Region2.wb V c t : Vec Ideal S64x64 .f32) (ix2 k j))
      = ∑ k : Fin 64, aggA V c (ix2 R k) * wA V c (ix2 k j) :=
    Finset.sum_congr rfl fun k _ => by rw [xb_apply V c t r k R hR, wb_apply V c t k j]
  rw [Pay2.pay2_apply, e1, bb_apply V c t j]
  rfl

/-- The row of block `t` at offset `q`, as a natural-number block index allows it. -/
theorem rowOf_val (t : Fin 5) (q : Fin 20000) : (Spec.rowOf t q).val = 20000 * t.val + q.val := rfl

/-- Column `j` of the accumulator after position `n`: the sum, over the blocks 0 … n, of the blocks' column sums. -/
theorem acc_apply (c : Dev nD) (j : Fin 64) : ∀ (n : ℕ) (hn : n < cfg2.N),
    (Region2.acc V c n hn : Vec Ideal S1x64 .f32) (ix2 (0 : Fin 1) j)
      = ∑ t ∈ Finset.range (n + 1), (if h : t < 5 then ∑ q : Fin 20000, Spec.hval (aggA V c) (wA V c) (bias V c) (Spec.rowOf ⟨t, h⟩ q) j else 0)
  | 0, hn => by
      rw [Finset.sum_range_succ, Finset.sum_range_zero, zero_add, dif_pos (by decide)]
      show k2_pay3 (F := Ideal) (Region2.xb V c ⟨0, hn⟩) (Region2.wb V c ⟨0, hn⟩) (Region2.bb V c ⟨0, hn⟩) (k2_pay1 (F := Ideal)) (ix2 (0 : Fin 1) j) = _
      rw [Pay2.pay3_apply, Pay2.pay1_apply, zero_add]
      exact Finset.sum_congr rfl fun q _ => hblk_apply V c ⟨0, hn⟩ q j _ (by rw [rowOf_val])
  | n + 1, hn => by
      have hN : cfg2.N = 5 := N_2
      rw [Finset.sum_range_succ, ← acc_apply c j n (Nat.lt_of_succ_lt hn), dif_pos (by omega)]
      show k2_pay3 (F := Ideal) (Region2.xb V c ⟨n + 1, hn⟩) (Region2.wb V c ⟨n + 1, hn⟩) (Region2.bb V c ⟨n + 1, hn⟩) (Region2.acc V c n (Nat.lt_of_succ_lt hn)) (ix2 (0 : Fin 1) j) = _
      rw [Pay2.pay3_apply]
      refine congrArg (_ + ·) ?_
      exact Finset.sum_congr rfl fun q _ => hblk_apply V c ⟨n + 1, hn⟩ q j _ (by rw [rowOf_val])

/-- After the last point the accumulator holds the column sums over all rows. -/
theorem acc_last (c : Dev nD) (j : Fin 64) (h4 : 4 < cfg2.N) :
    (Region2.acc V c 4 h4 : Vec Ideal S1x64 .f32) (ix2 (0 : Fin 1) j) = Spec.colsum (aggA V c) (wA V c) (bias V c) j := by
  rw [acc_apply V c j 4 h4]
  unfold Spec.colsum
  rw [Spec.sum_rows_blocks]
  show ∑ t ∈ Finset.range 5, _ = _
  rw [← Fin.sum_univ_eq_sum_range (fun t => if h : t < 5 then ∑ q : Fin 20000, Spec.hval (aggA V c) (wA V c) (bias V c) (Spec.rowOf ⟨t, h⟩ q) j else 0) 5]
  exact Finset.sum_congr rfl fun t _ => by
    show (if h : (t : ℕ) < 5 then ∑ q : Fin 20000, Spec.hval (aggA V c) (wA V c) (bias V c) (Spec.rowOf ⟨t, h⟩ q) j else 0) = _
    rw [dif_pos t.isLt]

/-! ## The first output: the convolution -/

/-- What point `t` writes back is block `t` of the convolution's output. -/
theorem flushed3_eq (c : Dev nD) (t : Fin cfg2.N) :
    (Region2.dat V c).flushed 3 t = ((cfg2.win 3).blk t).view.read (Elt Ideal) (Spec.Hs (aggA V c) (wA V c) (bias V c)) := by
  have hN : cfg2.N = 5 := N_2
  show (cfg2.win 3).cut (grid2.coords t) ((Region2.dat V c).after 3 t) = _
  rw [Region2.after_3]
  funext y
  obtain ⟨r, j, rfl⟩ : ∃ (r : Fin 20000) (j : Fin 64), y = ix2 r j := ⟨y 0, y 1, eq_ix2 y⟩
  rw [View.read_apply]
  show k2_pay2 (F := Ideal) (Region2.xb V c t) (Region2.wb V c t) (Region2.bb V c t) (ix2 r j)
    = Spec.Hs (aggA V c) (wA V c) (bias V c) (((cfg2.win 3).blk t).view.emb (ix2 r j))
  rw [hblk_apply V c t r j ⟨20000 * t.val + r.val, by have := t.isLt; have := r.isLt; omega⟩ rfl]
  unfold Spec.Hs
  congr 1 <;> apply Fin.ext
  · show 20000 * t.val + r.val = win2_3.index t (0 : Fin 2) * 20000 + 1 * r.val; rw [(idx3 t).1]; omega
  · show j.val = win2_3.index t (1 : Fin 2) * 64 + 1 * j.val; rw [(idx3 t).2]; omega

/-- An index of the output array is in point `t`'s block iff each coordinate is in the block's range on its axis. -/
theorem mem_blk3 (t : Fin cfg2.N) (i : S100000x64.Idx) :
    i ∈ ((cfg2.win 3).blk t).view.set ↔ ∀ a : Fin 2, win2_3.index t a * S20000x64.size a ≤ (i a).val ∧ (i a).val < win2_3.index t a * S20000x64.size a + S20000x64.size a := by
  show i ∈ ((View.whole main_v47_0).slice (win2_3.rect t)).set ↔ _
  rw [View.set_slice_whole, Rect.mem_set_unit]
  exact Iff.rfl

/-- The five blocks cover the array, so it ends holding the convolution's output. -/
theorem final3 (c : Dev nD) : (Region2.dat V c).arrAt 3 cfg2.N = Spec.Hs (aggA V c) (wA V c) (bias V c) :=
  (Region2.dat V c).arrAt_eq_of_cover 3 _ (fun t _ => flushed3_eq V c t) fun i => by
    have hN : cfg2.N = 5 := N_2
    have hi0 : (i 0).val < 100000 := (i 0).isLt
    have hi1 : (i 1).val < 64 := (i 1).isLt
    refine ⟨⟨(i 0).val / 20000, by omega⟩, flush2_3 _, ?_⟩
    rw [mem_blk3]
    intro a
    match a with
    | ⟨0, _⟩ =>
      show win2_3.index ⟨(i 0).val / 20000, _⟩ (0 : Fin 2) * 20000 ≤ (i 0).val ∧ (i 0).val < win2_3.index ⟨(i 0).val / 20000, _⟩ (0 : Fin 2) * 20000 + 20000
      rw [(idx3 _).1]; show (i 0).val / 20000 * 20000 ≤ (i 0).val ∧ (i 0).val < (i 0).val / 20000 * 20000 + 20000; omega
    | ⟨1, _⟩ =>
      show win2_3.index ⟨(i 0).val / 20000, _⟩ (1 : Fin 2) * 64 ≤ (i 1).val ∧ (i 1).val < win2_3.index ⟨(i 0).val / 20000, _⟩ (1 : Fin 2) * 64 + 64
      rw [(idx3 _).2]; omega

/-! ## The second output: the pooled summary -/

/-- The summary as the one-row array the region writes. -/
def csum (c : Dev nD) : FVec Ideal S1x64 .f32 := fun i => Spec.Cs (aggA V c) (wA V c) (bias V c) (ix1 (i 1))

set_option maxRecDepth 200000 in
/-- The one write-back, at the last point, writes the summary. -/
theorem flushed4_eq (c : Dev nD) (t : Fin cfg2.N) (hf : (cfg2.win 4).flush t = true) :
    (Region2.dat V c).flushed 4 t = ((cfg2.win 4).blk t).view.read (Elt Ideal) (csum V c) := by
  have hN : cfg2.N = 5 := N_2
  have h4 : t.val = 4 := by have := (flush2_4 t).mp hf; have := t.isLt; omega
  show (cfg2.win 4).cut (grid2.coords t) ((Region2.dat V c).after 4 t) = _
  rw [Region2.after_4]
  funext y
  obtain ⟨z, j, rfl⟩ : ∃ (z : Fin 1) (j : Fin 64), y = ix2 z j := ⟨y 0, y 1, eq_ix2 y⟩
  obtain rfl : z = 0 := Subsingleton.elim _ _
  rw [View.read_apply]
  show k2_pay4 (F := Ideal) (Region2.acc V c t.val t.isLt) (ix2 (0 : Fin 1) j) = csum V c (((cfg2.win 4).blk t).view.emb (ix2 (0 : Fin 1) j))
  have hacc : (Region2.acc V c t.val t.isLt : Vec Ideal S1x64 .f32) (ix2 (0 : Fin 1) j) = Spec.colsum (aggA V c) (wA V c) (bias V c) j := by
    obtain ⟨n, hn⟩ := t
    obtain rfl : n = 4 := h4
    exact acc_last V c j hn
  rw [Pay2.pay4_apply, hacc]
  have e : (((cfg2.win 4).blk t).view.emb (ix2 (0 : Fin 1) j)) 1 = j := by
    apply Fin.ext
    show win2_4.index t (1 : Fin 2) * 64 + 1 * j.val = j.val
    rw [(idx4 t).2]; omega
  show _ = Ideal.logistic (Spec.colsum (aggA V c) (wA V c) (bias V c) ((((cfg2.win 4).blk t).view.emb (ix2 (0 : Fin 1) j)) 1)
    * ((1 / 100000 : ℝ) : EReal))
  rw [e]

theorem mem_blk4 (t : Fin cfg2.N) (i : S1x64.Idx) :
    i ∈ ((cfg2.win 4).blk t).view.set ↔ ∀ a : Fin 2, win2_4.index t a * S1x64.size a ≤ (i a).val ∧ (i a).val < win2_4.index t a * S1x64.size a + S1x64.size a := by
  show i ∈ ((View.whole main_v47_1).slice (win2_4.rect t)).set ↔ _
  rw [View.set_slice_whole, Rect.mem_set_unit]
  exact Iff.rfl

/-- The last point's block is the whole array, so it ends holding the summary. -/
theorem final4 (c : Dev nD) : (Region2.dat V c).arrAt 4 cfg2.N = csum V c :=
  (Region2.dat V c).arrAt_eq_of_cover 4 _ (flushed4_eq V c) fun i => by
    have hi0 : (i 0).val < 1 := (i 0).isLt
    have hi1 : (i 1).val < 64 := (i 1).isLt
    refine ⟨t2_4, (flush2_4 t2_4).mpr rfl, ?_⟩
    rw [mem_blk4]
    intro a
    match a with
    | ⟨0, _⟩ =>
      show win2_4.index t2_4 (0 : Fin 2) * 1 ≤ (i 0).val ∧ (i 0).val < win2_4.index t2_4 (0 : Fin 2) * 1 + 1
      rw [(idx4 t2_4).1]; omega
    | ⟨1, _⟩ =>
      show win2_4.index t2_4 (1 : Fin 2) * 64 ≤ (i 1).val ∧ (i 1).val < win2_4.index t2_4 (1 : Fin 2) * 64 + 64
      rw [(idx4 t2_4).2]; omega

end Cert.KernelIdeal.Value2

end
-- ==== Proof.PayKI3.lean ====
/-
  The four payloads of the first launch's kernel body, each read at one index over the extended reals.
  At a column `j` of the one-row block: the reset payload is `0`; the row block's payload at `(r, j)` is the
  row `r` of the operand times the column `j` of the weights, plus the bias at `j` (the narrowing format changes
  are the identity on extended reals and the product accumulates into a zero splat); the running sum's payload is
  the carried sum at `j` plus the sum over the block's rows of that; and the closing payload is the logistic of
  the carried sum at `j` times the named reciprocal `1 / 100000`.
-/
import proofs.«101884_j77610059038802_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay3

open Cert.KernelIdeal Cert.KernelIdeal.Gen Idealize.ShloMosaic Idealize.ShloMosaic.ValueIdx

/-! ## The reset payload: a zero splat -/

/-- The zero splat, cast to its own shape, reads `0` at every column. -/
theorem pay1_apply (j : Fin 64) : k3_pay1 (F := Ideal) (ix2 (0 : Fin 1) j) = 0 := by
  unfold k3_pay1
  refine (congrFun (shapeCast_self _ shapeCasts_S1x64_S1x64) (ix2 (0 : Fin 1) j)).trans ?_
  exact Ideal.ofBits_zero_f32

/-! ## The product's operand indices, axis by axis

The product contracts the left operand's axis 1 with the right operand's axis 0; there is no batch axis. So at the
result index `i` and contraction position `q` the left operand is read at `(i 0, q)` and the right one at `(q, i 1)`. -/

theorem lhs_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide),
    dif_pos (show (0 : Fin S20000x64.rank) ∈ dot_S20000x64_S64x64_S20000x64_1_0_0_1_n_n.lhsNonContracting by decide)]
  rfl

theorem lhs_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q

theorem rhs_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q

theorem rhs_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide),
    dif_pos (show (1 : Fin S64x64.rank) ∈ dot_S20000x64_S64x64_S20000x64_1_0_0_1_n_n.rhsNonContracting by decide)]
  rfl

/-- The product into a zero accumulator, read at `(r, j)`: the sum over `k` of the left operand at `(r, k)` times
    the right operand at `(k, j)`. The contraction index has one axis of extent 64; the sum is re-indexed through
    its one coordinate. -/
theorem matmul_zero_apply (a : FVec Ideal S20000x64 .bf16) (b : FVec Ideal S64x64 .bf16) (r : Fin 20000) (j : Fin 64) :
    matmul dot_S20000x64_S64x64_S20000x64_1_0_0_1_n_n none a b (constant (F := Ideal) S20000x64 .f32 0x00000000#32) (ix2 r j)
      = ∑ k : Fin 64, a (ix2 r k) * b (ix2 k j) := by
  refine (Ideal.matmul_constant_zero_apply dot_S20000x64_S64x64_S20000x64_1_0_0_1_n_n none a b (ix2 r j)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 r j) ((contrEquiv1 dot_S20000x64_S64x64_S20000x64_1_0_0_1_n_n 64 rfl rfl).symm k) = ix2 r k := funext fun c => Fin.ext (by
    match c with
    | ⟨0, _⟩ => exact lhs_0 _ _
    | ⟨1, _⟩ => exact (lhs_1 _ _).trans hk)
  have er : dot_S20000x64_S64x64_S20000x64_1_0_0_1_n_n.rhsIdx (ix2 r j) ((contrEquiv1 dot_S20000x64_S64x64_S20000x64_1_0_0_1_n_n 64 rfl rfl).symm k) = ix2 k j := funext fun c => Fin.ext (by
    match c with
    | ⟨0, _⟩ => exact (rhs_0 _ _).trans hk
    | ⟨1, _⟩ => exact rhs_1 _ _)
  rw [el, er]

/-! ## The row block's payload: product plus bias -/

/-- At `(r, j)`: the sum over `k` of `x (r, k) * w (k, j)`, plus the bias row at `j`. -/
theorem pay2_apply (x : Vec Ideal S20000x64 .f32) (w : Vec Ideal S64x64 .f32) (b2 : Vec Ideal S1x64 .f32)
    (r : Fin 20000) (j : Fin 64) :
    k3_pay2 (F := Ideal) x w b2 (ix2 r j)
      = (∑ k : Fin 64, x (ix2 r k) * w (ix2 k j)) + b2 (ix2 (0 : Fin 1) j) := by
  unfold k3_pay2
  refine (addf_apply _ _ (ix2 r j)).trans ?_
  refine congrArg₂ (fun p q : EReal => p + q) ?_ ?_
  · refine (matmul_zero_apply _ _ r j).trans ?_
    refine Finset.sum_congr rfl fun k _ => ?_
    exact congrArg (· * w (ix2 k j)) (congrFun (shapeCast_self x shapeCasts_S20000x64_S20000x64) (ix2 r k))
  · refine (broadcastTo_1b_ab_apply _ broadcasts_S1x64_S20000x64 r j).trans ?_
    exact congrFun (shapeCast_self b2 shapeCasts_S1x64_S1x64) (ix2 (0 : Fin 1) j)

/-! ## The running sum's payload: the carried sum plus the block's column sums -/

/-- The sum over the rows of a `[20000, 64]` block, from the neutral accumulator, read at column `j`: the sum over
    `r` of the block at `(r, j)`. (The accumulator's hypothesis is typed as the two equal words it compares.) -/
theorem lane_sum (y : FVec Ideal S20000x64 .f32) (hφ : FKind.Formats .f32)
    (hacc : (0x00000000#32 : BitVec 32) = 0x00000000#32) (j : Fin 64) :
    multiReduction (F := Ideal) .add [0] S64 y 0x00000000#32 reduces_S20000x64_S64 hφ hacc (ix1 j)
      = ∑ r : Fin 20000, y (ix2 r j) := by
  refine (Ideal.multiReduction_add_single y 0x00000000#32 reduces_S20000x64_S64 hφ hacc (ix1 j)).trans ?_
  refine Finset.sum_congr rfl fun k _ => ?_
  exact congrArg y (funext fun c => Fin.ext (by match c with | ⟨0, _⟩ => rfl | ⟨1, _⟩ => rfl))

/-- At column `j`: the carried sum at `j` plus the sum over the block's rows `r` of the row block's payload at
    `(r, j)`. -/
theorem pay3_apply (x : Vec Ideal S20000x64 .f32) (w : Vec Ideal S64x64 .f32) (b2 : Vec Ideal S1x64 .f32)
    (s : Vec Ideal S1x64 .f32) (j : Fin 64) :
    k3_pay3 (F := Ideal) x w b2 s (ix2 (0 : Fin 1) j)
      = s (ix2 (0 : Fin 1) j) + ∑ r : Fin 20000, k3_pay2 (F := Ideal) x w b2 (ix2 r j) := by
  unfold k3_pay3
  generalize k3_pay2 (F := Ideal) x w b2 = y
  refine (congrFun (shapeCast_self _ shapeCasts_S1x64_S1x64) (ix2 (0 : Fin 1) j)).trans ?_
  refine (addf_apply _ _ (ix2 (0 : Fin 1) j)).trans ?_
  refine congrArg (_ + ·) ?_
  refine (shapeCast_a_1a_apply _ shapeCasts_S64_S1x64 (0 : Fin 1) j).trans ?_
  exact lane_sum y (.inl rfl) rfl j

/-! ## The closing payload: the logistic of the mean -/

/-- The named reciprocal denotes the rational `1 / 100000` at the extended reals, by the certificate's table. -/
theorem inv_100000 :
    Named.named (F := Ideal) κ "inv_100000" (φ := .f32) 0x3727C5AC#32 = ((1 / 100000 : ℝ) : EReal) :=
  IdealRules.named_const.ideal_named_scalar _ _ _ _ rfl

/-- At column `j`: the logistic of the carried sum at `j` times `1 / 100000`. -/
theorem pay4_apply (s : Vec Ideal S1x64 .f32) (j : Fin 64) :
    k3_pay4 (F := Ideal) s (ix2 (0 : Fin 1) j)
      = Ideal.logistic (s (ix2 (0 : Fin 1) j) * ((1 / 100000 : ℝ) : EReal)) := by
  unfold k3_pay4
  exact congrArg (fun c : EReal => Ideal.logistic (s (ix2 (0 : Fin 1) j) * c)) inv_100000

end Cert.KernelIdeal.Pay3

end
-- ==== Proof.KIValue3.lean ====
/-
  What this pallas_call leaves in its two output arrays, as functions of the arrays it reads at the region's entry
  (extended reals). Point t writes rows 20000·t … 20000·t + 19999 of the first output: entry (r, j) is
  Σ_k agg r k · W k j + b j, so after the five points the array is the whole product plus the bias. The scratch
  accumulator after point t holds, in column j, the sum over the blocks 0 … t of the blocks' column sums; after the last
  point that is the sum over all 100000 rows, and the last point writes the logistic function of it times 1/100000 into
  the second output, whose one block is the whole array.
-/
import proofs.«101884_j77610059038802_1_alg».proof.Proof.KIRegion3
import proofs.«101884_j77610059038802_1_alg».proof.Proof.PayKI3
import proofs.«101884_j77610059038802_1_alg».proof.Proof.Spec
import Idealize.ShloMosaic.Lib.Pipeline.Value
import Idealize.ShloMosaic.Lib.ValueIdx

set_option maxRecDepth 16384

noncomputable section

namespace Cert.KernelIdeal.Value3

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays the region reads, at their literal types: the aggregated features, the weights, the bias row. -/
abbrev aggA (c : Dev nD) : FVec Ideal S100000x64 .f32 := V c (Pipeline.arrRef spec3 0)
abbrev wA (c : Dev nD) : FVec Ideal S64x64 .f32 := V c (Pipeline.arrRef spec3 1)
abbrev bA (c : Dev nD) : FVec Ideal S1x64 .f32 := V c (Pipeline.arrRef spec3 2)
/-- The bias row as a vector. -/
def bias (c : Dev nD) : FVec Ideal S64 .f32 := fun j => bA V c (ix2 (0 : Fin 1) (j 0))

/-! ## The printed index maps, decided over the grid -/

theorem idx0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem idx2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx3 : ∀ t : Fin cfg3.N, win3_3.index t (0 : Fin 2) = t.val ∧ win3_3.index t (1 : Fin 2) = 0 :=
  (by decide +kernel : ∀ t : Fin grid3.N, win3_3.index t (0 : Fin 2) = t.val ∧ win3_3.index t (1 : Fin 2) = 0)
theorem idx4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)

/-! ## The input blocks as entries of the arrays -/

/-- The feature block at point `t` is rows 20000·t … of the aggregated features. -/
theorem xb_apply (c : Dev nD) (t : Fin cfg3.N) (r : Fin 20000) (k : Fin 64) (R : Fin 100000) (hR : R.val = 20000 * t.val + r.val) :
    (Region3.xb V c t : Vec Ideal S20000x64 .f32) (ix2 r k) = aggA V c (ix2 R k) := by
  show Region3.iblk V c 0 t (ix2 r k) = _
  unfold Region3.iblk
  rw [View.read_apply]
  show V c (Pipeline.arrRef spec3 0) _ = V c (Pipeline.arrRef spec3 0) _
  congr 1
  funext a
  apply Fin.ext
  match a with
  | ⟨0, _⟩ => show win3_0.index t (0 : Fin 2) * 20000 + 1 * r.val = R.val; rw [(idx0 t).1, hR]; omega
  | ⟨1, _⟩ => show win3_0.index t (1 : Fin 2) * 64 + 1 * k.val = k.val; rw [(idx0 t).2]; omega

/-- The weight block at every point is the whole weight matrix. -/
theorem wb_apply (c : Dev nD) (t : Fin cfg3.N) (k j : Fin 64) :
    (Region3.wb V c t : Vec Ideal S64x64 .f32) (ix2 k j) = wA V c (ix2 k j) := by
  show Region3.iblk V c 1 t (ix2 k j) = _
  unfold Region3.iblk
  rw [View.read_apply]
  show V c (Pipeline.arrRef spec3 1) _ = V c (Pipeline.arrRef spec3 1) _
  congr 1
  funext a
  apply Fin.ext
  match a with
  | ⟨0, _⟩ => show win3_1.index t (0 : Fin 2) * 64 + 1 * k.val = k.val; rw [(idx1 t).1]; omega
  | ⟨1, _⟩ => show win3_1.index t (1 : Fin 2) * 64 + 1 * j.val = j.val; rw [(idx1 t).2]; omega

/-- The bias block at every point is the whole bias row. -/
theorem bb_apply (c : Dev nD) (t : Fin cfg3.N) (j : Fin 64) :
    (Region3.bb V c t : Vec Ideal S1x64 .f32) (ix2 (0 : Fin 1) j) = bA V c (ix2 (0 : Fin 1) j) := by
  show Region3.iblk V c 2 t (ix2 (0 : Fin 1) j) = _
  unfold Region3.iblk
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; have h := (idx2 t).1; omega
  | ⟨1, _⟩ => show win3_2.index t (1 : Fin 2) * 64 + 1 * j.val = j.val; rw [(idx2 t).2]; omega

/-! ## The output block and the accumulator -/

/-- Entry (r, j) of the block point `t` stores is the convolution's entry at row 20000·t + r. -/
theorem hblk_apply (c : Dev nD) (t : Fin cfg3.N) (r : Fin 20000) (j : Fin 64) (R : Fin 100000) (hR : R.val = 20000 * t.val + r.val) :
    k3_pay2 (F := Ideal) (Region3.xb V c t) (Region3.wb V c t) (Region3.bb V c t) (ix2 r j)
      = Spec.hval (aggA V c) (wA V c) (bias V c) R j := by
  have e1 : (∑ k : Fin 64, (Region3.xb V c t : Vec Ideal S20000x64 .f32) (ix2 r k) * (Region3.wb V c t : Vec Ideal S64x64 .f32) (ix2 k j))
      = ∑ k : Fin 64, aggA V c (ix2 R k) * wA V c (ix2 k j) :=
    Finset.sum_congr rfl fun k _ => by rw [xb_apply V c t r k R hR, wb_apply V c t k j]
  rw [Pay3.pay2_apply, e1, bb_apply V c t j]
  rfl

/-- The row of block `t` at offset `q`, as a natural-number block index allows it. -/
theorem rowOf_val (t : Fin 5) (q : Fin 20000) : (Spec.rowOf t q).val = 20000 * t.val + q.val := rfl

/-- Column `j` of the accumulator after position `n`: the sum, over the blocks 0 … n, of the blocks' column sums. -/
theorem acc_apply (c : Dev nD) (j : Fin 64) : ∀ (n : ℕ) (hn : n < cfg3.N),
    (Region3.acc V c n hn : Vec Ideal S1x64 .f32) (ix2 (0 : Fin 1) j)
      = ∑ t ∈ Finset.range (n + 1), (if h : t < 5 then ∑ q : Fin 20000, Spec.hval (aggA V c) (wA V c) (bias V c) (Spec.rowOf ⟨t, h⟩ q) j else 0)
  | 0, hn => by
      rw [Finset.sum_range_succ, Finset.sum_range_zero, zero_add, dif_pos (by decide)]
      show k3_pay3 (F := Ideal) (Region3.xb V c ⟨0, hn⟩) (Region3.wb V c ⟨0, hn⟩) (Region3.bb V c ⟨0, hn⟩) (k3_pay1 (F := Ideal)) (ix2 (0 : Fin 1) j) = _
      rw [Pay3.pay3_apply, Pay3.pay1_apply, zero_add]
      exact Finset.sum_congr rfl fun q _ => hblk_apply V c ⟨0, hn⟩ q j _ (by rw [rowOf_val])
  | n + 1, hn => by
      have hN : cfg3.N = 5 := N_3
      rw [Finset.sum_range_succ, ← acc_apply c j n (Nat.lt_of_succ_lt hn), dif_pos (by omega)]
      show k3_pay3 (F := Ideal) (Region3.xb V c ⟨n + 1, hn⟩) (Region3.wb V c ⟨n + 1, hn⟩) (Region3.bb V c ⟨n + 1, hn⟩) (Region3.acc V c n (Nat.lt_of_succ_lt hn)) (ix2 (0 : Fin 1) j) = _
      rw [Pay3.pay3_apply]
      refine congrArg (_ + ·) ?_
      exact Finset.sum_congr rfl fun q _ => hblk_apply V c ⟨n + 1, hn⟩ q j _ (by rw [rowOf_val])

/-- After the last point the accumulator holds the column sums over all rows. -/
theorem acc_last (c : Dev nD) (j : Fin 64) (h4 : 4 < cfg3.N) :
    (Region3.acc V c 4 h4 : Vec Ideal S1x64 .f32) (ix2 (0 : Fin 1) j) = Spec.colsum (aggA V c) (wA V c) (bias V c) j := by
  rw [acc_apply V c j 4 h4]
  unfold Spec.colsum
  rw [Spec.sum_rows_blocks]
  show ∑ t ∈ Finset.range 5, _ = _
  rw [← Fin.sum_univ_eq_sum_range (fun t => if h : t < 5 then ∑ q : Fin 20000, Spec.hval (aggA V c) (wA V c) (bias V c) (Spec.rowOf ⟨t, h⟩ q) j else 0) 5]
  exact Finset.sum_congr rfl fun t _ => by
    show (if h : (t : ℕ) < 5 then ∑ q : Fin 20000, Spec.hval (aggA V c) (wA V c) (bias V c) (Spec.rowOf ⟨t, h⟩ q) j else 0) = _
    rw [dif_pos t.isLt]

/-! ## The first output: the convolution -/

/-- What point `t` writes back is block `t` of the convolution's output. -/
theorem flushed3_eq (c : Dev nD) (t : Fin cfg3.N) :
    (Region3.dat V c).flushed 3 t = ((cfg3.win 3).blk t).view.read (Elt Ideal) (Spec.Hs (aggA V c) (wA V c) (bias V c)) := by
  have hN : cfg3.N = 5 := N_3
  show (cfg3.win 3).cut (grid3.coords t) ((Region3.dat V c).after 3 t) = _
  rw [Region3.after_3]
  funext y
  obtain ⟨r, j, rfl⟩ : ∃ (r : Fin 20000) (j : Fin 64), y = ix2 r j := ⟨y 0, y 1, eq_ix2 y⟩
  rw [View.read_apply]
  show k3_pay2 (F := Ideal) (Region3.xb V c t) (Region3.wb V c t) (Region3.bb V c t) (ix2 r j)
    = Spec.Hs (aggA V c) (wA V c) (bias V c) (((cfg3.win 3).blk t).view.emb (ix2 r j))
  rw [hblk_apply V c t r j ⟨20000 * t.val + r.val, by have := t.isLt; have := r.isLt; omega⟩ rfl]
  unfold Spec.Hs
  congr 1 <;> apply Fin.ext
  · show 20000 * t.val + r.val = win3_3.index t (0 : Fin 2) * 20000 + 1 * r.val; rw [(idx3 t).1]; omega
  · show j.val = win3_3.index t (1 : Fin 2) * 64 + 1 * j.val; rw [(idx3 t).2]; omega

/-- An index of the output array is in point `t`'s block iff each coordinate is in the block's range on its axis. -/
theorem mem_blk3 (t : Fin cfg3.N) (i : S100000x64.Idx) :
    i ∈ ((cfg3.win 3).blk t).view.set ↔ ∀ a : Fin 2, win3_3.index t a * S20000x64.size a ≤ (i a).val ∧ (i a).val < win3_3.index t a * S20000x64.size a + S20000x64.size a := by
  show i ∈ ((View.whole main_v50_0).slice (win3_3.rect t)).set ↔ _
  rw [View.set_slice_whole, Rect.mem_set_unit]
  exact Iff.rfl

/-- The five blocks cover the array, so it ends holding the convolution's output. -/
theorem final3 (c : Dev nD) : (Region3.dat V c).arrAt 3 cfg3.N = Spec.Hs (aggA V c) (wA V c) (bias V c) :=
  (Region3.dat V c).arrAt_eq_of_cover 3 _ (fun t _ => flushed3_eq V c t) fun i => by
    have hN : cfg3.N = 5 := N_3
    have hi0 : (i 0).val < 100000 := (i 0).isLt
    have hi1 : (i 1).val < 64 := (i 1).isLt
    refine ⟨⟨(i 0).val / 20000, by omega⟩, flush3_3 _, ?_⟩
    rw [mem_blk3]
    intro a
    match a with
    | ⟨0, _⟩ =>
      show win3_3.index ⟨(i 0).val / 20000, _⟩ (0 : Fin 2) * 20000 ≤ (i 0).val ∧ (i 0).val < win3_3.index ⟨(i 0).val / 20000, _⟩ (0 : Fin 2) * 20000 + 20000
      rw [(idx3 _).1]; show (i 0).val / 20000 * 20000 ≤ (i 0).val ∧ (i 0).val < (i 0).val / 20000 * 20000 + 20000; omega
    | ⟨1, _⟩ =>
      show win3_3.index ⟨(i 0).val / 20000, _⟩ (1 : Fin 2) * 64 ≤ (i 1).val ∧ (i 1).val < win3_3.index ⟨(i 0).val / 20000, _⟩ (1 : Fin 2) * 64 + 64
      rw [(idx3 _).2]; omega

/-! ## The second output: the pooled summary -/

/-- The summary as the one-row array the region writes. -/
def csum (c : Dev nD) : FVec Ideal S1x64 .f32 := fun i => Spec.Cs (aggA V c) (wA V c) (bias V c) (ix1 (i 1))

set_option maxRecDepth 200000 in
/-- The one write-back, at the last point, writes the summary. -/
theorem flushed4_eq (c : Dev nD) (t : Fin cfg3.N) (hf : (cfg3.win 4).flush t = true) :
    (Region3.dat V c).flushed 4 t = ((cfg3.win 4).blk t).view.read (Elt Ideal) (csum V c) := by
  have hN : cfg3.N = 5 := N_3
  have h4 : t.val = 4 := by have := (flush3_4 t).mp hf; have := t.isLt; omega
  show (cfg3.win 4).cut (grid3.coords t) ((Region3.dat V c).after 4 t) = _
  rw [Region3.after_4]
  funext y
  obtain ⟨z, j, rfl⟩ : ∃ (z : Fin 1) (j : Fin 64), y = ix2 z j := ⟨y 0, y 1, eq_ix2 y⟩
  obtain rfl : z = 0 := Subsingleton.elim _ _
  rw [View.read_apply]
  show k3_pay4 (F := Ideal) (Region3.acc V c t.val t.isLt) (ix2 (0 : Fin 1) j) = csum V c (((cfg3.win 4).blk t).view.emb (ix2 (0 : Fin 1) j))
  have hacc : (Region3.acc V c t.val t.isLt : Vec Ideal S1x64 .f32) (ix2 (0 : Fin 1) j) = Spec.colsum (aggA V c) (wA V c) (bias V c) j := by
    obtain ⟨n, hn⟩ := t
    obtain rfl : n = 4 := h4
    exact acc_last V c j hn
  rw [Pay3.pay4_apply, hacc]
  have e : (((cfg3.win 4).blk t).view.emb (ix2 (0 : Fin 1) j)) 1 = j := by
    apply Fin.ext
    show win3_4.index t (1 : Fin 2) * 64 + 1 * j.val = j.val
    rw [(idx4 t).2]; omega
  show _ = Ideal.logistic (Spec.colsum (aggA V c) (wA V c) (bias V c) ((((cfg3.win 4).blk t).view.emb (ix2 (0 : Fin 1) j)) 1)
    * ((1 / 100000 : ℝ) : EReal))
  rw [e]

theorem mem_blk4 (t : Fin cfg3.N) (i : S1x64.Idx) :
    i ∈ ((cfg3.win 4).blk t).view.set ↔ ∀ a : Fin 2, win3_4.index t a * S1x64.size a ≤ (i a).val ∧ (i a).val < win3_4.index t a * S1x64.size a + S1x64.size a := by
  show i ∈ ((View.whole main_v50_1).slice (win3_4.rect t)).set ↔ _
  rw [View.set_slice_whole, Rect.mem_set_unit]
  exact Iff.rfl

/-- The last point's block is the whole array, so it ends holding the summary. -/
theorem final4 (c : Dev nD) : (Region3.dat V c).arrAt 4 cfg3.N = csum V c :=
  (Region3.dat V c).arrAt_eq_of_cover 4 _ (flushed4_eq V c) fun i => by
    have hi0 : (i 0).val < 1 := (i 0).isLt
    have hi1 : (i 1).val < 64 := (i 1).isLt
    refine ⟨t3_4, (flush3_4 t3_4).mpr rfl, ?_⟩
    rw [mem_blk4]
    intro a
    match a with
    | ⟨0, _⟩ =>
      show win3_4.index t3_4 (0 : Fin 2) * 1 ≤ (i 0).val ∧ (i 0).val < win3_4.index t3_4 (0 : Fin 2) * 1 + 1
      rw [(idx4 t3_4).1]; omega
    | ⟨1, _⟩ =>
      show win3_4.index t3_4 (1 : Fin 2) * 64 ≤ (i 1).val ∧ (i 1).val < win3_4.index t3_4 (1 : Fin 2) * 64 + 64
      rw [(idx4 t3_4).2]; omega

end Cert.KernelIdeal.Value3

end
-- ==== Proof.KIFinal.lean ====
/-
  The six results of the idealized kernel program as functions of its ten arguments. Each pallas_call reads the
  aggregated features one of the first host stretch's scatter-adds built, a weight matrix that is an argument, and a
  bias row that is an argument reshaped; what it leaves in its output arrays (the convolution, the pooled summary) no
  later segment overwrites, and the summary is reshaped to a vector by the host stretch after it.
-/
import proofs.«101884_j77610059038802_1_alg».proof.Proof.KIFrame
import proofs.«101884_j77610059038802_1_alg».proof.Proof.KIValue0
import proofs.«101884_j77610059038802_1_alg».proof.Proof.KIValue1
import proofs.«101884_j77610059038802_1_alg».proof.Proof.KIValue2
import proofs.«101884_j77610059038802_1_alg».proof.Proof.KIValue3
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.GenP Cert.KernelIdeal.Run
open Idealize.ShloMosaic Idealize.ShloMosaic.TcCoe Idealize.SL.Sem Idealize.ShloMosaic.StableHlo Idealize.ShloMosaic.ValueIdx
open Idealize.ShloMosaic.Pipeline (Dat)

/-- The aggregated features as the host operations build them: the rows of `x` the source indices name (a negative
    index wrapped by the number of nodes), scatter-added at the destination indices into a zero array. Carried as one
    opaque array: nothing below looks inside it. -/
def agg {F : FTy → Type} [FloatOps F] (x : (⟨S100000x64, .f32⟩ : BufTy).Contents (Elt F)) (src dst : (⟨S1000000, .i32⟩ : BufTy).Contents (Elt F)) :
    (⟨S100000x64, .f32⟩ : BufTy).Contents (Elt F) :=
  Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 dst) (Host.gather gather_S100000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))

variable (m : (ℓ : Loc nD τ sig) → Buf (Elt Ideal) ℓ) (ρ : Dev nD → PrngReg)

/-! ## What the first host stretch computes -/

theorem W1_main_v9 (c : Dev nD) : W1 m ρ c (Proc.devRef .tc main_v9) = agg (m ((c.tc : Thread nD τ).loc main_arg0)) (m ((c.tc : Thread nD τ).loc main_arg2)) (m ((c.tc : Thread nD τ).loc main_arg3)) := by
  show StableHlo.after hostOps0 _ (Proc.devRef .tc main_v9) = _
  unfold agg
  after_results_simp <;> rfl

theorem W1_main_v19 (c : Dev nD) : W1 m ρ c (Proc.devRef .tc main_v19) = agg (m ((c.tc : Thread nD τ).loc main_arg0)) (m ((c.tc : Thread nD τ).loc main_arg4)) (m ((c.tc : Thread nD τ).loc main_arg5)) := by
  show StableHlo.after hostOps0 _ (Proc.devRef .tc main_v19) = _
  unfold agg
  after_results_simp <;> rfl

theorem W1_main_v29 (c : Dev nD) : W1 m ρ c (Proc.devRef .tc main_v29) = agg (m ((c.tc : Thread nD τ).loc main_arg1)) (m ((c.tc : Thread nD τ).loc main_arg2)) (m ((c.tc : Thread nD τ).loc main_arg3)) := by
  show StableHlo.after hostOps0 _ (Proc.devRef .tc main_v29) = _
  unfold agg
  after_results_simp <;> rfl

theorem W1_main_v39 (c : Dev nD) : W1 m ρ c (Proc.devRef .tc main_v39) = agg (m ((c.tc : Thread nD τ).loc main_arg1)) (m ((c.tc : Thread nD τ).loc main_arg4)) (m ((c.tc : Thread nD τ).loc main_arg5)) := by
  show StableHlo.after hostOps0 _ (Proc.devRef .tc main_v39) = _
  unfold agg
  after_results_simp <;> rfl

theorem W1_main_v40 (c : Dev nD) : W1 m ρ c (Proc.devRef .tc main_v40) = shapeCast S1x64 (m ((c.tc : Thread nD τ).loc main_arg7)) shapeCasts_S64_S1x64 := by
  show StableHlo.after hostOps0 _ (Proc.devRef .tc main_v40) = _
  after_results_simp <;> rfl

/-- A bias vector reshaped to a row, read back along the row, is the vector. -/
theorem row_of_vec (x : (⟨S64, .f32⟩ : BufTy).Contents (Elt Ideal)) :
    (fun j : S64.Idx => (shapeCast S1x64 x shapeCasts_S64_S1x64 : S1x64.Idx → Elt Ideal .f32) (ix2 (0 : Fin 1) (j 0))) = x := by
  funext j
  exact (shapeCast_a_1a_apply x shapeCasts_S64_S1x64 (0 : Fin 1) (j 0)).trans (congrArg x (eq_ix1 j).symm)

/-- A summary row reshaped to a vector is the row read along itself. -/
theorem vec_of_row (x : S1x64.Idx → Elt Ideal .f32) (j : S64.Idx) :
    (shapeCast S64 x shapeCasts_S1x64_S64 : S64.Idx → Elt Ideal .f32) j = x (ix2 (0 : Fin 1) (j 0)) :=
  (congrArg (shapeCast S64 x shapeCasts_S1x64_S64 : S64.Idx → Elt Ideal .f32) (eq_ix1 j)).trans (shapeCast_1a_a_apply x shapeCasts_S1x64_S64 (j 0))

/-! ## The regions' inputs at their entries -/

theorem in0_agg (c : Dev nD) : Value0.aggA (V1 m ρ) c = agg (m ((c.tc : Thread nD τ).loc main_arg0)) (m ((c.tc : Thread nD τ).loc main_arg2)) (m ((c.tc : Thread nD τ).loc main_arg3)) :=
  (rfl : W1 m ρ c (Proc.devRef .tc main_v9) = W1 m ρ c (Proc.devRef .tc main_v9)).trans (W1_main_v9 m ρ c)
theorem in0_w (c : Dev nD) : Value0.wA (V1 m ρ) c = (m ((c.tc : Thread nD τ).loc main_arg6)) :=
  ((keepH0 m ρ c main_arg6 (by decide)) : W1 m ρ c (Proc.devRef .tc main_arg6) = W0 m ρ c (Proc.devRef .tc main_arg6)).trans rfl
theorem in0_b (c : Dev nD) : Value0.bA (V1 m ρ) c = shapeCast S1x64 (m ((c.tc : Thread nD τ).loc main_arg7)) shapeCasts_S64_S1x64 := W1_main_v40 m ρ c
theorem in0_bias (c : Dev nD) : Value0.bias (V1 m ρ) c = (m ((c.tc : Thread nD τ).loc main_arg7)) := by
  unfold Value0.bias
  rw [in0_b m ρ c]
  exact row_of_vec (m ((c.tc : Thread nD τ).loc main_arg7))

theorem in1_agg (c : Dev nD) : Value1.aggA (V3 m ρ) c = agg (m ((c.tc : Thread nD τ).loc main_arg0)) (m ((c.tc : Thread nD τ).loc main_arg4)) (m ((c.tc : Thread nD τ).loc main_arg5)) :=
  ((keepH1 m ρ c main_v19 (by decide)).trans <| (keepR0 m ρ c main_v19 (by decide)) : W3 m ρ c (Proc.devRef .tc main_v19) = W1 m ρ c (Proc.devRef .tc main_v19)).trans (W1_main_v19 m ρ c)
theorem in1_w (c : Dev nD) : Value1.wA (V3 m ρ) c = (m ((c.tc : Thread nD τ).loc main_arg8)) :=
  ((keepH1 m ρ c main_arg8 (by decide)).trans <| (keepR0 m ρ c main_arg8 (by decide)).trans <| (keepH0 m ρ c main_arg8 (by decide)) : W3 m ρ c (Proc.devRef .tc main_arg8) = W0 m ρ c (Proc.devRef .tc main_arg8)).trans rfl
theorem in1_b (c : Dev nD) : Value1.bA (V3 m ρ) c = shapeCast S1x64 (m ((c.tc : Thread nD τ).loc main_arg9)) shapeCasts_S64_S1x64 := by
  have e : W3 m ρ c (Proc.devRef .tc main_v43) = shapeCast S1x64 (W2 m ρ c (Proc.devRef .tc main_arg9)) shapeCasts_S64_S1x64 := by
    show StableHlo.after hostOps1 _ (Proc.devRef .tc main_v43) = _
    after_results <;> rfl
  have e' : W2 m ρ c (Proc.devRef .tc main_arg9) = (m ((c.tc : Thread nD τ).loc main_arg9)) :=
    ((keepR0 m ρ c main_arg9 (by decide)).trans <| (keepH0 m ρ c main_arg9 (by decide)) : W2 m ρ c (Proc.devRef .tc main_arg9) = W0 m ρ c (Proc.devRef .tc main_arg9)).trans rfl
  exact e.trans (by rw [e'])
theorem in1_bias (c : Dev nD) : Value1.bias (V3 m ρ) c = (m ((c.tc : Thread nD τ).loc main_arg9)) := by
  unfold Value1.bias
  rw [in1_b m ρ c]
  exact row_of_vec (m ((c.tc : Thread nD τ).loc main_arg9))

theorem in2_agg (c : Dev nD) : Value2.aggA (V5 m ρ) c = agg (m ((c.tc : Thread nD τ).loc main_arg1)) (m ((c.tc : Thread nD τ).loc main_arg2)) (m ((c.tc : Thread nD τ).loc main_arg3)) :=
  ((keepH2 m ρ c main_v29 (by decide)).trans <| (keepR1 m ρ c main_v29 (by decide)).trans <| (keepH1 m ρ c main_v29 (by decide)).trans <| (keepR0 m ρ c main_v29 (by decide)) : W5 m ρ c (Proc.devRef .tc main_v29) = W1 m ρ c (Proc.devRef .tc main_v29)).trans (W1_main_v29 m ρ c)
theorem in2_w (c : Dev nD) : Value2.wA (V5 m ρ) c = (m ((c.tc : Thread nD τ).loc main_arg6)) :=
  ((keepH2 m ρ c main_arg6 (by decide)).trans <| (keepR1 m ρ c main_arg6 (by decide)).trans <| (keepH1 m ρ c main_arg6 (by decide)).trans <| (keepR0 m ρ c main_arg6 (by decide)).trans <| (keepH0 m ρ c main_arg6 (by decide)) : W5 m ρ c (Proc.devRef .tc main_arg6) = W0 m ρ c (Proc.devRef .tc main_arg6)).trans rfl
theorem in2_b (c : Dev nD) : Value2.bA (V5 m ρ) c = shapeCast S1x64 (m ((c.tc : Thread nD τ).loc main_arg7)) shapeCasts_S64_S1x64 := by
  have e : W5 m ρ c (Proc.devRef .tc main_v46) = shapeCast S1x64 (W4 m ρ c (Proc.devRef .tc main_arg7)) shapeCasts_S64_S1x64 := by
    show StableHlo.after hostOps2 _ (Proc.devRef .tc main_v46) = _
    after_results <;> rfl
  have e' : W4 m ρ c (Proc.devRef .tc main_arg7) = (m ((c.tc : Thread nD τ).loc main_arg7)) :=
    ((keepR1 m ρ c main_arg7 (by decide)).trans <| (keepH1 m ρ c main_arg7 (by decide)).trans <| (keepR0 m ρ c main_arg7 (by decide)).trans <| (keepH0 m ρ c main_arg7 (by decide)) : W4 m ρ c (Proc.devRef .tc main_arg7) = W0 m ρ c (Proc.devRef .tc main_arg7)).trans rfl
  exact e.trans (by rw [e'])
theorem in2_bias (c : Dev nD) : Value2.bias (V5 m ρ) c = (m ((c.tc : Thread nD τ).loc main_arg7)) := by
  unfold Value2.bias
  rw [in2_b m ρ c]
  exact row_of_vec (m ((c.tc : Thread nD τ).loc main_arg7))

theorem in3_agg (c : Dev nD) : Value3.aggA (V7 m ρ) c = agg (m ((c.tc : Thread nD τ).loc main_arg1)) (m ((c.tc : Thread nD τ).loc main_arg4)) (m ((c.tc : Thread nD τ).loc main_arg5)) :=
  ((keepH3 m ρ c main_v39 (by decide)).trans <| (keepR2 m ρ c main_v39 (by decide)).trans <| (keepH2 m ρ c main_v39 (by decide)).trans <| (keepR1 m ρ c main_v39 (by decide)).trans <| (keepH1 m ρ c main_v39 (by decide)).trans <| (keepR0 m ρ c main_v39 (by decide)) : W7 m ρ c (Proc.devRef .tc main_v39) = W1 m ρ c (Proc.devRef .tc main_v39)).trans (W1_main_v39 m ρ c)
theorem in3_w (c : Dev nD) : Value3.wA (V7 m ρ) c = (m ((c.tc : Thread nD τ).loc main_arg8)) :=
  ((keepH3 m ρ c main_arg8 (by decide)).trans <| (keepR2 m ρ c main_arg8 (by decide)).trans <| (keepH2 m ρ c main_arg8 (by decide)).trans <| (keepR1 m ρ c main_arg8 (by decide)).trans <| (keepH1 m ρ c main_arg8 (by decide)).trans <| (keepR0 m ρ c main_arg8 (by decide)).trans <| (keepH0 m ρ c main_arg8 (by decide)) : W7 m ρ c (Proc.devRef .tc main_arg8) = W0 m ρ c (Proc.devRef .tc main_arg8)).trans rfl
theorem in3_b (c : Dev nD) : Value3.bA (V7 m ρ) c = shapeCast S1x64 (m ((c.tc : Thread nD τ).loc main_arg9)) shapeCasts_S64_S1x64 := by
  have e : W7 m ρ c (Proc.devRef .tc main_v49) = shapeCast S1x64 (W6 m ρ c (Proc.devRef .tc main_arg9)) shapeCasts_S64_S1x64 := by
    show StableHlo.after hostOps3 _ (Proc.devRef .tc main_v49) = _
    after_results <;> rfl
  have e' : W6 m ρ c (Proc.devRef .tc main_arg9) = (m ((c.tc : Thread nD τ).loc main_arg9)) :=
    ((keepR2 m ρ c main_arg9 (by decide)).trans <| (keepH2 m ρ c main_arg9 (by decide)).trans <| (keepR1 m ρ c main_arg9 (by decide)).trans <| (keepH1 m ρ c main_arg9 (by decide)).trans <| (keepR0 m ρ c main_arg9 (by decide)).trans <| (keepH0 m ρ c main_arg9 (by decide)) : W6 m ρ c (Proc.devRef .tc main_arg9) = W0 m ρ c (Proc.devRef .tc main_arg9)).trans rfl
  exact e.trans (by rw [e'])
theorem in3_bias (c : Dev nD) : Value3.bias (V7 m ρ) c = (m ((c.tc : Thread nD τ).loc main_arg9)) := by
  unfold Value3.bias
  rw [in3_b m ρ c]
  exact row_of_vec (m ((c.tc : Thread nD τ).loc main_arg9))

/-! ## The results at the end -/

/-- The convolution pallas_call 0 leaves is not written again. -/
theorem res_h0 (c : Dev nD) : W9 m ρ c (Proc.devRef .tc main_v41_0) = Spec.Hs (agg (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7)) := by
  have e : W9 m ρ c (Proc.devRef .tc main_v41_0) = W2 m ρ c (Proc.devRef .tc main_v41_0) := (keepH4 m ρ c main_v41_0 (by decide)).trans <| (keepR3 m ρ c main_v41_0 (by decide)).trans <| (keepH3 m ρ c main_v41_0 (by decide)).trans <| (keepR2 m ρ c main_v41_0 (by decide)).trans <| (keepH2 m ρ c main_v41_0 (by decide)).trans <| (keepR1 m ρ c main_v41_0 (by decide)).trans <| (keepH1 m ρ c main_v41_0 (by decide))
  rw [e]
  refine ((W2_arr m ρ c 3).trans (Value0.final3 (V1 m ρ) c)).trans ?_
  rw [in0_agg m ρ c, in0_w m ρ c, in0_bias m ρ c]

/-- The summary pallas_call 0 leaves, reshaped to a vector by the host stretch after it, is not written again. -/
theorem res_c0 (c : Dev nD) : W9 m ρ c (Proc.devRef .tc main_v42) = Spec.Cs (agg (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7)) := by
  have e : W9 m ρ c (Proc.devRef .tc main_v42) = W3 m ρ c (Proc.devRef .tc main_v42) := (keepH4 m ρ c main_v42 (by decide)).trans <| (keepR3 m ρ c main_v42 (by decide)).trans <| (keepH3 m ρ c main_v42 (by decide)).trans <| (keepR2 m ρ c main_v42 (by decide)).trans <| (keepH2 m ρ c main_v42 (by decide)).trans <| (keepR1 m ρ c main_v42 (by decide))
  have e2 : W3 m ρ c (Proc.devRef .tc main_v42) = shapeCast S64 (W2 m ρ c (Proc.devRef .tc main_v41_1)) shapeCasts_S1x64_S64 := by
    show StableHlo.after hostOps1 _ (Proc.devRef .tc main_v42) = _
    after_results <;> rfl
  have e3 : W2 m ρ c (Proc.devRef .tc main_v41_1) = Value0.csum (V1 m ρ) c :=
    (W2_arr m ρ c 4).trans (Value0.final4 (V1 m ρ) c)
  rw [e, e2, e3]
  funext j
  rw [vec_of_row]
  unfold Value0.csum
  rw [in0_agg m ρ c, in0_w m ρ c, in0_bias m ρ c]
  exact congrArg _ (eq_ix1 j).symm

/-- The convolution pallas_call 1 leaves is not written again. -/
theorem res_h1 (c : Dev nD) : W9 m ρ c (Proc.devRef .tc main_v44_0) = Spec.Hs (agg (m ((c.tc : Thread nD τ).loc main_arg0)) (m ((c.tc : Thread nD τ).loc main_arg4)) (m ((c.tc : Thread nD τ).loc main_arg5))) (m ((c.tc : Thread nD τ).loc main_arg8)) (m ((c.tc : Thread nD τ).loc main_arg9)) := by
  have e : W9 m ρ c (Proc.devRef .tc main_v44_0) = W4 m ρ c (Proc.devRef .tc main_v44_0) := (keepH4 m ρ c main_v44_0 (by decide)).trans <| (keepR3 m ρ c main_v44_0 (by decide)).trans <| (keepH3 m ρ c main_v44_0 (by decide)).trans <| (keepR2 m ρ c main_v44_0 (by decide)).trans <| (keepH2 m ρ c main_v44_0 (by decide))
  rw [e]
  refine ((W4_arr m ρ c 3).trans (Value1.final3 (V3 m ρ) c)).trans ?_
  rw [in1_agg m ρ c, in1_w m ρ c, in1_bias m ρ c]

/-- The summary pallas_call 1 leaves, reshaped to a vector by the host stretch after it, is not written again. -/
theorem res_c1 (c : Dev nD) : W9 m ρ c (Proc.devRef .tc main_v45) = Spec.Cs (agg (m ((c.tc : Thread nD τ).loc main_arg0)) (m ((c.tc : Thread nD τ).loc main_arg4)) (m ((c.tc : Thread nD τ).loc main_arg5))) (m ((c.tc : Thread nD τ).loc main_arg8)) (m ((c.tc : Thread nD τ).loc main_arg9)) := by
  have e : W9 m ρ c (Proc.devRef .tc main_v45) = W5 m ρ c (Proc.devRef .tc main_v45) := (keepH4 m ρ c main_v45 (by decide)).trans <| (keepR3 m ρ c main_v45 (by decide)).trans <| (keepH3 m ρ c main_v45 (by decide)).trans <| (keepR2 m ρ c main_v45 (by decide))
  have e2 : W5 m ρ c (Proc.devRef .tc main_v45) = shapeCast S64 (W4 m ρ c (Proc.devRef .tc main_v44_1)) shapeCasts_S1x64_S64 := by
    show StableHlo.after hostOps2 _ (Proc.devRef .tc main_v45) = _
    after_results <;> rfl
  have e3 : W4 m ρ c (Proc.devRef .tc main_v44_1) = Value1.csum (V3 m ρ) c :=
    (W4_arr m ρ c 4).trans (Value1.final4 (V3 m ρ) c)
  rw [e, e2, e3]
  funext j
  rw [vec_of_row]
  unfold Value1.csum
  rw [in1_agg m ρ c, in1_w m ρ c, in1_bias m ρ c]
  exact congrArg _ (eq_ix1 j).symm

/-- The convolution pallas_call 2 leaves is not written again. -/
theorem res_h2 (c : Dev nD) : W9 m ρ c (Proc.devRef .tc main_v47_0) = Spec.Hs (agg (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7)) := by
  have e : W9 m ρ c (Proc.devRef .tc main_v47_0) = W6 m ρ c (Proc.devRef .tc main_v47_0) := (keepH4 m ρ c main_v47_0 (by decide)).trans <| (keepR3 m ρ c main_v47_0 (by decide)).trans <| (keepH3 m ρ c main_v47_0 (by decide))
  rw [e]
  refine ((W6_arr m ρ c 3).trans (Value2.final3 (V5 m ρ) c)).trans ?_
  rw [in2_agg m ρ c, in2_w m ρ c, in2_bias m ρ c]

/-- The convolution pallas_call 3 leaves is not written again. -/
theorem res_h3 (c : Dev nD) : W9 m ρ c (Proc.devRef .tc main_v50_0) = Spec.Hs (agg (m ((c.tc : Thread nD τ).loc main_arg1)) (m ((c.tc : Thread nD τ).loc main_arg4)) (m ((c.tc : Thread nD τ).loc main_arg5))) (m ((c.tc : Thread nD τ).loc main_arg8)) (m ((c.tc : Thread nD τ).loc main_arg9)) := by
  have e : W9 m ρ c (Proc.devRef .tc main_v50_0) = W8 m ρ c (Proc.devRef .tc main_v50_0) := (keepH4 m ρ c main_v50_0 (by decide))
  rw [e]
  refine ((W8_arr m ρ c 3).trans (Value3.final3 (V7 m ρ) c)).trans ?_
  rw [in3_agg m ρ c, in3_w m ρ c, in3_bias m ρ c]

/-! ## The run, read -/

/-- Every weakly fair execution of the idealized kernel program terminates, nothing faulting, with the six results at
    the convolutions and summaries of its arguments and the arguments unchanged. -/
theorem run_spec : θ_run defs (onTc (τ := τ) (main (F := Ideal))) ⟨m, fun _ => 0, ρ⟩ (fun r => ∀ c : Dev nD,
      r.2.mem ((c.tc : Thread nD τ).loc main_v41_0) = Spec.Hs (agg (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v44_0) = Spec.Hs (agg (m ((c.tc : Thread nD τ).loc main_arg0)) (m ((c.tc : Thread nD τ).loc main_arg4)) (m ((c.tc : Thread nD τ).loc main_arg5))) (m ((c.tc : Thread nD τ).loc main_arg8)) (m ((c.tc : Thread nD τ).loc main_arg9))
      ∧ r.2.mem ((c.tc : Thread nD τ).loc main_v42) = Spec.Cs (agg (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v45) = Spec.Cs (agg (m ((c.tc : Thread nD τ).loc main_arg0)) (m ((c.tc : Thread nD τ).loc main_arg4)) (m ((c.tc : Thread nD τ).loc main_arg5))) (m ((c.tc : Thread nD τ).loc main_arg8)) (m ((c.tc : Thread nD τ).loc main_arg9))
      ∧ r.2.mem ((c.tc : Thread nD τ).loc main_v47_0) = Spec.Hs (agg (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v50_0) = Spec.Hs (agg (m ((c.tc : Thread nD τ).loc main_arg1)) (m ((c.tc : Thread nD τ).loc main_arg4)) (m ((c.tc : Thread nD τ).loc main_arg5))) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨
      (h c _ (mem_uc main_v41_0 (by decide))).trans (res_h0 m ρ c),
      (h c _ (mem_uc main_v44_0 (by decide))).trans (res_h1 m ρ c),
      (h c _ (mem_uc main_v42 (by decide))).trans (res_c0 m ρ c),
      (h c _ (mem_uc main_v45 (by decide))).trans (res_c1 m ρ c),
      (h c _ (mem_uc main_v47_0 (by decide))).trans (res_h2 m ρ c),
      (h c _ (mem_uc main_v50_0 (by decide))).trans (res_h3 m ρ c),
      (h c _ (mem_uc main_arg0 (by decide))).trans (W9_arg m ρ c main_arg0 (by decide) (by decide) (by decide) (by decide) (by decide) (by decide) (by decide) (by decide) (by decide)),
      (h c _ (mem_uc main_arg1 (by decide))).trans (W9_arg m ρ c main_arg1 (by decide) (by decide) (by decide) (by decide) (by decide) (by decide) (by decide) (by decide) (by decide)),
      (h c _ (mem_uc main_arg2 (by decide))).trans (W9_arg m ρ c main_arg2 (by decide) (by decide) (by decide) (by decide) (by decide) (by decide) (by decide) (by decide) (by decide)),
      (h c _ (mem_uc main_arg3 (by decide))).trans (W9_arg m ρ c main_arg3 (by decide) (by decide) (by decide) (by decide) (by decide) (by decide) (by decide) (by decide) (by decide)),
      (h c _ (mem_uc main_arg4 (by decide))).trans (W9_arg m ρ c main_arg4 (by decide) (by decide) (by decide) (by decide) (by decide) (by decide) (by decide) (by decide) (by decide)),
      (h c _ (mem_uc main_arg5 (by decide))).trans (W9_arg m ρ c main_arg5 (by decide) (by decide) (by decide) (by decide) (by decide) (by decide) (by decide) (by decide) (by decide)),
      (h c _ (mem_uc main_arg6 (by decide))).trans (W9_arg m ρ c main_arg6 (by decide) (by decide) (by decide) (by decide) (by decide) (by decide) (by decide) (by decide) (by decide)),
      (h c _ (mem_uc main_arg7 (by decide))).trans (W9_arg m ρ c main_arg7 (by decide) (by decide) (by decide) (by decide) (by decide) (by decide) (by decide) (by decide) (by decide)),
      (h c _ (mem_uc main_arg8 (by decide))).trans (W9_arg m ρ c main_arg8 (by decide) (by decide) (by decide) (by decide) (by decide) (by decide) (by decide) (by decide) (by decide)),
      (h c _ (mem_uc main_arg9 (by decide))).trans (W9_arg m ρ c main_arg9 (by decide) (by decide) (by decide) (by decide) (by decide) (by decide) (by decide) (by decide) (by decide))⟩)
    (run_all m ρ)

end Cert.KernelIdeal.Final

end
-- ==== Proof.RefValue.lean ====
/-
  The reference's six results as the specification's functions, at the extended reals.

  Each of the reference's four graph convolutions is  h = agg · W + b  over one aggregated feature array agg (the
  scatter-added neighbour sum, which is carried here as one array and never opened), and each of its two pooled
  summaries is  c j = logistic((Σ_r h r j) / 100000).  Read at an index:
  * the host's dot_general at (r, j) is the sum over k of agg (r, k) · W (k, j)  (its one contracted axis re-indexed
    by its one coordinate);
  * the bias reaches (r, j) through two broadcasts, [64] → [1, 64] → [100000, 64], and reads b j;
  * the host's sum over the rows starts from the word of +0.0, which is the extended real 0;
  * the divisor's word 0x47C35000 is the real 100000, and division by a real that is not zero is multiplication by
    its reciprocal on every extended real, the infinities included;
  * 1 / (1 + exp (-x)) with the word of 1.0 is the logistic function by its definition.
  No finiteness of the inputs is used.
-/
import proofs.«101884_j77610059038802_1_alg».proof.Defs
import proofs.«101884_j77610059038802_1_alg».proof.Proof.Gen.ReferenceIdeal.Run
import proofs.«101884_j77610059038802_1_alg».proof.Proof.Gen.ReferenceIdeal.Read
import proofs.«101884_j77610059038802_1_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The aggregated features -/

/-- The aggregated features as the reference builds them: the rows of x gathered at the (wrapped) source nodes and
    scatter-added at the destination nodes into an array of zeros. One array, never opened below. -/
def agg {F : FTy → Type} [FloatOps F] (x : (⟨S100000x64, .f32⟩ : BufTy).Contents (Elt F))
    (src dst : (⟨S1000000, .i32⟩ : BufTy).Contents (Elt F)) : (⟨S100000x64, .f32⟩ : BufTy).Contents (Elt F) :=
  Host.scatterAdd (F := F) scatter_S100000x64_S1000000x1_S1000000x64_1_0_0_1 (broadcastInDim S100000x64 ![] bcast_S_S100000x64 (constant (F := F) S_ .f32 0x00000000#32)) (broadcastInDim S1000000x1 ![0] bcast_S1000000_S1000000x1_0 dst) (Host.gather gather_S100000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))

/-! ## A convolution's output at an index -/

/-- The product at (r, j): the sum over the contracted coordinate k of a (r, k) · w (k, j). -/
theorem dot_apply (a : FVec Ideal S100000x64 .f32) (w : FVec Ideal S64x64 .f32) (i : S100000x64.Idx) :
    Host.dotGeneral (F := Ideal) dot_S100000x64_S64x64_S100000x64_1_0_0_1_n_n none a w i
      = ∑ k : Fin 64, a (ValueIdx.ix2 (n0 := 100000) (n1 := 64) (i 0) k) * w (ValueIdx.ix2 (n0 := 64) (n1 := 64) k (i 1)) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = ValueIdx.ix2 (n0 := 100000) (n1 := 64) (i 0) k := funext fun d => Fin.ext (by
    match d with
    | ⟨0, _⟩ => exact Read.lhs_main_v10_0 _ _
    | ⟨1, _⟩ => exact (Read.lhs_main_v10_1 _ _).trans hk)
  have er : dot_S100000x64_S64x64_S100000x64_1_0_0_1_n_n.rhsIdx i ((ValueIdx.contrEquiv1 dot_S100000x64_S64x64_S100000x64_1_0_0_1_n_n 64 rfl rfl).symm k) = ValueIdx.ix2 (n0 := 64) (n1 := 64) k (i 1) := funext fun d => Fin.ext (by
    match d with
    | ⟨0, _⟩ => exact (Read.rhs_main_v10_0 _ _).trans hk
    | ⟨1, _⟩ => exact Read.rhs_main_v10_1 _ _)
  rw [el, er]

/-- The bias as a one-row array reads b at the column. -/
theorem bias_row (b : FVec Ideal S64 .f32) (j : S1x64.Idx) :
    broadcastInDim S1x64 ![1] bcast_S64_S1x64_1 b j = b (ValueIdx.ix1 (j 1)) :=
  broadcastInDim_apply _ bcast_S64_S1x64_1 b j (ValueIdx.ix1 (j 1)) (fun d => match d with
    | ⟨0, _⟩ => by show (j 1).val = if (64 : Nat) = 1 then 0 else (j 1).val; rw [if_neg (by decide)])

/-- A one-row array spread over the 100000 rows reads its one row at the column. -/
theorem bias_rows (y : FVec Ideal S1x64 .f32) (i : S100000x64.Idx) :
    broadcastInDim S100000x64 ![0, 1] bcast_S1x64_S100000x64_0_1 y i
      = y (ValueIdx.ix2 (n0 := 1) (n1 := 64) ⟨0, Nat.one_pos⟩ (i 1)) :=
  broadcastInDim_apply _ bcast_S1x64_S100000x64_0_1 y i (ValueIdx.ix2 (n0 := 1) (n1 := 64) ⟨0, Nat.one_pos⟩ (i 1)) (fun d => match d with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A convolution of the reference over an aggregated array a is the specification's h. -/
theorem ref_h (a : FVec Ideal S100000x64 .f32) (w : FVec Ideal S64x64 .f32) (b : FVec Ideal S64 .f32) :
    addf (F := Ideal) (Host.dotGeneral (F := Ideal) dot_S100000x64_S64x64_S100000x64_1_0_0_1_n_n none a w) (broadcastInDim S100000x64 ![0, 1] bcast_S1x64_S100000x64_0_1 (broadcastInDim S1x64 ![1] bcast_S64_S1x64_1 b))
      = Cert.Spec.Hs a w b := by
  funext i
  rw [ValueIdx.addf_apply, dot_apply, bias_rows, bias_row]
  rfl

/-! ## A pooled summary at an index -/

/-- The word of 100000.0 is the real 100000. -/
theorem ofBits_100000 : Ideal.ofBits .f32 0x47C35000#32 = ((100000 : ℝ) : EReal) := by
  simp [Ideal.ofBits, Ideal.ieee, -EReal.coe_mul]; norm_num

/-- The host's sum over the rows at column j: the initial value plus the sum over the 100000 rows. -/
theorem rowsum_apply (x : FVec Ideal S100000x64 .f32) (init : FVec Ideal S_ .f32) (j : S64.Idx) :
    Host.reduceAdd (F := Ideal) x init reducesTo_S100000x64_S64_d0 h_S_ j
      = init (Shape.Idx.first h_S_) + ∑ r : Fin 100000, x (ValueIdx.ix2 (n0 := 100000) (n1 := 64) r (j 0)) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg x (funext fun d => Fin.ext (by match d with | ⟨0, _⟩ => rfl | ⟨1, _⟩ => rfl))

/-- The column mean as the reference takes it, from the word of +0.0 and by the word of 100000.0: the column sum
    times the reciprocal of 100000, on every extended real. -/
theorem mean_apply (x : FVec Ideal S100000x64 .f32) (j : S64.Idx) :
    (Host.divf (F := Ideal) (Host.reduceAdd (F := Ideal) x (constant (F := Ideal) S_ .f32 0x00000000#32) reducesTo_S100000x64_S64_d0 h_S_) (broadcastInDim S64 ![] bcast_S_S64 (constant (F := Ideal) S_ .f32 0x47C35000#32))) j
      = (∑ r : Fin 100000, x (ValueIdx.ix2 (n0 := 100000) (n1 := 64) r (j 0))) * ((1 / 100000 : ℝ) : EReal) := by
  show Ideal.div (Host.reduceAdd (F := Ideal) x (constant (F := Ideal) S_ .f32 0x00000000#32) reducesTo_S100000x64_S64_d0 h_S_ j)
      (Ideal.ofBits .f32 0x47C35000#32) = _
  rw [rowsum_apply, ofBits_100000, Ideal.div_coe (by norm_num : (100000 : ℝ) ≠ 0), ValueIdx.constant_apply,
    Ideal.ofBits_zero_f32, zero_add]

/-- 1 / (1 + exp (-y)) with the word of 1.0 is the logistic function. -/
theorem logistic_apply (y : FVec Ideal S64 .f32) (j : S64.Idx) :
    (Host.divf (F := Ideal) (broadcastInDim S64 ![] bcast_S_S64 (constant (F := Ideal) S_ .f32 0x3F800000#32)) (addf (F := Ideal) (broadcastInDim S64 ![] bcast_S_S64 (constant (F := Ideal) S_ .f32 0x3F800000#32)) (Host.exp (F := Ideal) (Host.negf (F := Ideal) y)))) j
      = Ideal.logistic (y j) := by
  show Ideal.div (Ideal.ofBits .f32 0x3F800000#32) ((Ideal.ofBits .f32 0x3F800000#32 : EReal) + Ideal.exp (-(y j))) = _
  rw [Ideal.ofBits_one_f32]
  rfl

/-- A pooled summary of the reference over an aggregated array a is the specification's c. -/
theorem ref_c (a : FVec Ideal S100000x64 .f32) (w : FVec Ideal S64x64 .f32) (b : FVec Ideal S64 .f32) :
    Host.divf (F := Ideal) (broadcastInDim S64 ![] bcast_S_S64 (constant (F := Ideal) S_ .f32 0x3F800000#32)) (addf (F := Ideal) (broadcastInDim S64 ![] bcast_S_S64 (constant (F := Ideal) S_ .f32 0x3F800000#32)) (Host.exp (F := Ideal) (Host.negf (F := Ideal) (Host.divf (F := Ideal) (Host.reduceAdd (F := Ideal) (addf (F := Ideal) (Host.dotGeneral (F := Ideal) dot_S100000x64_S64x64_S100000x64_1_0_0_1_n_n none a w) (broadcastInDim S100000x64 ![0, 1] bcast_S1x64_S100000x64_0_1 (broadcastInDim S1x64 ![1] bcast_S64_S1x64_1 b))) (constant (F := Ideal) S_ .f32 0x00000000#32) reducesTo_S100000x64_S64_d0 h_S_) (broadcastInDim S64 ![] bcast_S_S64 (constant (F := Ideal) S_ .f32 0x47C35000#32))))))
      = Cert.Spec.Cs a w b := by
  funext j
  rw [logistic_apply, mean_apply, ref_h a w b]
  rfl

/-! ## The reference's run -/

/-- Every weakly fair execution of the reference ends with its six results at the specification's functions of the
    launch contents of its arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.Spec.Hs (agg (F := Ideal) (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v27) = Cert.Spec.Hs (agg (F := Ideal) (m ((c.tc : Thread nD τ).loc main_arg0)) (m ((c.tc : Thread nD τ).loc main_arg4)) (m ((c.tc : Thread nD τ).loc main_arg5))) (m ((c.tc : Thread nD τ).loc main_arg8)) (m ((c.tc : Thread nD τ).loc main_arg9))
      ∧ r.2.mem ((c.tc : Thread nD τ).loc main_v36) = Cert.Spec.Cs (agg (F := Ideal) (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v45) = Cert.Spec.Cs (agg (F := Ideal) (m ((c.tc : Thread nD τ).loc main_arg0)) (m ((c.tc : Thread nD τ).loc main_arg4)) (m ((c.tc : Thread nD τ).loc main_arg5))) (m ((c.tc : Thread nD τ).loc main_arg8)) (m ((c.tc : Thread nD τ).loc main_arg9))
      ∧ r.2.mem ((c.tc : Thread nD τ).loc main_v59) = Cert.Spec.Hs (agg (F := Ideal) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))
      ∧ r.2.mem ((c.tc : Thread nD τ).loc main_v73) = Cert.Spec.Hs (agg (F := Ideal) (m ((c.tc : Thread nD τ).loc main_arg1)) (m ((c.tc : Thread nD τ).loc main_arg4)) (m ((c.tc : Thread nD τ).loc main_arg5))) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (ref_h _ _ _),
      (h c).2.1.trans (ref_h _ _ _),
      (h c).2.2.1.trans (ref_c _ _ _),
      (h c).2.2.2.1.trans (ref_c _ _ _),
      (h c).2.2.2.2.1.trans (ref_h _ _ _),
      (h c).2.2.2.2.2.1.trans (ref_h _ _ _),
      (h c).2.2.2.2.2.2⟩)
    (Cert.ReferenceIdeal.Value.run (F := Ideal) m ρ)

end Cert.ReferenceIdeal.RefValue

end
-- ==== Proof.lean ====
/-
  Kernel and reference compute, from the same ten arguments, four graph convolutions  h = agg · W + b  (agg the
  scatter-added neighbour features both programs build with the same host operations) and, of the first two, the pooled
  summary  c = logistic(column mean of h).  The kernel program computes each convolution in a pallas_call over five row
  blocks, with the matrix product on bf16-rounded operands (the identity over the extended reals), accumulates the
  column sums block by block in a scratch buffer, and multiplies by the reciprocal 1/100000 it names where the
  reference divides by 100000 — the same extended real, the sums regrouped freely. The frames of the two kernel
  programs come from running their nine segments; the reference's from its generated run.
-/
import proofs.«101884_j77610059038802_1_alg».proof.Defs
import proofs.«101884_j77610059038802_1_alg».proof.Proof.Gen.Kernel
import proofs.«101884_j77610059038802_1_alg».proof.Proof.Gen.KernelIdeal
import proofs.«101884_j77610059038802_1_alg».proof.Proof.Gen.ReferenceIdeal
import proofs.«101884_j77610059038802_1_alg».proof.Proof.Gen.Pre_finite_inputs
import proofs.«101884_j77610059038802_1_alg».proof.Proof.KFrame
import proofs.«101884_j77610059038802_1_alg».proof.Proof.KIFinal
import proofs.«101884_j77610059038802_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Run.frame m ρ

theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The one named constant, at its four sites: the table gives "inv_100000" the value 1/100000. -/
theorem named : IdealRules.named_const.Statement Cert.KernelIdeal.κ "inv_100000" .f32 0x3727C5AC#32 ((1 / 100000 : ℝ) : EReal) :=
  IdealRules.named_const.statement Cert.KernelIdeal.κ "inv_100000" .f32 0x3727C5AC#32 ((1 / 100000 : ℝ) : EReal) rfl

theorem preserves : Cert.preserves_Kernel_KernelIdeal := ⟨named, named, named, named⟩

/-- Both programs build the aggregated features by the same host operations of the same arguments. -/
theorem agg_eq (x : (⟨Cert.KernelIdeal.S100000x64, .f32⟩ : BufTy).Contents (Elt Ideal)) (src dst : (⟨Cert.KernelIdeal.S1000000, .i32⟩ : BufTy).Contents (Elt Ideal)) :
    Cert.ReferenceIdeal.RefValue.agg x src dst = Cert.KernelIdeal.Final.agg x src dst := rfl

/-- From memories agreeing on the arguments both programs run and end with equal results: the kernel program's are the
    convolutions and summaries of its arguments, and so are the reference's. -/
theorem algebraic : Cert.algebraic_KernelIdeal_ReferenceIdeal := by
  intro m ρ m' ρ' _ hagree
  refine ⟨_, _, _, _, _, _, Cert.KernelIdeal.Final.run_spec m ρ, ?_⟩
  refine (θ_run Cert.ReferenceIdeal.defs _ _).mono (fun r h c => ?_) (Cert.ReferenceIdeal.RefValue.run_spec m' ρ')
  obtain ⟨a0, a1, a2, a3, a4, a5, a6, a7, a8, a9⟩ := hagree c
  obtain ⟨h0, h1, h2, h3, h4, h5, rest⟩ := h c
  refine ⟨h0.trans ?_, h1.trans ?_, h2.trans ?_, h3.trans ?_, h4.trans ?_, h5.trans ?_, rest⟩
  all_goals simp only [a0, a1, a2, a3, a4, a5, a6, a7, a8, a9, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
